-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x512 : Shape := ⟨2, ![16384, 512]⟩
abbrev S1024x256 : Shape := ⟨2, ![1024, 256]⟩
abbrev S256 : Shape := ⟨1, ![256]⟩
abbrev S512x40 : Shape := ⟨2, ![512, 40]⟩
abbrev S40 : Shape := ⟨1, ![40]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S512x40 .f32) (main_arg5 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x40 .f32 := Host.absf main_arg4
  let main_cst_6 : FVec F S_ .f32 := constant S_ .f32 0x7F800000#32
  let main_v20 : FVec F S512x40 .f32 := broadcastInDim S512x40 ![] bcast_S_S512x40 main_cst_6
  let main_v21 : IVec S512x40 1 := cmpf .olt main_v19 main_v20
  let main_c_7 : IVec S_ 1 := constantI S_ 1 1#1
  let main_v22 : IVec S_ 1 := (fun x v => Host.reduce IntOp.andi x v reducesTo_S512x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S16384x16384 .f32) (main_arg1 : FVec F S16384x512 .f32) (main_arg2 : FVec F S1024x256 .f32) (main_arg3 : FVec F S256 .f32) (main_arg4 : FVec F S512x40 .f32) (main_arg5 : FVec F S40 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16384x16384 : Shape := ⟨2, ![16384, 16384]⟩
abbrev S16384x512 : Shape := ⟨2, ![16384, 512]⟩
abbrev S1024x256 : Shape := ⟨2, ![1024, 256]⟩
abbrev S256 : Shape := ⟨1, ![256]⟩
abbrev S512x40 : Shape := ⟨2, ![512, 40]⟩
abbrev S40 : Shape := ⟨1, ![40]⟩
abbrev S512x256 : Shape := ⟨2, ![512, 256]⟩
abbrev S256x40 : Shape := ⟨2, ![256, 40]⟩
abbrev S1x256 : Shape := ⟨2, ![1, 256]⟩
abbrev S1x40 : Shape := ⟨2, ![1, 40]⟩
abbrev S16384x256 : Shape := ⟨2, ![16384, 256]⟩
abbrev S1024x2048 : Shape := ⟨2, ![1024, 2048]⟩
abbrev S2048x512 : Shape := ⟨2, ![2048, 512]⟩
abbrev S1024x512 : Shape := ⟨2, ![1024, 512]⟩
abbrev S16384x40 : Shape := ⟨2, ![16384, 40]⟩
abbrev S2048x256 : Shape := ⟨2, ![2048, 256]⟩
abbrev S1024x40 : Shape := ⟨2, ![1024, 40]⟩

abbrev nBuf : Space → Nat
  | .hbm => 14
  | .vmem => 24
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S1024x256, .f32⟩
  | .hbm, ⟨3, _⟩ => ⟨S256, .f32⟩
  | .hbm, ⟨4, _⟩ => ⟨S512x40, .f32⟩
  | .hbm, ⟨5, _⟩ => ⟨S40, .f32⟩
  | .hbm, ⟨6, _⟩ => ⟨S512x256, .f32⟩
  | .hbm, ⟨7, _⟩ => ⟨S512x256, .f32⟩
  | .hbm, ⟨8, _⟩ => ⟨S256x40, .f32⟩
  | .hbm, ⟨9, _⟩ => ⟨S256x40, .f32⟩
  | .hbm, ⟨10, _⟩ => ⟨S1x256, .f32⟩
  | .hbm, ⟨11, _⟩ => ⟨S1x40, .f32⟩
  | .hbm, ⟨12, _⟩ => ⟨S16384x256, .f32⟩
  | .hbm, ⟨13, _⟩ => ⟨S16384x40, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1024x256, .f32⟩
  | .local _ .vmem, ⟨10, _⟩ => ⟨S1024x256, .f32⟩
  | .local _ .vmem, ⟨11, _⟩ => ⟨S1024x512, .f32⟩
  | .local _ .vmem, ⟨12, _⟩ => ⟨S1024x2048, .f32⟩
  | .local _ .vmem, ⟨13, _⟩ => ⟨S1024x2048, .f32⟩
  | .local _ .vmem, ⟨14, _⟩ => ⟨S2048x256, .f32⟩
  | .local _ .vmem, ⟨15, _⟩ => ⟨S2048x256, .f32⟩
  | .local _ .vmem, ⟨16, _⟩ => ⟨S1024x256, .f32⟩
  | .local _ .vmem, ⟨17, _⟩ => ⟨S1024x256, .f32⟩
  | .local _ .vmem, ⟨18, _⟩ => ⟨S256x40, .f32⟩
  | .local _ .vmem, ⟨19, _⟩ => ⟨S256x40, .f32⟩
  | .local _ .vmem, ⟨20, _⟩ => ⟨S1x40, .f32⟩
  | .local _ .vmem, ⟨21, _⟩ => ⟨S1024x40, .f32⟩
  | .local _ .vmem, ⟨22, _⟩ => ⟨S1024x40, .f32⟩
  | .local _ .vmem, ⟨23, _⟩ => ⟨S1024x256, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S1024x256_S512x256_0_0 : S1024x256.Slices ![0, 0] S512x256
  slices_S1024x256_S512x256_512_0 : S1024x256.Slices ![512, 0] S512x256
  slices_S512x40_S256x40_0_0 : S512x40.Slices ![0, 0] S256x40
  slices_S512x40_S256x40_256_0 : S512x40.Slices ![256, 0] S256x40
  shapeCasts_S256_S1x256 : S256.ShapeCasts S1x256
  shapeCasts_S40_S1x40 : S40.ShapeCasts S1x40
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1024x40 : S1x40.Broadcasts S1024x40
  inb_S1024x40_S1024x40_0_0 : ∀ a, (![0, 0] : Fin 2 → Nat) a + S1024x40.size a ≤ S1024x40.size a
  h_S1024x40 : 0 < S1024x40.numel
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  dot_S1024x256_S256x40_S1024x40_1_0_0_1_n_n_wf : DotDims.WF S1024x256 S256x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S16384x256.size a
  hwx0_6 : ∀ i : grid0.Coords, EltTy.bits .f32 = 32 ∨ (Rect.block (s := S16384x256) S1024x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .f32 = 32 ∨ (Rect.block (s := S16384x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .f32 = 32 ∨ (Rect.block (s := S16384x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x40.size a ≤ S256x40.size a
  hwx1_3 : ∀ i : grid1.Coords, EltTy.bits .f32 = 32 ∨ (Rect.block (s := S256x40) S256x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x40.size a ≤ S256x40.size a
  hwx1_4 : ∀ i : grid1.Coords, EltTy.bits .f32 = 32 ∨ (Rect.block (s := S256x40) S256x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x40.size a ≤ S16384x40.size a
  hwx1_6 : ∀ i : grid1.Coords, EltTy.bits .f32 = 32 ∨ (Rect.block (s := S16384x40) S1024x40.size (cc1_transform_6 i) (hinb1_6 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x40_S1024x40_1_0_0_1_n_n : DotDims S1024x256 S256x40 S1024x40 where
  lhsContracting := [1]
  rhsContracting := [0]
  lhsNonContracting := [0]
  rhsNonContracting := [1]
  lhsBatch := []
  rhsBatch := []
  wf := dot_S1024x256_S256x40_S1024x40_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1024x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x512 : Shape := ⟨2, ![16384, 512]⟩
abbrev S1024x256 : Shape := ⟨2, ![1024, 256]⟩
abbrev S256 : Shape := ⟨1, ![256]⟩
abbrev S512x40 : Shape := ⟨2, ![512, 40]⟩
abbrev S40 : Shape := ⟨1, ![40]⟩
abbrev S16384x1024 : Shape := ⟨2, ![16384, 1024]⟩
abbrev S16384x256 : Shape := ⟨2, ![16384, 256]⟩
abbrev S1x256 : Shape := ⟨2, ![1, 256]⟩
abbrev S_ : Shape := ⟨0, ![]⟩
abbrev S16384x40 : Shape := ⟨2, ![16384, 40]⟩
abbrev S1x40 : Shape := ⟨2, ![1, 40]⟩

abbrev nBuf : Space → Nat
  | .hbm => 21
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S1024x256, .f32⟩
  | .hbm, ⟨3, _⟩ => ⟨S256, .f32⟩
  | .hbm, ⟨4, _⟩ => ⟨S512x40, .f32⟩
  | .hbm, ⟨5, _⟩ => ⟨S40, .f32⟩
  | .hbm, ⟨6, _⟩ => ⟨S16384x512, .f32⟩
  | .hbm, ⟨7, _⟩ => ⟨S16384x1024, .f32⟩
  | .hbm, ⟨8, _⟩ => ⟨S16384x256, .f32⟩
  | .hbm, ⟨9, _⟩ => ⟨S1x256, .f32⟩
  | .hbm, ⟨10, _⟩ => ⟨S16384x256, .f32⟩
  | .hbm, ⟨11, _⟩ => ⟨S16384x256, .f32⟩
  | .hbm, ⟨12, _⟩ => ⟨S_, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x512, .f32⟩
  | .hbm, ⟨17, _⟩ => ⟨S16384x40, .f32⟩
  | .hbm, ⟨18, _⟩ => ⟨S1x40, .f32⟩
  | .hbm, ⟨19, _⟩ => ⟨S16384x40, .f32⟩
  | .hbm, ⟨20, _⟩ => ⟨S16384x40, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  concatenates_S16384x256_S16384x256_S16384x512_d1 : Shape.Concatenates [S16384x256, S16384x256] S16384x512 1
  bcast_S40_S1x40_1 : S40.BroadcastsInDim S1x40 (![1] : Fin 1 → Fin S1x40.rank)
  bcast_S1x40_S16384x40_0_1 : S1x40.BroadcastsInDim S16384x40 (![0, 1] : Fin 2 → Fin S16384x40.rank)
  dot_S16384x16384_S16384x512_S16384x512_1_0_0_1_n_n_wf : DotDims.WF S16384x16384 S16384x512 S16384x512 [1] [0] [0] [1] [] []
  dot_S16384x1024_S1024x256_S16384x256_1_0_0_1_n_n_wf : DotDims.WF S16384x1024 S1024x256 S16384x256 [1] [0] [0] [1] [] []
  dot_S16384x16384_S16384x256_S16384x256_1_0_0_1_n_n_wf : DotDims.WF S16384x16384 S16384x256 S16384x256 [1] [0] [0] [1] [] []
  dot_S16384x512_S512x40_S16384x40_1_0_0_1_n_n_wf : DotDims.WF S16384x512 S512x40 S16384x40 [1] [0] [0] [1] [] []

variable [Facts₀]

def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x512_S512x40_S16384x40_1_0_0_1_n_n : DotDims S16384x512 S512x40 S16384x40 where
  lhsContracting := [1]
  rhsContracting := [0]
  lhsNonContracting := [0]
  rhsNonContracting := [1]
  lhsBatch := []
  rhsBatch := []
  wf := dot_S16384x512_S512x40_S16384x40_1_0_0_1_n_n_wf

class Facts : Prop extends Facts₀ where

variable [Facts]
-- ==== Proof.KernelFrame.R0Base.lean ====
/-
  The first layer's kernel region, at the contents `V` its arrays hold when it is entered: what each window's block is
  at a grid point, when the two conditionals of the body are taken, and where the result window rests.

  The grid is 16 row tiles by 8 neighbour blocks, walked row tile by row tile: point t is row tile t / 8, block t % 8.
  The accumulator is cleared at the first block of a row tile (t % 8 = 0) and the result tile is produced at the last
  (t % 8 = 7); at every other point the result window is idle and is not written back.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched point
    has the block index of the point before, and the body leaves the block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched point
    has the block index of the point before, and the body leaves the block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched point
    has the block index of the point before, and the body leaves the block as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched point
    has the block index of the point before, and the body leaves the block as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched point
    has the block index of the point before, and the body leaves the block as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: an unfetched point
    has the block index of the point before, and the body leaves the block as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals, over the grid -/

/-- The accumulator is cleared: the neighbour-block coordinate is zero. -/
abbrev cond0_1 (i : grid0.Coords) : Prop :=
  (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

/-- The result tile is produced: the neighbour-block coordinate is the last. -/
abbrev cond0_2 (i : grid0.Coords) : Prop := k0_cond2 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the result window rests -/

/-- Away from a row tile's last block the result window is idle -/
theorem idleAt0_6 : ∀ t : Fin cfg0.N, ¬cond0_2 (grid0.coords t) → cfg0.idle 6 (grid0.coords t) = true := by decide +kernel
/-- and is not written back; -/
theorem noFlush0_6 : ∀ t : Fin cfg0.N, ¬cond0_2 (grid0.coords t) → (cfg0.win 6).flush t = false := by decide +kernel
/-- at the last block it is live. -/
theorem liveAt0_6 : ∀ t : Fin cfg0.N, cond0_2 (grid0.coords t) → cfg0.idle 6 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0 : Memref sig .tc .vmem S1024x512 .f32 := Memref.whole cc0_scratch0

/-! ## The accumulator among the scoped buffers -/

/-- The scoped buffers that are neither a staging buffer of this region nor the accumulator, each whole at some contents. -/
def others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The region's scoped rest is the accumulator at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  unfold Pipeline.scopedRest others0
  rw [bigSep_erase (i := cc0_scratch0) (by decide)]
  simp only [scM0, owns_whole]
  rfl

end Cert.Kernel.Sage

end
-- ==== Proof.LibCover.lean ====
/-
  A list of stores whose LAST store (the head of the list) already covers the whole buffer covers it, whatever came
  before: what a buffer cleared and then rewritten whole holds is decided by the last store alone.
-/
import Idealize.ShloMosaic.Lib.Pipeline.FrameBody

namespace Cert.Cover

open Idealize.ShloMosaic

/-- If the head piece alone covers every index, so does the list. -/
theorem cons {Val : EltTy → Type} {s : Shape} {e : EltTy} (pc : View.Piece Val s e) (L : List (View.Piece Val s e))
    (h : ∀ y : s.Idx, ∃ p ∈ [pc], y ∈ p.1.set) : ∀ y : s.Idx, ∃ p ∈ pc :: L, y ∈ p.1.set :=
  fun y => by
    obtain ⟨p, hp, hy⟩ := h y
    exact ⟨p, List.mem_cons.mpr (Or.inl (List.mem_singleton.mp hp)), hy⟩

/-- The zero offset of a rank-two rectangle, as a function. -/
theorem zero2 : (![0, 0] : Fin 2 → Nat) = fun _ => 0 := funext fun a => by match a with | ⟨0, _⟩ => rfl | ⟨1, _⟩ => rfl

end Cert.Cover
-- ==== Proof.KernelFrame.R0Run.lean ====
/-
  The first layer's kernel body, run once in each of its three cases on whole staging buffers.

  At a row tile's first neighbour block the accumulator is cleared and the block's product added: it ends at
  pay2 a x 0-block. At a middle block the product is added to what the accumulator held: pay2 a x acc. At the last block
  the same, and then the result tile is stored: pay3 of the new accumulator, the tile's own features, the two weight
  halves and the bias. Every store rewrites a whole buffer, so a buffer holds the payload of its last store, and a
  load after a store reads that payload.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import proofs.«175430_j17154099380260_1_alg».proof.Proof.KernelFrame.R0Base
import proofs.«175430_j17154099380260_1_alg».proof.Proof.LibCover
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First block of a row tile: the accumulator, at anything, ends at the block's product over the cleared accumulator. -/
theorem run0_A (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x512 .f32) (harg9 : arg9.IsWhole) (hc1 : cond0_1 i) (hc2 : ¬cond0_2 i)
    (a : Vec F S1024x2048 .f32) (x : Vec F S2048x512 .f32) (E : Set ℕ) (K : PUnit → sProp 𝕄) :
    iprop(owns (c : Thread nD τ) arg2 fullShare a ∗ owns (c : Thread nD τ) arg3 fullShare x ∗ (∃ d, owns (c : Thread nD τ) arg9 fullShare d)
        ∗ (iprop(owns (c : Thread nD τ) arg2 fullShare a ∗ owns (c : Thread nD τ) arg3 fullShare x ∗ owns (c : Thread nD τ) arg9 fullShare (k0_pay2 a x k0_pay1)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f2, %hf2, H2⟩, ⟨%f3, %hf3, H3⟩, ⟨%d9, %f9, -, H9⟩, Hk⟩
  obtain rfl := harg2.eq_unread hf2; obtain rfl := harg3.eq_unread hf3
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact Cert.Cover.cons _ _ (View.cover_of_tiled _ S1024x512.size (by rfl)))]
  sl_unfold_words
  rw [View.canon_cons_unit_zero hz]
  simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]

set_option maxHeartbeats 4000000 in
/-- A middle block: the accumulator at `sc` ends at the block's product added to it. -/
theorem run0_B (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x512 .f32) (harg9 : arg9.IsWhole) (hc1 : ¬cond0_1 i) (hc2 : ¬cond0_2 i)
    (a : Vec F S1024x2048 .f32) (x : Vec F S2048x512 .f32) (sc : Vec F S1024x512 .f32) (E : Set ℕ) (K : PUnit → sProp 𝕄) :
    iprop(owns (c : Thread nD τ) arg2 fullShare a ∗ owns (c : Thread nD τ) arg3 fullShare x ∗ owns (c : Thread nD τ) arg9 fullShare sc
        ∗ (iprop(owns (c : Thread nD τ) arg2 fullShare a ∗ owns (c : Thread nD τ) arg3 fullShare x ∗ owns (c : Thread nD τ) arg9 fullShare (k0_pay2 a x sc)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f2, %hf2, H2⟩, ⟨%f3, %hf3, H3⟩, ⟨%f9, %hf9, H9⟩, Hk⟩
  obtain rfl := harg2.eq_unread hf2; obtain rfl := harg3.eq_unread hf3; obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact View.cover_of_tiled _ S1024x512.size (by rfl))]
  sl_unfold_words
  rw [View.canon_unit_zero hz]
  simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]

set_option maxHeartbeats 4000000 in
/-- Last block of a row tile: the accumulator as at a middle block, and the result buffer, at anything, ends at the
    result tile computed from the new accumulator. -/
theorem run0_C (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x512 .f32) (harg9 : arg9.IsWhole) (hc1 : ¬cond0_1 i) (hc2 : cond0_2 i)
    (a : Vec F S1024x2048 .f32) (x : Vec F S2048x512 .f32) (xs : Vec F S1024x512 .f32) (wa wb : Vec F S512x256 .f32) (b : Vec F S1x256 .f32) (sc : Vec F S1024x512 .f32) (E : Set ℕ) (K : PUnit → sProp 𝕄) :
    iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
        ∗ (∃ d, owns (c : Thread nD τ) arg8 fullShare d) ∗ owns (c : Thread nD τ) arg9 fullShare sc
        ∗ (iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
            ∗ owns (c : Thread nD τ) arg8 fullShare (k0_pay3 (k0_pay2 a x sc) xs wa wb b) ∗ owns (c : Thread nD τ) arg9 fullShare (k0_pay2 a x sc)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr
    swap; · iexact H8
    ipureintro
    rw [View.read_writes_eq_canon _ _ _ (View.cover_of_tiled _ S1024x256.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]
  · iexists _; isplitr
    swap; · iexact H9
    ipureintro
    rw [View.read_writes_eq_canon _ _ _ (by sl_unfold_words; exact View.cover_of_tiled _ S1024x512.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]

end Cert.Kernel.Sage

end
-- ==== Proof.KernelFrame.R0Dat.lean ====
/-
  The first layer's kernel region: what the accumulator and the result window hold after each grid point, the
  region's proof data, and the body's obligation at every point.

  After point t the accumulator holds the products of the neighbour blocks 0 … t % 8 of row tile t / 8 added in order
  onto the cleared accumulator (`scAt0`): it is cleared where t % 8 = 0 and otherwise continues from the point before.
  The result window's buffer holds, after a row tile's last block, the tile computed from that accumulator
  (`out0`); elsewhere it is idle and keeps whatever it held. The accumulator is a scoped buffer of the kernel's own,
  so what it holds is carried by the region's invariant (`PhiS0`). Two windows read the node-feature array, each holding
  half of it.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import proofs.«175430_j17154099380260_1_alg».proof.Proof.KernelFrame.R0Run
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator and the result tile, point by point -/

/-- The accumulator after point `n`. -/
def scAt0 (c : Dev nD) : (n : ℕ) → n < cfg0.N → Vec F S1024x512 .f32
  | 0, hn => k0_pay2 (iblk0 V c 0 ⟨0, hn⟩) (iblk0 V c 1 ⟨0, hn⟩) k0_pay1
  | n + 1, hn =>
    if (n + 1) % 8 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (scAt0 c n (Nat.lt_of_succ_lt hn))

/-- At a row tile's first block it starts from the cleared accumulator. -/
theorem scAt0_reset (c : Dev nD) (t : Fin cfg0.N) (h : t.val % 8 = 0) :
    scAt0 V c t.val t.isLt = k0_pay2 (iblk0 V c 0 t) (iblk0 V c 1 t) k0_pay1 := by
  obtain ⟨n, hn⟩ := t
  cases n with
  | zero => rfl
  | succ n => exact if_pos h

/-- Elsewhere it continues from the point before. -/
theorem scAt0_step (c : Dev nD) (t : Fin cfg0.N) (h : ¬t.val % 8 = 0) :
    scAt0 V c t.val t.isLt
      = k0_pay2 (iblk0 V c 0 t) (iblk0 V c 1 t) (scAt0 V c (t.val - 1) (Nat.lt_of_le_of_lt (Nat.sub_le _ _) t.isLt)) := by
  obtain ⟨n, hn⟩ := t
  cases n with
  | zero => exact absurd (Nat.zero_mod _) h
  | succ n => exact if_neg h

/-- The result tile computed at point `t` from the accumulator as that point leaves it. -/
def out0 (c : Dev nD) (t : Fin cfg0.N) : Vec F S1024x256 .f32 :=
  k0_pay3 (scAt0 V c t.val t.isLt) (iblk0 V c 2 t) (iblk0 V c 3 t) (iblk0 V c 4 t) (iblk0 V c 5 t)

/-! ## The invariant -/

/-- Before the first point the accumulator holds anything; after point `n` it holds `scAt0 n`. The other scoped
    buffers and the generator register ride along untouched. -/
def PhiS0 (c : Dev nD) : (n : ℕ) → n ≤ cfg0.N → sProp 𝕄
  | 0, _ => iprop(((∃ d, owns (c : Thread nD τ) scM0 fullShare d) ∗ others0 c) ∗ ∃ r, prngReg c r)
  | n + 1, hn => iprop((owns (c : Thread nD τ) scM0 fullShare (scAt0 V c n hn) ∗ others0 c) ∗ ∃ r, prngReg c r)

theorem PhiS0_zero (c : Dev nD) (n : ℕ) (h : n ≤ cfg0.N) (hz : n = 0) :
    PhiS0 V c n h = iprop(((∃ d, owns (c : Thread nD τ) scM0 fullShare d) ∗ others0 c) ∗ ∃ r, prngReg c r) := by
  subst hz; rfl

theorem PhiS0_succ (c : Dev nD) (n : ℕ) (hn : n < cfg0.N) :
    PhiS0 V c (n + 1) hn = iprop((owns (c : Thread nD τ) scM0 fullShare (scAt0 V c n hn) ∗ others0 c) ∗ ∃ r, prngReg c r) := rfl

theorem PhiS0_pos (c : Dev nD) (n : ℕ) (h : n ≤ cfg0.N) (hz : n ≠ 0) :
    PhiS0 V c n h = iprop((owns (c : Thread nD τ) scM0 fullShare (scAt0 V c (n - 1) (by omega)) ∗ others0 c) ∗ ∃ r, prngReg c r) := by
  cases n with
  | zero => exact absurd rfl hz
  | succ n => rfl

/-! ## The proof data -/

/-- The region's proof data on core `c`: the arrays as the region finds them; after the body at point `t` each input
    buffer at its block and the result buffer at `out0`; the invariant `PhiS0`; the node-feature array held in halves
    by its two windows; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 V c t
  Φ t := PhiS0 V c t.val (Nat.le_of_lt_succ t.isLt)
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_5 t, after0_5]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point: by the point's position in its row tile one of the three runs applies; the invariant hands
    it the accumulator (at anything before a clearing point, at what the point before left otherwise) and takes it back
    at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- every input buffer holds its block, whether or not it was fetched at this point
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0 V c t, leaves0_1 V c t, leaves0_2 V c t, leaves0_3 V c t, leaves0_4 V c t, leaves0_5 V c t]
  have hN : t.val < 128 := lt_of_lt_of_eq t.isLt (show cfg0.N = 128 from N_0)
  by_cases h7 : t.val % 8 = 7
  · -- last block of a row tile: the product is added to what the point before left, and the result tile is stored
    have h0 : ¬t.val % 8 = 0 := by omega
    have hz : t.val ≠ 0 := by omega
    have hc1 : ¬cond0_1 (grid0.coords t) := fun h => h0 ((hcond0_1 t).mp h)
    have hc2 : cond0_2 (grid0.coords t) := (hcond0_2 t).mpr h7
    rw [show (dat0 V c).leavesExact 6 t = owns (c : Thread nD τ) (ms0_6 t) fullShare ((dat0 V c).after 6 t) from by
      unfold Dat.leavesExact; rw [liveAt0_6 t hc2], after0_6]
    unfold out0
    rw [scAt0_step V c t h0]
    rw [PhiS0_castSucc V c t, PhiS0_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run0_C c (grid0.coords t) _ _ _ _ _ _ _ _ _ _ _ _ _ _ _ _ hc1 hc2 (iblk0 V c 0 t) (iblk0 V c 1 t) (iblk0 V c 2 t)
      (iblk0 V c 3 t) (iblk0 V c 4 t) (iblk0 V c 5 t)
      (scAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬cond0_2 (grid0.coords t) := fun h => h7 ((hcond0_2 t).mp h)
    -- away from the last block the result window is idle and keeps what it held
    rw [Dat.leavesExact_idle (dat0 V c) 6 t (idleAt0_6 t hc2) (noFlush0_6 t hc2)]
    by_cases h0 : t.val % 8 = 0
    · -- first block of a row tile: the accumulator, whatever it held, is cleared and the product added
      have hc1 : cond0_1 (grid0.coords t) := (hcond0_1 t).mpr h0
      rw [scAt0_reset V c t h0]
      by_cases hz : t.val = 0
      · rw [PhiS0_castSucc V c t, PhiS0_zero V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run0_A c (grid0.coords t) _ _ _ _ _ _ _ _ _ _ _ _ _ _ _ _ hc1 hc2 (iblk0 V c 0 t) (iblk0 V c 1 t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · rw [PhiS0_castSucc V c t, PhiS0_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run0_A c (grid0.coords t) _ _ _ _ _ _ _ _ _ _ _ _ _ _ _ _ hc1 hc2 (iblk0 V c 0 t) (iblk0 V c 1 t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · -- a middle block: the product is added to what the point before left
      have hz : t.val ≠ 0 := fun h => h0 (by rw [h])
      have hc1 : ¬cond0_1 (grid0.coords t) := fun h => h0 ((hcond0_1 t).mp h)
      rw [scAt0_step V c t h0]
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
      iapply (run0_B c (grid0.coords t) _ _ _ _ _ _ _ _ _ _ _ _ _ _ _ _ hc1 hc2 (iblk0 V c 0 t) (iblk0 V c 1 t)
        (scAt0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The scoped rest and the generator register make the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  unfold Pipeline.ΦA; rw [scopedRest0_split]

/-- After the last point the invariant gives them back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  unfold Pipeline.ΦA; rw [scopedRest0_split]
  iintro ⟨⟨HS, Ho⟩, Hg⟩
  isplitl [HS Ho]
  · isplitl [HS]
    · iexists _; iexact HS
    iexact Ho
  iexact Hg

end Cert.Kernel.Sage

end
-- ==== Proof.KernelFrame.R0Seg.lean ====
/-
  The first layer's kernel region at its two ends: how the buffers behind its arrays become the arrays its windows hold,
  and back.

  Seven windows read six buffers: the node-feature array is read by two windows, once in neighbour blocks and once in
  row tiles. At entry its buffer, held whole, is halved between them; the other five buffers go to their windows whole.
  At exit the two halves, still at the entry contents, are joined again, and the result window's buffer holds what the
  write-backs left.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import proofs.«175430_j17154099380260_1_alg».proof.Proof.KernelFrame.R0Dat
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the region's arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v4) ↦{fullShare} V main_v4) ∗ (((c : Thread nD τ).loc main_v6) ↦{fullShare} V main_v6)) := by
  unfold Pipeline.arrBufs
  exact bigSep_eq_bigSepL_of_eq [main_arg0, main_arg1, main_v0, main_v1, main_v4, main_v6] (by decide) (by decide) _

variable (V : (c : Dev nD) → (b : Ref sig .tc) → Buf (Elt F) ((c : Thread nD τ).loc b))

/-- The windows' arrays at contents `Fa`, one by one, each at the share its window holds. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_arg0) ↦{fullShare} Fa 0) ∗ (((c : Thread nD τ).loc main_arg1) ↦{fullShare.left} Fa 1)
          ∗ (((c : Thread nD τ).loc main_arg1) ↦{fullShare.right} Fa 2) ∗ (((c : Thread nD τ).loc main_v0) ↦{fullShare} Fa 3)
          ∗ (((c : Thread nD τ).loc main_v1) ↦{fullShare} Fa 4) ∗ (((c : Thread nD τ).loc main_v4) ↦{fullShare} Fa 5)
          ∗ (((c : Thread nD τ).loc main_v6) ↦{fullShare} Fa 6)) := by
  unfold Dat.arrays
  rw [bigSep_W0]
  rw [(arr_whole0 0).set_eq_univ, (arr_whole0 1).set_eq_univ, (arr_whole0 3).set_eq_univ,
    (arr_whole0 4).set_eq_univ, (arr_whole0 5).set_eq_univ, (arr_whole0 6).set_eq_univ]
  rfl

/-- At entry every window's array holds what the region found. -/
theorem arrAt0_zero (c : Dev nD) (w : Fin cfg0.W) : (dat0 V c).arrAt w 0 = V c (Pipeline.arrRef spec0 w) := rfl

/-- ENTRY. The buffers behind the arrays, whole at the contents the region finds, make the windows' arrays: the
    node-feature buffer is halved between its two windows. -/
theorem hsplit0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  simp only [arrAt0_zero]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

/-- EXIT. The windows' arrays after the last point — the inputs as found, the result array at what the write-backs
    left — are the buffers behind them, whole, at any contents `Vout` that differ from the entry contents only at the
    result array and hold there what the write-backs left. -/
theorem hjoin0 (c : Dev nD) (Vout : (b : Ref sig .tc) → Buf (Elt F) ((c : Thread nD τ).loc b))
    (h6 : Vout main_v6 = (dat0 V c).arrAt 6 cfg0.N) (hkeep : ∀ b, b ≠ main_v6 → Vout b = V c b) :
    ((dat0 V c).arrays ((dat0 V c).arrAt · cfg0.N) : sProp 𝕄)
      ⊢ Pipeline.arrBufs (Ix := Unit) (Name := ℕ) (U := UR sig nD τ) (Lvl := ℕ) spec0 c Vout := by
  rw [arrBufs0_eq, arrays0_eq]
  rw [(dat0 V c).arrAt_in 0 rfl, (dat0 V c).arrAt_in 1 rfl, (dat0 V c).arrAt_in 2 rfl, (dat0 V c).arrAt_in 3 rfl,
    (dat0 V c).arrAt_in 4 rfl, (dat0 V c).arrAt_in 5 rfl]
  rw [hkeep main_arg0 (by decide), hkeep main_arg1 (by decide), hkeep main_v0 (by decide), hkeep main_v1 (by decide),
    hkeep main_v4 (by decide), h6]
  simp only [A_eq0]
  iintro ⟨H0, H1, H2, H3, H4, H5, H6⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.Kernel.Sage

end
-- ==== Proof.KernelFrame.R1Base.lean ====
/-
  The second layer's kernel region, at the contents `V` its arrays hold when it is entered: what each window's block is
  at a grid point, when the two conditionals of the body are taken, and where the result window rests.

  The grid is 16 row tiles by 8 neighbour blocks, walked row tile by row tile: point t is row tile t / 8, block t % 8.
  The accumulator is cleared at the first block of a row tile (t % 8 = 0) and the result tile is produced at the last
  (t % 8 = 7); at every other point the result window is idle and is not written back.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched point
    has the block index of the point before, and the body leaves the block as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched point
    has the block index of the point before, and the body leaves the block as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched point
    has the block index of the point before, and the body leaves the block as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched point
    has the block index of the point before, and the body leaves the block as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an unfetched point
    has the block index of the point before, and the body leaves the block as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: an unfetched point
    has the block index of the point before, and the body leaves the block as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, over the grid -/

/-- The accumulator is cleared: the neighbour-block coordinate is zero. -/
abbrev cond1_1 (i : grid1.Coords) : Prop :=
  (Scalar.cmpi .ne (Scalar.extui (Scalar.cmpi .eq (BitVec.ofNat 32 (i 1).val) 0#32)) 0#32) = 1#1
theorem hcond1_1 : ∀ t : Fin cfg1.N, cond1_1 (grid1.coords t) ↔ t.val % 8 = 0 :=
  (by decide +kernel : ∀ t : Fin grid1.N, cond1_1 (grid1.coords t) ↔ t.val % 8 = 0)

/-- The result tile is produced: the neighbour-block coordinate is the last. -/
abbrev cond1_2 (i : grid1.Coords) : Prop := k1_cond2 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the result window rests -/

/-- Away from a row tile's last block the result window is idle -/
theorem idleAt1_6 : ∀ t : Fin cfg1.N, ¬cond1_2 (grid1.coords t) → cfg1.idle 6 (grid1.coords t) = true := by decide +kernel
/-- and is not written back; -/
theorem noFlush1_6 : ∀ t : Fin cfg1.N, ¬cond1_2 (grid1.coords t) → (cfg1.win 6).flush t = false := by decide +kernel
/-- at the last block it is live. -/
theorem liveAt1_6 : ∀ t : Fin cfg1.N, cond1_2 (grid1.coords t) → cfg1.idle 6 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x40 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x40 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x40 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1 : Memref sig .tc .vmem S1024x256 .f32 := Memref.whole cc1_scratch0

/-! ## The accumulator among the scoped buffers -/

/-- The scoped buffers that are neither a staging buffer of this region nor the accumulator, each whole at some contents. -/
def others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The region's scoped rest is the accumulator at some contents beside the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ others1 c) := by
  unfold Pipeline.scopedRest others1
  rw [bigSep_erase (i := cc1_scratch0) (by decide)]
  simp only [scM1, owns_whole]
  rfl

end Cert.Kernel.Sage

end
-- ==== Proof.KernelFrame.R1Run.lean ====
/-
  The second layer's kernel body, run once in each of its three cases on whole staging buffers.

  At a row tile's first neighbour block the accumulator is cleared and the block's product added: it ends at
  pay2 a x 0-block. At a middle block the product is added to what the accumulator held: pay2 a x acc. At the last block
  the same, and then the result tile is stored: pay3 of the new accumulator, the tile's own features, the two weight
  halves and the bias. Every store rewrites a whole buffer, so a buffer holds the payload of its last store, and a
  load after a store reads that payload.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import proofs.«175430_j17154099380260_1_alg».proof.Proof.KernelFrame.R1Base
import proofs.«175430_j17154099380260_1_alg».proof.Proof.LibCover
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First block of a row tile: the accumulator, at anything, ends at the block's product over the cleared accumulator. -/
theorem run1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x40 .f32) (harg5 : arg5.IsWhole) (arg6 : Memref sig .tc .vmem S256x40 .f32) (harg6 : arg6.IsWhole) (arg7 : Memref sig .tc .vmem S1x40 .f32) (harg7 : arg7.IsWhole) (arg8 : Memref sig .tc .vmem S1024x40 .f32) (harg8 : arg8.IsWhole) (arg9 : Memref sig .tc .vmem S1024x256 .f32) (harg9 : arg9.IsWhole) (hc1 : cond1_1 i) (hc2 : ¬cond1_2 i)
    (a : Vec F S1024x2048 .f32) (x : Vec F S2048x256 .f32) (E : Set ℕ) (K : PUnit → sProp 𝕄) :
    iprop(owns (c : Thread nD τ) arg2 fullShare a ∗ owns (c : Thread nD τ) arg3 fullShare x ∗ (∃ d, owns (c : Thread nD τ) arg9 fullShare d)
        ∗ (iprop(owns (c : Thread nD τ) arg2 fullShare a ∗ owns (c : Thread nD τ) arg3 fullShare x ∗ owns (c : Thread nD τ) arg9 fullShare (k1_pay2 a x k1_pay1)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9) K := by
  simp only [cc1__sage_kernel_eq_skeleton]; unfold cc1__sage_kernel_skel
  unfold owns
  iintro ⟨⟨%f2, %hf2, H2⟩, ⟨%f3, %hf3, H3⟩, ⟨%d9, %f9, -, H9⟩, Hk⟩
  obtain rfl := harg2.eq_unread hf2; obtain rfl := harg3.eq_unread hf3
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact Cert.Cover.cons _ _ (View.cover_of_tiled _ S1024x256.size (by rfl)))]
  sl_unfold_words
  rw [View.canon_cons_unit_zero hz]
  simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]

set_option maxHeartbeats 4000000 in
/-- A middle block: the accumulator at `sc` ends at the block's product added to it. -/
theorem run1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x40 .f32) (harg5 : arg5.IsWhole) (arg6 : Memref sig .tc .vmem S256x40 .f32) (harg6 : arg6.IsWhole) (arg7 : Memref sig .tc .vmem S1x40 .f32) (harg7 : arg7.IsWhole) (arg8 : Memref sig .tc .vmem S1024x40 .f32) (harg8 : arg8.IsWhole) (arg9 : Memref sig .tc .vmem S1024x256 .f32) (harg9 : arg9.IsWhole) (hc1 : ¬cond1_1 i) (hc2 : ¬cond1_2 i)
    (a : Vec F S1024x2048 .f32) (x : Vec F S2048x256 .f32) (sc : Vec F S1024x256 .f32) (E : Set ℕ) (K : PUnit → sProp 𝕄) :
    iprop(owns (c : Thread nD τ) arg2 fullShare a ∗ owns (c : Thread nD τ) arg3 fullShare x ∗ owns (c : Thread nD τ) arg9 fullShare sc
        ∗ (iprop(owns (c : Thread nD τ) arg2 fullShare a ∗ owns (c : Thread nD τ) arg3 fullShare x ∗ owns (c : Thread nD τ) arg9 fullShare (k1_pay2 a x sc)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9) K := by
  simp only [cc1__sage_kernel_eq_skeleton]; unfold cc1__sage_kernel_skel
  unfold owns
  iintro ⟨⟨%f2, %hf2, H2⟩, ⟨%f3, %hf3, H3⟩, ⟨%f9, %hf9, H9⟩, Hk⟩
  obtain rfl := harg2.eq_unread hf2; obtain rfl := harg3.eq_unread hf3; obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact View.cover_of_tiled _ S1024x256.size (by rfl))]
  sl_unfold_words
  rw [View.canon_unit_zero hz]
  simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]

set_option maxHeartbeats 4000000 in
/-- Last block of a row tile: the accumulator as at a middle block, and the result buffer, at anything, ends at the
    result tile computed from the new accumulator. -/
theorem run1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x40 .f32) (harg5 : arg5.IsWhole) (arg6 : Memref sig .tc .vmem S256x40 .f32) (harg6 : arg6.IsWhole) (arg7 : Memref sig .tc .vmem S1x40 .f32) (harg7 : arg7.IsWhole) (arg8 : Memref sig .tc .vmem S1024x40 .f32) (harg8 : arg8.IsWhole) (arg9 : Memref sig .tc .vmem S1024x256 .f32) (harg9 : arg9.IsWhole) (hc1 : ¬cond1_1 i) (hc2 : cond1_2 i)
    (a : Vec F S1024x2048 .f32) (x : Vec F S2048x256 .f32) (xs : Vec F S1024x256 .f32) (wa wb : Vec F S256x40 .f32) (b : Vec F S1x40 .f32) (sc : Vec F S1024x256 .f32) (E : Set ℕ) (K : PUnit → sProp 𝕄) :
    iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
        ∗ (∃ d, owns (c : Thread nD τ) arg8 fullShare d) ∗ owns (c : Thread nD τ) arg9 fullShare sc
        ∗ (iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
            ∗ owns (c : Thread nD τ) arg8 fullShare (k1_pay3 (k1_pay2 a x sc) xs wa wb b) ∗ owns (c : Thread nD τ) arg9 fullShare (k1_pay2 a x sc)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9) K := by
  simp only [cc1__sage_kernel_eq_skeleton]; unfold cc1__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr
    swap; · iexact H8
    ipureintro
    rw [View.read_writes_eq_canon _ _ _ (View.cover_of_tiled _ S1024x40.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]
  · iexists _; isplitr
    swap; · iexact H9
    ipureintro
    rw [View.read_writes_eq_canon _ _ _ (by sl_unfold_words; exact View.cover_of_tiled _ S1024x256.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]

end Cert.Kernel.Sage

end
-- ==== Proof.KernelFrame.R1Dat.lean ====
/-
  The second layer's kernel region: what the accumulator and the result window hold after each grid point, the
  region's proof data, and the body's obligation at every point.

  After point t the accumulator holds the products of the neighbour blocks 0 … t % 8 of row tile t / 8 added in order
  onto the cleared accumulator (`scAt1`): it is cleared where t % 8 = 0 and otherwise continues from the point before.
  The result window's buffer holds, after a row tile's last block, the tile computed from that accumulator
  (`out1`); elsewhere it is idle and keeps whatever it held. The accumulator is a scoped buffer of the kernel's own,
  so what it holds is carried by the region's invariant (`PhiS1`). Two windows read the hidden-layer array, each holding
  half of it.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import proofs.«175430_j17154099380260_1_alg».proof.Proof.KernelFrame.R1Run
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator and the result tile, point by point -/

/-- The accumulator after point `n`. -/
def scAt1 (c : Dev nD) : (n : ℕ) → n < cfg1.N → Vec F S1024x256 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (scAt1 c n (Nat.lt_of_succ_lt hn))

/-- At a row tile's first block it starts from the cleared accumulator. -/
theorem scAt1_reset (c : Dev nD) (t : Fin cfg1.N) (h : t.val % 8 = 0) :
    scAt1 V c t.val t.isLt = k1_pay2 (iblk1 V c 0 t) (iblk1 V c 1 t) k1_pay1 := by
  obtain ⟨n, hn⟩ := t
  cases n with
  | zero => rfl
  | succ n => exact if_pos h

/-- Elsewhere it continues from the point before. -/
theorem scAt1_step (c : Dev nD) (t : Fin cfg1.N) (h : ¬t.val % 8 = 0) :
    scAt1 V c t.val t.isLt
      = k1_pay2 (iblk1 V c 0 t) (iblk1 V c 1 t) (scAt1 V c (t.val - 1) (Nat.lt_of_le_of_lt (Nat.sub_le _ _) t.isLt)) := by
  obtain ⟨n, hn⟩ := t
  cases n with
  | zero => exact absurd (Nat.zero_mod _) h
  | succ n => exact if_neg h

/-- The result tile computed at point `t` from the accumulator as that point leaves it. -/
def out1 (c : Dev nD) (t : Fin cfg1.N) : Vec F S1024x40 .f32 :=
  k1_pay3 (scAt1 V c t.val t.isLt) (iblk1 V c 2 t) (iblk1 V c 3 t) (iblk1 V c 4 t) (iblk1 V c 5 t)

/-! ## The invariant -/

/-- Before the first point the accumulator holds anything; after point `n` it holds `scAt1 n`. The other scoped
    buffers and the generator register ride along untouched. -/
def PhiS1 (c : Dev nD) : (n : ℕ) → n ≤ cfg1.N → sProp 𝕄
  | 0, _ => iprop(((∃ d, owns (c : Thread nD τ) scM1 fullShare d) ∗ others1 c) ∗ ∃ r, prngReg c r)
  | n + 1, hn => iprop((owns (c : Thread nD τ) scM1 fullShare (scAt1 V c n hn) ∗ others1 c) ∗ ∃ r, prngReg c r)

theorem PhiS1_zero (c : Dev nD) (n : ℕ) (h : n ≤ cfg1.N) (hz : n = 0) :
    PhiS1 V c n h = iprop(((∃ d, owns (c : Thread nD τ) scM1 fullShare d) ∗ others1 c) ∗ ∃ r, prngReg c r) := by
  subst hz; rfl

theorem PhiS1_succ (c : Dev nD) (n : ℕ) (hn : n < cfg1.N) :
    PhiS1 V c (n + 1) hn = iprop((owns (c : Thread nD τ) scM1 fullShare (scAt1 V c n hn) ∗ others1 c) ∗ ∃ r, prngReg c r) := rfl

theorem PhiS1_pos (c : Dev nD) (n : ℕ) (h : n ≤ cfg1.N) (hz : n ≠ 0) :
    PhiS1 V c n h = iprop((owns (c : Thread nD τ) scM1 fullShare (scAt1 V c (n - 1) (by omega)) ∗ others1 c) ∗ ∃ r, prngReg c r) := by
  cases n with
  | zero => exact absurd rfl hz
  | succ n => rfl

/-! ## The proof data -/

/-- The region's proof data on core `c`: the arrays as the region finds them; after the body at point `t` each input
    buffer at its block and the result buffer at `out1`; the invariant `PhiS1`; the hidden-layer array held in halves
    by its two windows; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (ms1_5 t) fullShare (iblk1 V c 5 t) := by
  unfold Dat.leavesExact; rw [liveAt1_5 t, after1_5]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: by the point's position in its row tile one of the three runs applies; the invariant hands
    it the accumulator (at anything before a clearing point, at what the point before left otherwise) and takes it back
    at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- every input buffer holds its block, whether or not it was fetched at this point
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0 V c t, leaves1_1 V c t, leaves1_2 V c t, leaves1_3 V c t, leaves1_4 V c t, leaves1_5 V c t]
  have hN : t.val < 128 := lt_of_lt_of_eq t.isLt (show cfg1.N = 128 from N_1)
  by_cases h7 : t.val % 8 = 7
  · -- last block of a row tile: the product is added to what the point before left, and the result tile is stored
    have h0 : ¬t.val % 8 = 0 := by omega
    have hz : t.val ≠ 0 := by omega
    have hc1 : ¬cond1_1 (grid1.coords t) := fun h => h0 ((hcond1_1 t).mp h)
    have hc2 : cond1_2 (grid1.coords t) := (hcond1_2 t).mpr h7
    rw [show (dat1 V c).leavesExact 6 t = owns (c : Thread nD τ) (ms1_6 t) fullShare ((dat1 V c).after 6 t) from by
      unfold Dat.leavesExact; rw [liveAt1_6 t hc2], after1_6]
    unfold out1
    rw [scAt1_step V c t h0]
    rw [PhiS1_castSucc V c t, PhiS1_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run1_C c (grid1.coords t) _ _ _ _ _ _ _ _ _ _ _ _ _ _ _ _ hc1 hc2 (iblk1 V c 0 t) (iblk1 V c 1 t) (iblk1 V c 2 t)
      (iblk1 V c 3 t) (iblk1 V c 4 t) (iblk1 V c 5 t)
      (scAt1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬cond1_2 (grid1.coords t) := fun h => h7 ((hcond1_2 t).mp h)
    -- away from the last block the result window is idle and keeps what it held
    rw [Dat.leavesExact_idle (dat1 V c) 6 t (idleAt1_6 t hc2) (noFlush1_6 t hc2)]
    by_cases h0 : t.val % 8 = 0
    · -- first block of a row tile: the accumulator, whatever it held, is cleared and the product added
      have hc1 : cond1_1 (grid1.coords t) := (hcond1_1 t).mpr h0
      rw [scAt1_reset V c t h0]
      by_cases hz : t.val = 0
      · rw [PhiS1_castSucc V c t, PhiS1_zero V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run1_A c (grid1.coords t) _ _ _ _ _ _ _ _ _ _ _ _ _ _ _ _ hc1 hc2 (iblk1 V c 0 t) (iblk1 V c 1 t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · rw [PhiS1_castSucc V c t, PhiS1_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run1_A c (grid1.coords t) _ _ _ _ _ _ _ _ _ _ _ _ _ _ _ _ hc1 hc2 (iblk1 V c 0 t) (iblk1 V c 1 t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · -- a middle block: the product is added to what the point before left
      have hz : t.val ≠ 0 := fun h => h0 (by rw [h])
      have hc1 : ¬cond1_1 (grid1.coords t) := fun h => h0 ((hcond1_1 t).mp h)
      rw [scAt1_step V c t h0]
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
      iapply (run1_B c (grid1.coords t) _ _ _ _ _ _ _ _ _ _ _ _ _ _ _ _ hc1 hc2 (iblk1 V c 0 t) (iblk1 V c 1 t)
        (scAt1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The scoped rest and the generator register make the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  unfold Pipeline.ΦA; rw [scopedRest1_split]

/-- After the last point the invariant gives them back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold Pipeline.ΦA; rw [scopedRest1_split]
  iintro ⟨⟨HS, Ho⟩, Hg⟩
  isplitl [HS Ho]
  · isplitl [HS]
    · iexists _; iexact HS
    iexact Ho
  iexact Hg

end Cert.Kernel.Sage

end
-- ==== Proof.KernelFrame.R1Seg.lean ====
/-
  The second layer's kernel region at its two ends: how the buffers behind its arrays become the arrays its windows hold,
  and back.

  Seven windows read six buffers: the hidden-layer array is read by two windows, once in neighbour blocks and once in
  row tiles. At entry its buffer, held whole, is halved between them; the other five buffers go to their windows whole.
  At exit the two halves, still at the entry contents, are joined again, and the result window's buffer holds what the
  write-backs left.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import proofs.«175430_j17154099380260_1_alg».proof.Proof.KernelFrame.R1Dat
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v6) ↦{fullShare} V main_v6)
          ∗ (((c : Thread nD τ).loc main_v2) ↦{fullShare} V main_v2) ∗ (((c : Thread nD τ).loc main_v3) ↦{fullShare} V main_v3)
          ∗ (((c : Thread nD τ).loc main_v5) ↦{fullShare} V main_v5) ∗ (((c : Thread nD τ).loc main_v7) ↦{fullShare} V main_v7)) := by
  unfold Pipeline.arrBufs
  exact bigSep_eq_bigSepL_of_eq [main_arg0, main_v6, main_v2, main_v3, main_v5, main_v7] (by decide) (by decide) _

variable (V : (c : Dev nD) → (b : Ref sig .tc) → Buf (Elt F) ((c : Thread nD τ).loc b))

/-- The windows' arrays at contents `Fa`, one by one, each at the share its window holds. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_arg0) ↦{fullShare} Fa 0) ∗ (((c : Thread nD τ).loc main_v6) ↦{fullShare.left} Fa 1)
          ∗ (((c : Thread nD τ).loc main_v6) ↦{fullShare.right} Fa 2) ∗ (((c : Thread nD τ).loc main_v2) ↦{fullShare} Fa 3)
          ∗ (((c : Thread nD τ).loc main_v3) ↦{fullShare} Fa 4) ∗ (((c : Thread nD τ).loc main_v5) ↦{fullShare} Fa 5)
          ∗ (((c : Thread nD τ).loc main_v7) ↦{fullShare} Fa 6)) := by
  unfold Dat.arrays
  rw [bigSep_W1]
  rw [(arr_whole1 0).set_eq_univ, (arr_whole1 1).set_eq_univ, (arr_whole1 3).set_eq_univ,
    (arr_whole1 4).set_eq_univ, (arr_whole1 5).set_eq_univ, (arr_whole1 6).set_eq_univ]
  rfl

/-- At entry every window's array holds what the region found. -/
theorem arrAt1_zero (c : Dev nD) (w : Fin cfg1.W) : (dat1 V c).arrAt w 0 = V c (Pipeline.arrRef spec1 w) := rfl

/-- ENTRY. The buffers behind the arrays, whole at the contents the region finds, make the windows' arrays: the
    hidden-layer buffer is halved between its two windows. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  simp only [arrAt1_zero]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

/-- EXIT. The windows' arrays after the last point — the inputs as found, the result array at what the write-backs
    left — are the buffers behind them, whole, at any contents `Vout` that differ from the entry contents only at the
    result array and hold there what the write-backs left. -/
theorem hjoin1 (c : Dev nD) (Vout : (b : Ref sig .tc) → Buf (Elt F) ((c : Thread nD τ).loc b))
    (h6 : Vout main_v7 = (dat1 V c).arrAt 6 cfg1.N) (hkeep : ∀ b, b ≠ main_v7 → Vout b = V c b) :
    ((dat1 V c).arrays ((dat1 V c).arrAt · cfg1.N) : sProp 𝕄)
      ⊢ Pipeline.arrBufs (Ix := Unit) (Name := ℕ) (U := UR sig nD τ) (Lvl := ℕ) spec1 c Vout := by
  rw [arrBufs1_eq, arrays1_eq]
  rw [(dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  rw [hkeep main_arg0 (by decide), hkeep main_v6 (by decide), hkeep main_v2 (by decide), hkeep main_v3 (by decide),
    hkeep main_v5 (by decide), h6]
  simp only [A_eq1]
  iintro ⟨H0, H1, H2, H3, H4, H5, H6⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.Kernel.Sage

end
-- ==== Proof.KernelFrame.Main.lean ====
/-
  The whole program at any float instance: the host operations that cut the two weight matrices in halves and lay the
  biases out as rows, then the two kernel regions, run to the end; the result array holds what the second region's
  write-backs leave, and the six argument arrays are as launched.

  Between the items a core holds every unscoped buffer whole: at launch the memory's contents, after the host operations
  their results beside, after the first region the hidden-layer array at what its write-backs left, after the second the
  result array likewise. No host operation and no region writes an argument.
-/
import proofs.«175430_j17154099380260_1_alg».proof.Proof.Gen.Kernel.Launch
import proofs.«175430_j17154099380260_1_alg».proof.Proof.Gen.Kernel.Skeleton
import proofs.«175430_j17154099380260_1_alg».proof.Proof.Gen.Kernel.Points
import proofs.«175430_j17154099380260_1_alg».proof.Proof.KernelFrame.R0Seg
import proofs.«175430_j17154099380260_1_alg».proof.Proof.KernelFrame.R1Seg
import proofs.«175430_j17154099380260_1_alg».proof.Proof.Gen.Kernel.Regions
import Idealize.ShloMosaic.Lib.Pipeline.Frame
import Idealize.ShloMosaic.Lib.Pipeline.Regions
import Idealize.ShloMosaic.Lib.Pipeline.FrameBody
import Idealize.ShloMosaic.Lib.Ring
import Idealize.ShloMosaic.Lib.Tactic

set_option maxRecDepth 16384

noncomputable section

namespace Cert.Kernel.Sage

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- Core `c`'s buffers at launch. -/
abbrev W0 : Dev nD → Valuation τ sig (Elt F) := fun c b => m (c, b)
/-- After the host operations: the first region's entry. -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- After the first region: the hidden-layer array at what the write-backs left, every other buffer as entered. -/
def W2 (c : Dev nD) : Valuation τ sig (Elt F) :=
  Function.update (W1 m c) main_v6 ((dat0 (U1 m) c).arrAt 6 cfg0.N : Buf (Elt F) ((c : Thread nD τ).loc main_v6))
abbrev U2 : (c : Dev nD) → (b : Ref sig .tc) → Buf (Elt F) ((c : Thread nD τ).loc b) := fun c b => W2 m c b
/-- After the second region: the result array at what the write-backs left. -/
def W3 (c : Dev nD) : Valuation τ sig (Elt F) :=
  Function.update (W2 m c) main_v7 ((dat1 (U2 m) c).arrAt 6 cfg1.N : Buf (Elt F) ((c : Thread nD τ).loc main_v7))

theorem W2_out (c : Dev nD) : W2 m c main_v6 = (dat0 (U1 m) c).arrAt 6 cfg0.N := by
  unfold W2; exact Function.update_self ..
theorem W2_keep (c : Dev nD) (b : Ref sig .tc) (hb : b ≠ main_v6) : W2 m c b = U1 m c b := by
  unfold W2; exact Function.update_of_ne (StableHlo.devRef_ne_of_ne hb) ..
theorem W3_out (c : Dev nD) : W3 m c main_v7 = (dat1 (U2 m) c).arrAt 6 cfg1.N := by
  unfold W3; exact Function.update_self ..
theorem W3_keep (c : Dev nD) (b : Ref sig .tc) (hb : b ≠ main_v7) : W3 m c b = U2 m c b := by
  unfold W3; exact Function.update_of_ne (StableHlo.devRef_ne_of_ne hb) ..

/-- An argument reaches the end as launched. -/
theorem W3_arg (c : Dev nD) (b : Ref sig .tc) (h7 : b ≠ main_v7) (h6 : b ≠ main_v6) (hW : b ∉ hostOps0_W) :
    W3 m c b = m ((c : Thread nD τ).loc b) :=
  (W3_keep m c b h7).trans ((W2_keep m c b h6).trans (StableHlo.after_of_writes_sub hostOps0 _ hostOps0_writes hW))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W3 m c) ∗ ∃ r, prngReg c r)

/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

-- a lemma stated over a pinned configuration unifies with the printed one only when unification may unfold plain
-- definitions in a metavariable's type
set_option backward.isDefEq.respectTransparency.types false in
/-- The first layer's region over the thread state: entered with every unscoped buffer at `W1`, left with them at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsp : (StableHlo.held (c : Thread nD τ) (Pipeline.ucRefs τ sig) (W1 m c) : sProp 𝕄)
        ⊢ iprop((dat0 (U1 m) c).arrays ((dat0 (U1 m) c).arrAt · 0) ∗ Pipeline.unscopedRest spec0 c (U1 m c)) := by
      rw [← Pipeline.unscopedBufs_held (Ix := Unit) (Name := ℕ) (U := UR sig nD τ) (Lvl := ℕ) c (W1 m c),
        Pipeline.unscopedBufs_split₀ cfgs (0 : Fin 2) winFacts₀0.arr_unscoped c (U1 m c)]
      exact sep_mono (hsplit0 (U1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hj : iprop((dat0 (U1 m) c).arrays ((dat0 (U1 m) c).arrAt · cfg0.N) ∗ Pipeline.unscopedRest spec0 c (U1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs (0 : Fin 2) winFacts₀0.arr_unscoped c (fun b => W2 m c b)]
      refine BIClass.sep_mono (hjoin0 (U1 m) c (fun b => W2 m c b) (W2_out m c) (fun b hb => W2_keep m c b hb)) ?_
      rw [unscopedRest0_eq]
      refine BIBase.Entails.trans ?_ (Entails.of_eq (unscopedRest0_eq c (fun b => W2 m c b)).symm)
      rw [W2_keep m c main_arg2 (by decide), W2_keep m c main_arg3 (by decide), W2_keep m c main_arg4 (by decide), W2_keep m c main_arg5 (by decide), W2_keep m c main_v2 (by decide), W2_keep m c main_v3 (by decide), W2_keep m c main_v5 (by decide), W2_keep m c main_v7 (by decide)]
      try exact .rfl
    iintro ⟨Ha, HO, HY, Hrest⟩
    imodintro
    isplitl [Ha Hrest]
    · iapply hj
      isplitl [Ha]; · iexact Ha
      iexact Hrest
    isplitl [HY]; · iexact HY
    unfold Pipeline.Dat.owesAt Pipeline.owesWithin
    icases HO with ⟨%W, -, HO⟩; iexists W; iexact HO

-- a lemma stated over a pinned configuration unifies with the printed one only when unification may unfold plain
-- definitions in a metavariable's type
set_option backward.isDefEq.respectTransparency.types false in
/-- The second layer's region over the thread state: entered with every unscoped buffer at `W2`, left with them at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsp : (StableHlo.held (c : Thread nD τ) (Pipeline.ucRefs τ sig) (W2 m c) : sProp 𝕄)
        ⊢ iprop((dat1 (U2 m) c).arrays ((dat1 (U2 m) c).arrAt · 0) ∗ Pipeline.unscopedRest spec1 c (U2 m c)) := by
      rw [← Pipeline.unscopedBufs_held (Ix := Unit) (Name := ℕ) (U := UR sig nD τ) (Lvl := ℕ) c (W2 m c),
        Pipeline.unscopedBufs_split₀ cfgs (1 : Fin 2) winFacts₀1.arr_unscoped c (U2 m c)]
      exact sep_mono (hsplit1 (U2 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (U2 m) c)
    unfold Pipeline.ΦA
    iintro ⟨Hp, -, Hr⟩
    isplitl [Hr]; · iexact Hr
    iexact Hp
  hout c := by
    rw [Pipeline.ownSems0_none]
    refine (hout1 (U2 m) c).trans ?_
    unfold Pipeline.ΦA
    iintro ⟨Hr, Hp⟩
    isplitl [Hp]; · iexact Hp
    isplitr; · iempintro
    iexact Hr
  hexit c := by
    have hj : iprop((dat1 (U2 m) c).arrays ((dat1 (U2 m) c).arrAt · cfg1.N) ∗ Pipeline.unscopedRest spec1 c (U2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ cfgs (1 : Fin 2) winFacts₀1.arr_unscoped c (fun b => W3 m c b)]
      refine BIClass.sep_mono (hjoin1 (U2 m) c (fun b => W3 m c b) (W3_out m c) (fun b hb => W3_keep m c b hb)) ?_
      rw [unscopedRest1_eq]
      refine BIBase.Entails.trans ?_ (Entails.of_eq (unscopedRest1_eq c (fun b => W3 m c b)).symm)
      rw [W3_keep m c main_arg1 (by decide), W3_keep m c main_arg2 (by decide), W3_keep m c main_arg3 (by decide), W3_keep m c main_arg4 (by decide), W3_keep m c main_arg5 (by decide), W3_keep m c main_v0 (by decide), W3_keep m c main_v1 (by decide), W3_keep m c main_v4 (by decide)]
      try exact .rfl
    iintro ⟨Ha, HO, HY, Hrest⟩
    imodintro
    isplitl [Ha Hrest HY]
    · isplitl [Ha Hrest]
      · iapply hj
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) :=
  main_segs adm (pdats m) () 𝒱₀ L lv (hseg0 m) (reg0 m) (reg1 m) rfl c

set_option backward.isDefEq.respectTransparency.types false in
/-- THE RUN. From any memory with zero counters every weakly fair execution of the program terminates, nothing
    faulting; the result array ends at what the second region's write-backs leave and the arguments as launched. -/
theorem run_main (ρ : Dev nD → PrngReg) :
    θ_run defs (onTc (τ := τ) (main (F := F))) ⟨m, fun _ => 0, ρ⟩ (fun r => ∀ c : Dev nD,
      r.2.mem ((c.tc : Thread nD τ).loc main_v7) = (dat1 (U2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      have mem_uc : ∀ b : Ref sig .tc, ¬ (Proc.devRef .tc b : DevRef τ sig).isScoped → Proc.devRef .tc b ∈ Pipeline.ucRefs τ sig :=
        fun b hb => Finset.mem_filter.mpr ⟨StableHlo.devRef_mem_tcRefs b, hb⟩
      ⟨(h c _ (mem_uc main_v7 (by decide))).trans (W3_out m c),
        (h c _ (mem_uc main_arg0 (by decide))).trans (W3_arg m c main_arg0 (by decide) (by decide) (by decide)),
        (h c _ (mem_uc main_arg1 (by decide))).trans (W3_arg m c main_arg1 (by decide) (by decide) (by decide)),
        (h c _ (mem_uc main_arg2 (by decide))).trans (W3_arg m c main_arg2 (by decide) (by decide) (by decide)),
        (h c _ (mem_uc main_arg3 (by decide))).trans (W3_arg m c main_arg3 (by decide) (by decide) (by decide)),
        (h c _ (mem_uc main_arg4 (by decide))).trans (W3_arg m c main_arg4 (by decide) (by decide) (by decide)),
        (h c _ (mem_uc main_arg5 (by decide))).trans (W3_arg m c main_arg5 (by decide) (by decide) (by decide))⟩)

end Cert.Kernel.Sage

end
-- ==== Proof.KernelIdealFrame.R0Base.lean ====
/-
  The first layer's kernel region, at the contents `V` its arrays hold when it is entered: what each window's block is
  at a grid point, when the two conditionals of the body are taken, and where the result window rests.

  The grid is 16 row tiles by 8 neighbour blocks, walked row tile by row tile: point t is row tile t / 8, block t % 8.
  The accumulator is cleared at the first block of a row tile (t % 8 = 0) and the result tile is produced at the last
  (t % 8 = 7); at every other point the result window is idle and is not written back.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched point
    has the block index of the point before, and the body leaves the block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched point
    has the block index of the point before, and the body leaves the block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched point
    has the block index of the point before, and the body leaves the block as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched point
    has the block index of the point before, and the body leaves the block as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched point
    has the block index of the point before, and the body leaves the block as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: an unfetched point
    has the block index of the point before, and the body leaves the block as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals, over the grid -/

/-- The accumulator is cleared: the neighbour-block coordinate is zero. -/
abbrev cond0_1 (i : grid0.Coords) : Prop :=
  (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

/-- The result tile is produced: the neighbour-block coordinate is the last. -/
abbrev cond0_2 (i : grid0.Coords) : Prop := k0_cond2 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the result window rests -/

/-- Away from a row tile's last block the result window is idle -/
theorem idleAt0_6 : ∀ t : Fin cfg0.N, ¬cond0_2 (grid0.coords t) → cfg0.idle 6 (grid0.coords t) = true := by decide +kernel
/-- and is not written back; -/
theorem noFlush0_6 : ∀ t : Fin cfg0.N, ¬cond0_2 (grid0.coords t) → (cfg0.win 6).flush t = false := by decide +kernel
/-- at the last block it is live. -/
theorem liveAt0_6 : ∀ t : Fin cfg0.N, cond0_2 (grid0.coords t) → cfg0.idle 6 (grid0.coords t) = false := by decide +kernel
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0 : Memref sig .tc .vmem S1024x512 .f32 := Memref.whole cc0_scratch0

/-! ## The accumulator among the scoped buffers -/

/-- The scoped buffers that are neither a staging buffer of this region nor the accumulator, each whole at some contents. -/
def others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The region's scoped rest is the accumulator at some contents beside the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  unfold Pipeline.scopedRest others0
  rw [bigSep_erase (i := cc0_scratch0) (by decide)]
  simp only [scM0, owns_whole]
  rfl

end Cert.KernelIdeal.Sage

end
-- ==== Proof.KernelIdealFrame.R0Run.lean ====
/-
  The first layer's kernel body, run once in each of its three cases on whole staging buffers.

  At a row tile's first neighbour block the accumulator is cleared and the block's product added: it ends at
  pay2 a x 0-block. At a middle block the product is added to what the accumulator held: pay2 a x acc. At the last block
  the same, and then the result tile is stored: pay3 of the new accumulator, the tile's own features, the two weight
  halves and the bias. Every store rewrites a whole buffer, so a buffer holds the payload of its last store, and a
  load after a store reads that payload.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import proofs.«175430_j17154099380260_1_alg».proof.Proof.KernelIdealFrame.R0Base
import proofs.«175430_j17154099380260_1_alg».proof.Proof.LibCover
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First block of a row tile: the accumulator, at anything, ends at the block's product over the cleared accumulator. -/
theorem run0_A (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x512 .f32) (harg9 : arg9.IsWhole) (hc1 : cond0_1 i) (hc2 : ¬cond0_2 i)
    (a : Vec F S1024x2048 .f32) (x : Vec F S2048x512 .f32) (E : Set ℕ) (K : PUnit → sProp 𝕄) :
    iprop(owns (c : Thread nD τ) arg2 fullShare a ∗ owns (c : Thread nD τ) arg3 fullShare x ∗ (∃ d, owns (c : Thread nD τ) arg9 fullShare d)
        ∗ (iprop(owns (c : Thread nD τ) arg2 fullShare a ∗ owns (c : Thread nD τ) arg3 fullShare x ∗ owns (c : Thread nD τ) arg9 fullShare (k0_pay2 a x k0_pay1)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f2, %hf2, H2⟩, ⟨%f3, %hf3, H3⟩, ⟨%d9, %f9, -, H9⟩, Hk⟩
  obtain rfl := harg2.eq_unread hf2; obtain rfl := harg3.eq_unread hf3
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact Cert.Cover.cons _ _ (View.cover_of_tiled _ S1024x512.size (by rfl)))]
  sl_unfold_words
  rw [View.canon_cons_unit_zero hz]
  simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]

set_option maxHeartbeats 4000000 in
/-- A middle block: the accumulator at `sc` ends at the block's product added to it. -/
theorem run0_B (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x512 .f32) (harg9 : arg9.IsWhole) (hc1 : ¬cond0_1 i) (hc2 : ¬cond0_2 i)
    (a : Vec F S1024x2048 .f32) (x : Vec F S2048x512 .f32) (sc : Vec F S1024x512 .f32) (E : Set ℕ) (K : PUnit → sProp 𝕄) :
    iprop(owns (c : Thread nD τ) arg2 fullShare a ∗ owns (c : Thread nD τ) arg3 fullShare x ∗ owns (c : Thread nD τ) arg9 fullShare sc
        ∗ (iprop(owns (c : Thread nD τ) arg2 fullShare a ∗ owns (c : Thread nD τ) arg3 fullShare x ∗ owns (c : Thread nD τ) arg9 fullShare (k0_pay2 a x sc)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f2, %hf2, H2⟩, ⟨%f3, %hf3, H3⟩, ⟨%f9, %hf9, H9⟩, Hk⟩
  obtain rfl := harg2.eq_unread hf2; obtain rfl := harg3.eq_unread hf3; obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact View.cover_of_tiled _ S1024x512.size (by rfl))]
  sl_unfold_words
  rw [View.canon_unit_zero hz]
  simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]

set_option maxHeartbeats 4000000 in
/-- Last block of a row tile: the accumulator as at a middle block, and the result buffer, at anything, ends at the
    result tile computed from the new accumulator. -/
theorem run0_C (c : Dev nD) (i : grid0.Coords) (arg2 : Memref sig .tc .vmem S1024x2048 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1024x256 .f32) (harg8 : arg8.IsWhole) (arg9 : Memref sig .tc .vmem S1024x512 .f32) (harg9 : arg9.IsWhole) (hc1 : ¬cond0_1 i) (hc2 : cond0_2 i)
    (a : Vec F S1024x2048 .f32) (x : Vec F S2048x512 .f32) (xs : Vec F S1024x512 .f32) (wa wb : Vec F S512x256 .f32) (b : Vec F S1x256 .f32) (sc : Vec F S1024x512 .f32) (E : Set ℕ) (K : PUnit → sProp 𝕄) :
    iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
        ∗ (∃ d, owns (c : Thread nD τ) arg8 fullShare d) ∗ owns (c : Thread nD τ) arg9 fullShare sc
        ∗ (iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
            ∗ owns (c : Thread nD τ) arg8 fullShare (k0_pay3 (k0_pay2 a x sc) xs wa wb b) ∗ owns (c : Thread nD τ) arg9 fullShare (k0_pay2 a x sc)) -∗ K ⟨⟩))
      ⊢ wp frame (wpE (defs₀ (F := F)) Variants.none c none) E (cc0__sage_kernel i arg2 harg2 arg3 harg3 arg4 harg4 arg5 harg5 arg6 harg6 arg7 harg7 arg8 harg8 arg9 harg9) K := by
  simp only [cc0__sage_kernel_eq_skeleton]; unfold cc0__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr
    swap; · iexact H8
    ipureintro
    rw [View.read_writes_eq_canon _ _ _ (View.cover_of_tiled _ S1024x256.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]
  · iexists _; isplitr
    swap; · iexact H9
    ipureintro
    rw [View.read_writes_eq_canon _ _ _ (by sl_unfold_words; exact View.cover_of_tiled _ S1024x512.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x512) _ hz,
      View.ld_unit_zero (S := S1024x2048) hz, View.ld_unit_zero (S := S2048x512) hz, View.ld_unit_zero (S := S1024x512) hz,
      View.ld_unit_zero (S := S512x256) hz, View.ld_unit_zero (S := S1x256) hz]

end Cert.KernelIdeal.Sage

end
-- ==== Proof.KernelIdealFrame.R0Dat.lean ====
/-
  The first layer's kernel region: what the accumulator and the result window hold after each grid point, the
  region's proof data, and the body's obligation at every point.

  After point t the accumulator holds the products of the neighbour blocks 0 … t % 8 of row tile t / 8 added in order
  onto the cleared accumulator (`scAt0`): it is cleared where t % 8 = 0 and otherwise continues from the point before.
  The result window's buffer holds, after a row tile's last block, the tile computed from that accumulator
  (`out0`); elsewhere it is idle and keeps whatever it held. The accumulator is a scoped buffer of the kernel's own,
  so what it holds is carried by the region's invariant (`PhiS0`). Two windows read the node-feature array, each holding
  half of it.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import proofs.«175430_j17154099380260_1_alg».proof.Proof.KernelIdealFrame.R0Run
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator and the result tile, point by point -/

/-- The accumulator after point `n`. -/
def scAt0 (c : Dev nD) : (n : ℕ) → n < cfg0.N → Vec F S1024x512 .f32
  | 0, hn => k0_pay2 (iblk0 V c 0 ⟨0, hn⟩) (iblk0 V c 1 ⟨0, hn⟩) k0_pay1
  | n + 1, hn =>
    if (n + 1) % 8 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (scAt0 c n (Nat.lt_of_succ_lt hn))

/-- At a row tile's first block it starts from the cleared accumulator. -/
theorem scAt0_reset (c : Dev nD) (t : Fin cfg0.N) (h : t.val % 8 = 0) :
    scAt0 V c t.val t.isLt = k0_pay2 (iblk0 V c 0 t) (iblk0 V c 1 t) k0_pay1 := by
  obtain ⟨n, hn⟩ := t
  cases n with
  | zero => rfl
  | succ n => exact if_pos h

/-- Elsewhere it continues from the point before. -/
theorem scAt0_step (c : Dev nD) (t : Fin cfg0.N) (h : ¬t.val % 8 = 0) :
    scAt0 V c t.val t.isLt
      = k0_pay2 (iblk0 V c 0 t) (iblk0 V c 1 t) (scAt0 V c (t.val - 1) (Nat.lt_of_le_of_lt (Nat.sub_le _ _) t.isLt)) := by
  obtain ⟨n, hn⟩ := t
  cases n with
  | zero => exact absurd (Nat.zero_mod _) h
  | succ n => exact if_neg h

/-- The result tile computed at point `t` from the accumulator as that point leaves it. -/
def out0 (c : Dev nD) (t : Fin cfg0.N) : Vec F S1024x256 .f32 :=
  k0_pay3 (scAt0 V c t.val t.isLt) (iblk0 V c 2 t) (iblk0 V c 3 t) (iblk0 V c 4 t) (iblk0 V c 5 t)

/-! ## The invariant -/

/-- Before the first point the accumulator holds anything; after point `n` it holds `scAt0 n`. The other scoped
    buffers and the generator register ride along untouched. -/
def PhiS0 (c : Dev nD) : (n : ℕ) → n ≤ cfg0.N → sProp 𝕄
  | 0, _ => iprop(((∃ d, owns (c : Thread nD τ) scM0 fullShare d) ∗ others0 c) ∗ ∃ r, prngReg c r)
  | n + 1, hn => iprop((owns (c : Thread nD τ) scM0 fullShare (scAt0 V c n hn) ∗ others0 c) ∗ ∃ r, prngReg c r)

theorem PhiS0_zero (c : Dev nD) (n : ℕ) (h : n ≤ cfg0.N) (hz : n = 0) :
    PhiS0 V c n h = iprop(((∃ d, owns (c : Thread nD τ) scM0 fullShare d) ∗ others0 c) ∗ ∃ r, prngReg c r) := by
  subst hz; rfl

theorem PhiS0_succ (c : Dev nD) (n : ℕ) (hn : n < cfg0.N) :
    PhiS0 V c (n + 1) hn = iprop((owns (c : Thread nD τ) scM0 fullShare (scAt0 V c n hn) ∗ others0 c) ∗ ∃ r, prngReg c r) := rfl

theorem PhiS0_pos (c : Dev nD) (n : ℕ) (h : n ≤ cfg0.N) (hz : n ≠ 0) :
    PhiS0 V c n h = iprop((owns (c : Thread nD τ) scM0 fullShare (scAt0 V c (n - 1) (by omega)) ∗ others0 c) ∗ ∃ r, prngReg c r) := by
  cases n with
  | zero => exact absurd rfl hz
  | succ n => rfl

/-! ## The proof data -/

/-- The region's proof data on core `c`: the arrays as the region finds them; after the body at point `t` each input
    buffer at its block and the result buffer at `out0`; the invariant `PhiS0`; the node-feature array held in halves
    by its two windows; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0 V c t
  Φ t := PhiS0 V c t.val (Nat.le_of_lt_succ t.isLt)
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) :
    (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) :
    (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) :
    (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) :
    (dat0 V c).leavesExact 5 t = owns (c : Thread nD τ) (ms0_5 t) fullShare (iblk0 V c 5 t) := by
  unfold Dat.leavesExact; rw [liveAt0_5 t, after0_5]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4000000 in
/-- The body at any point: by the point's position in its row tile one of the three runs applies; the invariant hands
    it the accumulator (at anything before a clearing point, at what the point before left otherwise) and takes it back
    at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  -- every input buffer holds its block, whether or not it was fetched at this point
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0 V c t, leaves0_1 V c t, leaves0_2 V c t, leaves0_3 V c t, leaves0_4 V c t, leaves0_5 V c t]
  have hN : t.val < 128 := lt_of_lt_of_eq t.isLt (show cfg0.N = 128 from N_0)
  by_cases h7 : t.val % 8 = 7
  · -- last block of a row tile: the product is added to what the point before left, and the result tile is stored
    have h0 : ¬t.val % 8 = 0 := by omega
    have hz : t.val ≠ 0 := by omega
    have hc1 : ¬cond0_1 (grid0.coords t) := fun h => h0 ((hcond0_1 t).mp h)
    have hc2 : cond0_2 (grid0.coords t) := (hcond0_2 t).mpr h7
    rw [show (dat0 V c).leavesExact 6 t = owns (c : Thread nD τ) (ms0_6 t) fullShare ((dat0 V c).after 6 t) from by
      unfold Dat.leavesExact; rw [liveAt0_6 t hc2], after0_6]
    unfold out0
    rw [scAt0_step V c t h0]
    rw [PhiS0_castSucc V c t, PhiS0_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run0_C c (grid0.coords t) _ _ _ _ _ _ _ _ _ _ _ _ _ _ _ _ hc1 hc2 (iblk0 V c 0 t) (iblk0 V c 1 t) (iblk0 V c 2 t)
      (iblk0 V c 3 t) (iblk0 V c 4 t) (iblk0 V c 5 t)
      (scAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬cond0_2 (grid0.coords t) := fun h => h7 ((hcond0_2 t).mp h)
    -- away from the last block the result window is idle and keeps what it held
    rw [Dat.leavesExact_idle (dat0 V c) 6 t (idleAt0_6 t hc2) (noFlush0_6 t hc2)]
    by_cases h0 : t.val % 8 = 0
    · -- first block of a row tile: the accumulator, whatever it held, is cleared and the product added
      have hc1 : cond0_1 (grid0.coords t) := (hcond0_1 t).mpr h0
      rw [scAt0_reset V c t h0]
      by_cases hz : t.val = 0
      · rw [PhiS0_castSucc V c t, PhiS0_zero V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run0_A c (grid0.coords t) _ _ _ _ _ _ _ _ _ _ _ _ _ _ _ _ hc1 hc2 (iblk0 V c 0 t) (iblk0 V c 1 t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · rw [PhiS0_castSucc V c t, PhiS0_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run0_A c (grid0.coords t) _ _ _ _ _ _ _ _ _ _ _ _ _ _ _ _ hc1 hc2 (iblk0 V c 0 t) (iblk0 V c 1 t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · -- a middle block: the product is added to what the point before left
      have hz : t.val ≠ 0 := fun h => h0 (by rw [h])
      have hc1 : ¬cond0_1 (grid0.coords t) := fun h => h0 ((hcond0_1 t).mp h)
      rw [scAt0_step V c t h0]
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
      iapply (run0_B c (grid0.coords t) _ _ _ _ _ _ _ _ _ _ _ _ _ _ _ _ hc1 hc2 (iblk0 V c 0 t) (iblk0 V c 1 t)
        (scAt0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The scoped rest and the generator register make the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  unfold Pipeline.ΦA; rw [scopedRest0_split]

/-- After the last point the invariant gives them back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  unfold Pipeline.ΦA; rw [scopedRest0_split]
  iintro ⟨⟨HS, Ho⟩, Hg⟩
  isplitl [HS Ho]
  · isplitl [HS]
    · iexists _; iexact HS
    iexact Ho
  iexact Hg

end Cert.KernelIdeal.Sage

end
-- ==== Proof.KernelIdealFrame.R0Seg.lean ====
/-
  The first layer's kernel region at its two ends: how the buffers behind its arrays become the arrays its windows hold,
  and back.

  Seven windows read six buffers: the node-feature array is read by two windows, once in neighbour blocks and once in
  row tiles. At entry its buffer, held whole, is halved between them; the other five buffers go to their windows whole.
  At exit the two halves, still at the entry contents, are joined again, and the result window's buffer holds what the
  write-backs left.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import proofs.«175430_j17154099380260_1_alg».proof.Proof.KernelIdealFrame.R0Dat
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the region's arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v4) ↦{fullShare} V main_v4) ∗ (((c : Thread nD τ).loc main_v6) ↦{fullShare} V main_v6)) := by
  unfold Pipeline.arrBufs
  exact bigSep_eq_bigSepL_of_eq [main_arg0, main_arg1, main_v0, main_v1, main_v4, main_v6] (by decide) (by decide) _

variable (V : (c : Dev nD) → (b : Ref sig .tc) → Buf (Elt F) ((c : Thread nD τ).loc b))

/-- The windows' arrays at contents `Fa`, one by one, each at the share its window holds. -/
theorem arrays0_eq (c : Dev nD) (Fa : (w : Fin cfg0.W) → Buf (Elt F) ((cfg0.win w).arr.view.loc (c : Thread nD τ))) :
    ((dat0 V c).arrays Fa : sProp 𝕄)
      = iprop((((c : Thread nD τ).loc main_arg0) ↦{fullShare} Fa 0) ∗ (((c : Thread nD τ).loc main_arg1) ↦{fullShare.left} Fa 1)
          ∗ (((c : Thread nD τ).loc main_arg1) ↦{fullShare.right} Fa 2) ∗ (((c : Thread nD τ).loc main_v0) ↦{fullShare} Fa 3)
          ∗ (((c : Thread nD τ).loc main_v1) ↦{fullShare} Fa 4) ∗ (((c : Thread nD τ).loc main_v4) ↦{fullShare} Fa 5)
          ∗ (((c : Thread nD τ).loc main_v6) ↦{fullShare} Fa 6)) := by
  unfold Dat.arrays
  rw [bigSep_W0]
  rw [(arr_whole0 0).set_eq_univ, (arr_whole0 1).set_eq_univ, (arr_whole0 3).set_eq_univ,
    (arr_whole0 4).set_eq_univ, (arr_whole0 5).set_eq_univ, (arr_whole0 6).set_eq_univ]
  rfl

/-- At entry every window's array holds what the region found. -/
theorem arrAt0_zero (c : Dev nD) (w : Fin cfg0.W) : (dat0 V c).arrAt w 0 = V c (Pipeline.arrRef spec0 w) := rfl

/-- ENTRY. The buffers behind the arrays, whole at the contents the region finds, make the windows' arrays: the
    node-feature buffer is halved between its two windows. -/
theorem hsplit0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  simp only [arrAt0_zero]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

/-- EXIT. The windows' arrays after the last point — the inputs as found, the result array at what the write-backs
    left — are the buffers behind them, whole, at any contents `Vout` that differ from the entry contents only at the
    result array and hold there what the write-backs left. -/
theorem hjoin0 (c : Dev nD) (Vout : (b : Ref sig .tc) → Buf (Elt F) ((c : Thread nD τ).loc b))
    (h6 : Vout main_v6 = (dat0 V c).arrAt 6 cfg0.N) (hkeep : ∀ b, b ≠ main_v6 → Vout b = V c b) :
    ((dat0 V c).arrays ((dat0 V c).arrAt · cfg0.N) : sProp 𝕄)
      ⊢ Pipeline.arrBufs (Ix := Unit) (Name := ℕ) (U := UR sig nD τ) (Lvl := ℕ) spec0 c Vout := by
  rw [arrBufs0_eq, arrays0_eq]
  rw [(dat0 V c).arrAt_in 0 rfl, (dat0 V c).arrAt_in 1 rfl, (dat0 V c).arrAt_in 2 rfl, (dat0 V c).arrAt_in 3 rfl,
    (dat0 V c).arrAt_in 4 rfl, (dat0 V c).arrAt_in 5 rfl]
  rw [hkeep main_arg0 (by decide), hkeep main_arg1 (by decide), hkeep main_v0 (by decide), hkeep main_v1 (by decide),
    hkeep main_v4 (by decide), h6]
  simp only [A_eq0]
  iintro ⟨H0, H1, H2, H3, H4, H5, H6⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.KernelIdeal.Sage

end
-- ==== Proof.KernelIdealFrame.R1Base.lean ====
/-
  The second layer's kernel region, at the contents `V` its arrays hold when it is entered: what each window's block is
  at a grid point, when the two conditionals of the body are taken, and where the result window rests.

  The grid is 16 row tiles by 8 neighbour blocks, walked row tile by row tile: point t is row tile t / 8, block t % 8.
  The accumulator is cleared at the first block of a row tile (t % 8 = 0) and the result tile is produced at the last
  (t % 8 = 7); at every other point the result window is idle and is not written back.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched point
    has the block index of the point before, and the body leaves the block as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched point
    has the block index of the point before, and the body leaves the block as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched point
    has the block index of the point before, and the body leaves the block as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched point
    has the block index of the point before, and the body leaves the block as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an unfetched point
    has the block index of the point before, and the body leaves the block as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: an unfetched point
    has the block index of the point before, and the body leaves the block as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditionals, over the grid -/

/-- The accumulator is cleared: the neighbour-block coordinate is zero. -/
abbrev cond1_1 (i : grid1.Coords) : Prop :=
  (Scalar.cmpi .ne (Scalar.extui (Scalar.cmpi .eq (BitVec.ofNat 32 (i 1).val) 0#32)) 0#32) = 1#1
theorem hcond1_1 : ∀ t : Fin cfg1.N, cond1_1 (grid1.coords t) ↔ t.val % 8 = 0 :=
  (by decide +kernel : ∀ t : Fin grid1.N, cond1_1 (grid1.coords t) ↔ t.val % 8 = 0)

/-- The result tile is produced: the neighbour-block coordinate is the last. -/
abbrev cond1_2 (i : grid1.Coords) : Prop := k1_cond2 i = 1#1
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the result window rests -/

/-- Away from a row tile's last block the result window is idle -/
theorem idleAt1_6 : ∀ t : Fin cfg1.N, ¬cond1_2 (grid1.coords t) → cfg1.idle 6 (grid1.coords t) = true := by decide +kernel
/-- and is not written back; -/
theorem noFlush1_6 : ∀ t : Fin cfg1.N, ¬cond1_2 (grid1.coords t) → (cfg1.win 6).flush t = false := by decide +kernel
/-- at the last block it is live. -/
theorem liveAt1_6 : ∀ t : Fin cfg1.N, cond1_2 (grid1.coords t) → cfg1.idle 6 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x40 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x40 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x40 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1 : Memref sig .tc .vmem S1024x256 .f32 := Memref.whole cc1_scratch0

/-! ## The accumulator among the scoped buffers -/

/-- The scoped buffers that are neither a staging buffer of this region nor the accumulator, each whole at some contents. -/
def others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The region's scoped rest is the accumulator at some contents beside the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ others1 c) := by
  unfold Pipeline.scopedRest others1
  rw [bigSep_erase (i := cc1_scratch0) (by decide)]
  simp only [scM1, owns_whole]
  rfl

end Cert.KernelIdeal.Sage

end
-- ==== Proof.KernelIdealFrame.R1Run.lean ====
/-
  The second layer's kernel body, run once in each of its three cases on whole staging buffers.

  At a row tile's first neighbour block the accumulator is cleared and the block's product added: it ends at
  pay2 a x 0-block. At a middle block the product is added to what the accumulator held: pay2 a x acc. At the last block
  the same, and then the result tile is stored: pay3 of the new accumulator, the tile's own features, the two weight
  halves and the bias. Every store rewrites a whole buffer, so a buffer holds the payload of its last store, and a
  load after a store reads that payload.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import proofs.«175430_j17154099380260_1_alg».proof.Proof.KernelIdealFrame.R1Base
import proofs.«175430_j17154099380260_1_alg».proof.Proof.LibCover
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First block of a row tile: the accumulator, at anything, ends at the block's product over the cleared accumulator. -/
theorem run1_A (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x40 .f32) (harg5 : arg5.IsWhole) (arg6 : Memref sig .tc .vmem S256x40 .f32) (harg6 : arg6.IsWhole) (arg7 : Memref sig .tc .vmem S1x40 .f32) (harg7 : arg7.IsWhole) (arg8 : Memref sig .tc .vmem S1024x40 .f32) (harg8 : arg8.IsWhole) (arg9 : Memref sig .tc .vmem S1024x256 .f32) (harg9 : arg9.IsWhole) (hc1 : cond1_1 i) (hc2 : ¬cond1_2 i)
    (a : Vec F S1024x2048 .f32) (x : Vec F S2048x256 .f32) (E : Set ℕ) (K : PUnit → sProp 𝕄) :
    iprop(owns (c : Thread nD τ) arg2 fullShare a ∗ owns (c : Thread nD τ) arg3 fullShare x ∗ (∃ d, owns (c : Thread nD τ) arg9 fullShare d)
        ∗ (iprop(owns (c : Thread nD τ) arg2 fullShare a ∗ owns (c : Thread nD τ) arg3 fullShare x ∗ owns (c : Thread nD τ) arg9 fullShare (k1_pay2 a x k1_pay1)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9) K := by
  simp only [cc1__sage_kernel_eq_skeleton]; unfold cc1__sage_kernel_skel
  unfold owns
  iintro ⟨⟨%f2, %hf2, H2⟩, ⟨%f3, %hf3, H3⟩, ⟨%d9, %f9, -, H9⟩, Hk⟩
  obtain rfl := harg2.eq_unread hf2; obtain rfl := harg3.eq_unread hf3
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact Cert.Cover.cons _ _ (View.cover_of_tiled _ S1024x256.size (by rfl)))]
  sl_unfold_words
  rw [View.canon_cons_unit_zero hz]
  simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]

set_option maxHeartbeats 4000000 in
/-- A middle block: the accumulator at `sc` ends at the block's product added to it. -/
theorem run1_B (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x40 .f32) (harg5 : arg5.IsWhole) (arg6 : Memref sig .tc .vmem S256x40 .f32) (harg6 : arg6.IsWhole) (arg7 : Memref sig .tc .vmem S1x40 .f32) (harg7 : arg7.IsWhole) (arg8 : Memref sig .tc .vmem S1024x40 .f32) (harg8 : arg8.IsWhole) (arg9 : Memref sig .tc .vmem S1024x256 .f32) (harg9 : arg9.IsWhole) (hc1 : ¬cond1_1 i) (hc2 : ¬cond1_2 i)
    (a : Vec F S1024x2048 .f32) (x : Vec F S2048x256 .f32) (sc : Vec F S1024x256 .f32) (E : Set ℕ) (K : PUnit → sProp 𝕄) :
    iprop(owns (c : Thread nD τ) arg2 fullShare a ∗ owns (c : Thread nD τ) arg3 fullShare x ∗ owns (c : Thread nD τ) arg9 fullShare sc
        ∗ (iprop(owns (c : Thread nD τ) arg2 fullShare a ∗ owns (c : Thread nD τ) arg3 fullShare x ∗ owns (c : Thread nD τ) arg9 fullShare (k1_pay2 a x sc)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9) K := by
  simp only [cc1__sage_kernel_eq_skeleton]; unfold cc1__sage_kernel_skel
  unfold owns
  iintro ⟨⟨%f2, %hf2, H2⟩, ⟨%f3, %hf3, H3⟩, ⟨%f9, %hf9, H9⟩, Hk⟩
  obtain rfl := harg2.eq_unread hf2; obtain rfl := harg3.eq_unread hf3; obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  iexists _; isplitr
  swap; · iexact H9
  ipureintro
  rw [View.read_writes_eq_canon _ _ _ (by sl_unfold_words; exact View.cover_of_tiled _ S1024x256.size (by rfl))]
  sl_unfold_words
  rw [View.canon_unit_zero hz]
  simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]

set_option maxHeartbeats 4000000 in
/-- Last block of a row tile: the accumulator as at a middle block, and the result buffer, at anything, ends at the
    result tile computed from the new accumulator. -/
theorem run1_C (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S256x40 .f32) (harg5 : arg5.IsWhole) (arg6 : Memref sig .tc .vmem S256x40 .f32) (harg6 : arg6.IsWhole) (arg7 : Memref sig .tc .vmem S1x40 .f32) (harg7 : arg7.IsWhole) (arg8 : Memref sig .tc .vmem S1024x40 .f32) (harg8 : arg8.IsWhole) (arg9 : Memref sig .tc .vmem S1024x256 .f32) (harg9 : arg9.IsWhole) (hc1 : ¬cond1_1 i) (hc2 : cond1_2 i)
    (a : Vec F S1024x2048 .f32) (x : Vec F S2048x256 .f32) (xs : Vec F S1024x256 .f32) (wa wb : Vec F S256x40 .f32) (b : Vec F S1x40 .f32) (sc : Vec F S1024x256 .f32) (E : Set ℕ) (K : PUnit → sProp 𝕄) :
    iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
        ∗ (∃ d, owns (c : Thread nD τ) arg8 fullShare d) ∗ owns (c : Thread nD τ) arg9 fullShare sc
        ∗ (iprop(owns (c : Thread nD τ) arg2 fullShare a ∗ owns (c : Thread nD τ) arg3 fullShare x ∗ owns (c : Thread nD τ) arg4 fullShare xs ∗ owns (c : Thread nD τ) arg5 fullShare wa ∗ owns (c : Thread nD τ) arg6 fullShare wb ∗ owns (c : Thread nD τ) arg7 fullShare b
            ∗ owns (c : Thread nD τ) arg8 fullShare (k1_pay3 (k1_pay2 a x sc) xs wa wb b) ∗ owns (c : Thread nD τ) arg9 fullShare (k1_pay2 a x sc)) -∗ K ⟨⟩))
      ⊢ wp frame (wpE (defs₀ (F := F)) Variants.none c none) E (cc1__sage_kernel i arg2 harg2 arg3 harg3 arg4 harg4 arg5 harg5 arg6 harg6 arg7 harg7 arg8 harg8 arg9 harg9) K := by
  simp only [cc1__sage_kernel_eq_skeleton]; unfold cc1__sage_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact hc1 | exact hc2)
  sl_step
  iapply Hk
  have hz := Cert.Cover.zero2
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr
    swap; · iexact H8
    ipureintro
    rw [View.read_writes_eq_canon _ _ _ (View.cover_of_tiled _ S1024x40.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]
  · iexists _; isplitr
    swap; · iexact H9
    ipureintro
    rw [View.read_writes_eq_canon _ _ _ (by sl_unfold_words; exact View.cover_of_tiled _ S1024x256.size (by rfl))]
    sl_unfold_words
    rw [View.canon_unit_zero hz]
    simp only [View.readAt_eq_ld, harg2.read_unread, harg3.read_unread, harg4.read_unread, harg5.read_unread, harg6.read_unread,
      harg7.read_unread, harg9.read_unread, View.readCov_unit_zero (S := S1024x256) _ hz,
      View.ld_unit_zero (S := S1024x2048) hz, View.ld_unit_zero (S := S2048x256) hz, View.ld_unit_zero (S := S1024x256) hz,
      View.ld_unit_zero (S := S256x40) hz, View.ld_unit_zero (S := S1x40) hz]

end Cert.KernelIdeal.Sage

end
-- ==== Proof.KernelIdealFrame.R1Dat.lean ====
/-
  The second layer's kernel region: what the accumulator and the result window hold after each grid point, the
  region's proof data, and the body's obligation at every point.

  After point t the accumulator holds the products of the neighbour blocks 0 … t % 8 of row tile t / 8 added in order
  onto the cleared accumulator (`scAt1`): it is cleared where t % 8 = 0 and otherwise continues from the point before.
  The result window's buffer holds, after a row tile's last block, the tile computed from that accumulator
  (`out1`); elsewhere it is idle and keeps whatever it held. The accumulator is a scoped buffer of the kernel's own,
  so what it holds is carried by the region's invariant (`PhiS1`). Two windows read the hidden-layer array, each holding
  half of it.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import proofs.«175430_j17154099380260_1_alg».proof.Proof.KernelIdealFrame.R1Run
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator and the result tile, point by point -/

/-- The accumulator after point `n`. -/
def scAt1 (c : Dev nD) : (n : ℕ) → n < cfg1.N → Vec F S1024x256 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (scAt1 c n (Nat.lt_of_succ_lt hn))

/-- At a row tile's first block it starts from the cleared accumulator. -/
theorem scAt1_reset (c : Dev nD) (t : Fin cfg1.N) (h : t.val % 8 = 0) :
    scAt1 V c t.val t.isLt = k1_pay2 (iblk1 V c 0 t) (iblk1 V c 1 t) k1_pay1 := by
  obtain ⟨n, hn⟩ := t
  cases n with
  | zero => rfl
  | succ n => exact if_pos h

/-- Elsewhere it continues from the point before. -/
theorem scAt1_step (c : Dev nD) (t : Fin cfg1.N) (h : ¬t.val % 8 = 0) :
    scAt1 V c t.val t.isLt
      = k1_pay2 (iblk1 V c 0 t) (iblk1 V c 1 t) (scAt1 V c (t.val - 1) (Nat.lt_of_le_of_lt (Nat.sub_le _ _) t.isLt)) := by
  obtain ⟨n, hn⟩ := t
  cases n with
  | zero => exact absurd (Nat.zero_mod _) h
  | succ n => exact if_neg h

/-- The result tile computed at point `t` from the accumulator as that point leaves it. -/
def out1 (c : Dev nD) (t : Fin cfg1.N) : Vec F S1024x40 .f32 :=
  k1_pay3 (scAt1 V c t.val t.isLt) (iblk1 V c 2 t) (iblk1 V c 3 t) (iblk1 V c 4 t) (iblk1 V c 5 t)

/-! ## The invariant -/

/-- Before the first point the accumulator holds anything; after point `n` it holds `scAt1 n`. The other scoped
    buffers and the generator register ride along untouched. -/
def PhiS1 (c : Dev nD) : (n : ℕ) → n ≤ cfg1.N → sProp 𝕄
  | 0, _ => iprop(((∃ d, owns (c : Thread nD τ) scM1 fullShare d) ∗ others1 c) ∗ ∃ r, prngReg c r)
  | n + 1, hn => iprop((owns (c : Thread nD τ) scM1 fullShare (scAt1 V c n hn) ∗ others1 c) ∗ ∃ r, prngReg c r)

theorem PhiS1_zero (c : Dev nD) (n : ℕ) (h : n ≤ cfg1.N) (hz : n = 0) :
    PhiS1 V c n h = iprop(((∃ d, owns (c : Thread nD τ) scM1 fullShare d) ∗ others1 c) ∗ ∃ r, prngReg c r) := by
  subst hz; rfl

theorem PhiS1_succ (c : Dev nD) (n : ℕ) (hn : n < cfg1.N) :
    PhiS1 V c (n + 1) hn = iprop((owns (c : Thread nD τ) scM1 fullShare (scAt1 V c n hn) ∗ others1 c) ∗ ∃ r, prngReg c r) := rfl

theorem PhiS1_pos (c : Dev nD) (n : ℕ) (h : n ≤ cfg1.N) (hz : n ≠ 0) :
    PhiS1 V c n h = iprop((owns (c : Thread nD τ) scM1 fullShare (scAt1 V c (n - 1) (by omega)) ∗ others1 c) ∗ ∃ r, prngReg c r) := by
  cases n with
  | zero => exact absurd rfl hz
  | succ n => rfl

/-! ## The proof data -/

/-- The region's proof data on core `c`: the arrays as the region finds them; after the body at point `t` each input
    buffer at its block and the result buffer at `out1`; the invariant `PhiS1`; the hidden-layer array held in halves
    by its two windows; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := PhiS1 V c t.val (Nat.le_of_lt_succ t.isLt)
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (ms1_5 t) fullShare (iblk1 V c 5 t) := by
  unfold Dat.leavesExact; rw [liveAt1_5 t, after1_5]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: by the point's position in its row tile one of the three runs applies; the invariant hands
    it the accumulator (at anything before a clearing point, at what the point before left otherwise) and takes it back
    at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- every input buffer holds its block, whether or not it was fetched at this point
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0 V c t, leaves1_1 V c t, leaves1_2 V c t, leaves1_3 V c t, leaves1_4 V c t, leaves1_5 V c t]
  have hN : t.val < 128 := lt_of_lt_of_eq t.isLt (show cfg1.N = 128 from N_1)
  by_cases h7 : t.val % 8 = 7
  · -- last block of a row tile: the product is added to what the point before left, and the result tile is stored
    have h0 : ¬t.val % 8 = 0 := by omega
    have hz : t.val ≠ 0 := by omega
    have hc1 : ¬cond1_1 (grid1.coords t) := fun h => h0 ((hcond1_1 t).mp h)
    have hc2 : cond1_2 (grid1.coords t) := (hcond1_2 t).mpr h7
    rw [show (dat1 V c).leavesExact 6 t = owns (c : Thread nD τ) (ms1_6 t) fullShare ((dat1 V c).after 6 t) from by
      unfold Dat.leavesExact; rw [liveAt1_6 t hc2], after1_6]
    unfold out1
    rw [scAt1_step V c t h0]
    rw [PhiS1_castSucc V c t, PhiS1_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run1_C c (grid1.coords t) _ _ _ _ _ _ _ _ _ _ _ _ _ _ _ _ hc1 hc2 (iblk1 V c 0 t) (iblk1 V c 1 t) (iblk1 V c 2 t)
      (iblk1 V c 3 t) (iblk1 V c 4 t) (iblk1 V c 5 t)
      (scAt1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬cond1_2 (grid1.coords t) := fun h => h7 ((hcond1_2 t).mp h)
    -- away from the last block the result window is idle and keeps what it held
    rw [Dat.leavesExact_idle (dat1 V c) 6 t (idleAt1_6 t hc2) (noFlush1_6 t hc2)]
    by_cases h0 : t.val % 8 = 0
    · -- first block of a row tile: the accumulator, whatever it held, is cleared and the product added
      have hc1 : cond1_1 (grid1.coords t) := (hcond1_1 t).mpr h0
      rw [scAt1_reset V c t h0]
      by_cases hz : t.val = 0
      · rw [PhiS1_castSucc V c t, PhiS1_zero V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run1_A c (grid1.coords t) _ _ _ _ _ _ _ _ _ _ _ _ _ _ _ _ hc1 hc2 (iblk1 V c 0 t) (iblk1 V c 1 t) Set.univ _)
        isplitl [H0]; · iexact H0
        isplitl [H1]; · iexact H1
        isplitl [HS]; · iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · rw [PhiS1_castSucc V c t, PhiS1_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
        iapply (run1_A c (grid1.coords t) _ _ _ _ _ _ _ _ _ _ _ _ _ _ _ _ hc1 hc2 (iblk1 V c 0 t) (iblk1 V c 1 t) Set.univ _)
        isplitl [H0]; · iexact H0
        isplitl [H1]; · iexact H1
        isplitl [HS]; · iexists _; iexact HS
        iintro ⟨H0, H1, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · -- a middle block: the product is added to what the point before left
      have hz : t.val ≠ 0 := fun h => h0 (by rw [h])
      have hc1 : ¬cond1_1 (grid1.coords t) := fun h => h0 ((hcond1_1 t).mp h)
      rw [scAt1_step V c t h0]
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, H6⟩
      iapply (run1_B c (grid1.coords t) _ _ _ _ _ _ _ _ _ _ _ _ _ _ _ _ hc1 hc2 (iblk1 V c 0 t) (iblk1 V c 1 t)
        (scAt1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The scoped rest and the generator register make the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  unfold Pipeline.ΦA; rw [scopedRest1_split]

/-- After the last point the invariant gives them back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold Pipeline.ΦA; rw [scopedRest1_split]
  iintro ⟨⟨HS, Ho⟩, Hg⟩
  isplitl [HS Ho]
  · isplitl [HS]
    · iexists _; iexact HS
    iexact Ho
  iexact Hg

end Cert.KernelIdeal.Sage

end
-- ==== Proof.KernelIdealFrame.R1Seg.lean ====
/-
  The second layer's kernel region at its two ends: how the buffers behind its arrays become the arrays its windows hold,
  and back.

  Seven windows read six buffers: the hidden-layer array is read by two windows, once in neighbour blocks and once in
  row tiles. At entry its buffer, held whole, is halved between them; the other five buffers go to their windows whole.
  At exit the two halves, still at the entry contents, are joined again, and the result window's buffer holds what the
  write-backs left.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import proofs.«175430_j17154099380260_1_alg».proof.Proof.KernelIdealFrame.R1Dat
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the region's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v6) ↦{fullShare} V main_v6)
          ∗ (((c : Thread nD τ).loc main_v2) ↦{fullShare} V main_v2) ∗ (((c : Thread nD τ).loc main_v3) ↦{fullShare} V main_v3)
          ∗ (((c : Thread nD τ).loc main_v5) ↦{fullShare} V main_v5) ∗ (((c : Thread nD τ).loc main_v7) ↦{fullShare} V main_v7)) := by
  unfold Pipeline.arrBufs
  exact bigSep_eq_bigSepL_of_eq [main_arg0, main_v6, main_v2, main_v3, main_v5, main_v7] (by decide) (by decide) _

variable (V : (c : Dev nD) → (b : Ref sig .tc) → Buf (Elt F) ((c : Thread nD τ).loc b))

/-- The windows' arrays at contents `Fa`, one by one, each at the share its window holds. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_arg0) ↦{fullShare} Fa 0) ∗ (((c : Thread nD τ).loc main_v6) ↦{fullShare.left} Fa 1)
          ∗ (((c : Thread nD τ).loc main_v6) ↦{fullShare.right} Fa 2) ∗ (((c : Thread nD τ).loc main_v2) ↦{fullShare} Fa 3)
          ∗ (((c : Thread nD τ).loc main_v3) ↦{fullShare} Fa 4) ∗ (((c : Thread nD τ).loc main_v5) ↦{fullShare} Fa 5)
          ∗ (((c : Thread nD τ).loc main_v7) ↦{fullShare} Fa 6)) := by
  unfold Dat.arrays
  rw [bigSep_W1]
  rw [(arr_whole1 0).set_eq_univ, (arr_whole1 1).set_eq_univ, (arr_whole1 3).set_eq_univ,
    (arr_whole1 4).set_eq_univ, (arr_whole1 5).set_eq_univ, (arr_whole1 6).set_eq_univ]
  rfl

/-- At entry every window's array holds what the region found. -/
theorem arrAt1_zero (c : Dev nD) (w : Fin cfg1.W) : (dat1 V c).arrAt w 0 = V c (Pipeline.arrRef spec1 w) := rfl

/-- ENTRY. The buffers behind the arrays, whole at the contents the region finds, make the windows' arrays: the
    hidden-layer buffer is halved between its two windows. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  simp only [arrAt1_zero]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

/-- EXIT. The windows' arrays after the last point — the inputs as found, the result array at what the write-backs
    left — are the buffers behind them, whole, at any contents `Vout` that differ from the entry contents only at the
    result array and hold there what the write-backs left. -/
theorem hjoin1 (c : Dev nD) (Vout : (b : Ref sig .tc) → Buf (Elt F) ((c : Thread nD τ).loc b))
    (h6 : Vout main_v7 = (dat1 V c).arrAt 6 cfg1.N) (hkeep : ∀ b, b ≠ main_v7 → Vout b = V c b) :
    ((dat1 V c).arrays ((dat1 V c).arrAt · cfg1.N) : sProp 𝕄)
      ⊢ Pipeline.arrBufs (Ix := Unit) (Name := ℕ) (U := UR sig nD τ) (Lvl := ℕ) spec1 c Vout := by
  rw [arrBufs1_eq, arrays1_eq]
  rw [(dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl]
  rw [hkeep main_arg0 (by decide), hkeep main_v6 (by decide), hkeep main_v2 (by decide), hkeep main_v3 (by decide),
    hkeep main_v5 (by decide), h6]
  simp only [A_eq1]
  iintro ⟨H0, H1, H2, H3, H4, H5, H6⟩
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.KernelIdeal.Sage

end
-- ==== Proof.KernelIdealFrame.Main.lean ====
/-
  The whole program at any float instance: the host operations that cut the two weight matrices in halves and lay the
  biases out as rows, then the two kernel regions, run to the end; the result array holds what the second region's
  write-backs leave, and the six argument arrays are as launched.

  Between the items a core holds every unscoped buffer whole: at launch the memory's contents, after the host operations
  their results beside, after the first region the hidden-layer array at what its write-backs left, after the second the
  result array likewise. No host operation and no region writes an argument.
-/
import proofs.«175430_j17154099380260_1_alg».proof.Proof.Gen.KernelIdeal.Launch
import proofs.«175430_j17154099380260_1_alg».proof.Proof.Gen.KernelIdeal.Skeleton
import proofs.«175430_j17154099380260_1_alg».proof.Proof.Gen.KernelIdeal.Points
import proofs.«175430_j17154099380260_1_alg».proof.Proof.KernelIdealFrame.R0Seg
import proofs.«175430_j17154099380260_1_alg».proof.Proof.KernelIdealFrame.R1Seg
import proofs.«175430_j17154099380260_1_alg».proof.Proof.Gen.KernelIdeal.Regions
import Idealize.ShloMosaic.Lib.Pipeline.Frame
import Idealize.ShloMosaic.Lib.Pipeline.Regions
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- Core `c`'s buffers at launch. -/
abbrev W0 : Dev nD → Valuation τ sig (Elt F) := fun c b => m (c, b)
/-- After the host operations: the first region's entry. -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- After the first region: the hidden-layer array at what the write-backs left, every other buffer as entered. -/
def W2 (c : Dev nD) : Valuation τ sig (Elt F) :=
  Function.update (W1 m c) main_v6 ((dat0 (U1 m) c).arrAt 6 cfg0.N : Buf (Elt F) ((c : Thread nD τ).loc main_v6))
abbrev U2 : (c : Dev nD) → (b : Ref sig .tc) → Buf (Elt F) ((c : Thread nD τ).loc b) := fun c b => W2 m c b
/-- After the second region: the result array at what the write-backs left. -/
def W3 (c : Dev nD) : Valuation τ sig (Elt F) :=
  Function.update (W2 m c) main_v7 ((dat1 (U2 m) c).arrAt 6 cfg1.N : Buf (Elt F) ((c : Thread nD τ).loc main_v7))

theorem W2_out (c : Dev nD) : W2 m c main_v6 = (dat0 (U1 m) c).arrAt 6 cfg0.N := by
  unfold W2; exact Function.update_self ..
theorem W2_keep (c : Dev nD) (b : Ref sig .tc) (hb : b ≠ main_v6) : W2 m c b = U1 m c b := by
  unfold W2; exact Function.update_of_ne (StableHlo.devRef_ne_of_ne hb) ..
theorem W3_out (c : Dev nD) : W3 m c main_v7 = (dat1 (U2 m) c).arrAt 6 cfg1.N := by
  unfold W3; exact Function.update_self ..
theorem W3_keep (c : Dev nD) (b : Ref sig .tc) (hb : b ≠ main_v7) : W3 m c b = U2 m c b := by
  unfold W3; exact Function.update_of_ne (StableHlo.devRef_ne_of_ne hb) ..

/-- An argument reaches the end as launched. -/
theorem W3_arg (c : Dev nD) (b : Ref sig .tc) (h7 : b ≠ main_v7) (h6 : b ≠ main_v6) (hW : b ∉ hostOps0_W) :
    W3 m c b = m ((c : Thread nD τ).loc b) :=
  (W3_keep m c b h7).trans ((W2_keep m c b h6).trans (StableHlo.after_of_writes_sub hostOps0 _ hostOps0_writes hW))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W3 m c) ∗ ∃ r, prngReg c r)

/-- The host operations as a segment from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

-- a lemma stated over a pinned configuration unifies with the printed one only when unification may unfold plain
-- definitions in a metavariable's type
set_option backward.isDefEq.respectTransparency.types false in
/-- The first layer's region over the thread state: entered with every unscoped buffer at `W1`, left with them at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsp : (StableHlo.held (c : Thread nD τ) (Pipeline.ucRefs τ sig) (W1 m c) : sProp 𝕄)
        ⊢ iprop((dat0 (U1 m) c).arrays ((dat0 (U1 m) c).arrAt · 0) ∗ Pipeline.unscopedRest spec0 c (U1 m c)) := by
      rw [← Pipeline.unscopedBufs_held (Ix := Unit) (Name := ℕ) (U := UR sig nD τ) (Lvl := ℕ) c (W1 m c),
        Pipeline.unscopedBufs_split₀ cfgs (0 : Fin 2) winFacts₀0.arr_unscoped c (U1 m c)]
      exact sep_mono (hsplit0 (U1 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (U1 m) c)
    unfold Pipeline.ΦA
    iintro ⟨Hp, -, Hr⟩
    isplitl [Hr]; · iexact Hr
    iexact Hp
  hout c := by
    rw [Pipeline.ownSems0_none]
    refine (hout0 (U1 m) c).trans ?_
    unfold Pipeline.ΦA
    iintro ⟨Hr, Hp⟩
    isplitl [Hp]; · iexact Hp
    isplitr; · iempintro
    iexact Hr
  hexit c := by
    have hj : iprop((dat0 (U1 m) c).arrays ((dat0 (U1 m) c).arrAt · cfg0.N) ∗ Pipeline.unscopedRest spec0 c (U1 m c))
        ⊢ (StableHlo.held (c : Thread nD τ) (Pipeline.ucRefs τ sig) (W2 m c) : sProp 𝕄) := by
      rw [← Pipeline.unscopedBufs_held (Ix := Unit) (Name := ℕ) (U := UR sig nD τ) (Lvl := ℕ) c (W2 m c),
        Pipeline.unscopedBufs_split₀ cfgs (0 : Fin 2) winFacts₀0.arr_unscoped c (fun b => W2 m c b)]
      refine BIClass.sep_mono (hjoin0 (U1 m) c (fun b => W2 m c b) (W2_out m c) (fun b hb => W2_keep m c b hb)) ?_
      rw [unscopedRest0_eq]
      refine BIBase.Entails.trans ?_ (Entails.of_eq (unscopedRest0_eq c (fun b => W2 m c b)).symm)
      rw [W2_keep m c main_arg2 (by decide), W2_keep m c main_arg3 (by decide), W2_keep m c main_arg4 (by decide), W2_keep m c main_arg5 (by decide), W2_keep m c main_v2 (by decide), W2_keep m c main_v3 (by decide), W2_keep m c main_v5 (by decide), W2_keep m c main_v7 (by decide)]
      try exact .rfl
    iintro ⟨Ha, HO, HY, Hrest⟩
    imodintro
    isplitl [Ha Hrest]
    · iapply hj
      isplitl [Ha]; · iexact Ha
      iexact Hrest
    isplitl [HY]; · iexact HY
    unfold Pipeline.Dat.owesAt Pipeline.owesWithin
    icases HO with ⟨%W, -, HO⟩; iexists W; iexact HO

-- a lemma stated over a pinned configuration unifies with the printed one only when unification may unfold plain
-- definitions in a metavariable's type
set_option backward.isDefEq.respectTransparency.types false in
/-- The second layer's region over the thread state: entered with every unscoped buffer at `W2`, left with them at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsp : (StableHlo.held (c : Thread nD τ) (Pipeline.ucRefs τ sig) (W2 m c) : sProp 𝕄)
        ⊢ iprop((dat1 (U2 m) c).arrays ((dat1 (U2 m) c).arrAt · 0) ∗ Pipeline.unscopedRest spec1 c (U2 m c)) := by
      rw [← Pipeline.unscopedBufs_held (Ix := Unit) (Name := ℕ) (U := UR sig nD τ) (Lvl := ℕ) c (W2 m c),
        Pipeline.unscopedBufs_split₀ cfgs (1 : Fin 2) winFacts₀1.arr_unscoped c (U2 m c)]
      exact sep_mono (hsplit1 (U2 m) c) .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (U2 m) c)
    unfold Pipeline.ΦA
    iintro ⟨Hp, -, Hr⟩
    isplitl [Hr]; · iexact Hr
    iexact Hp
  hout c := by
    rw [Pipeline.ownSems0_none]
    refine (hout1 (U2 m) c).trans ?_
    unfold Pipeline.ΦA
    iintro ⟨Hr, Hp⟩
    isplitl [Hp]; · iexact Hp
    isplitr; · iempintro
    iexact Hr
  hexit c := by
    have hj : iprop((dat1 (U2 m) c).arrays ((dat1 (U2 m) c).arrAt · cfg1.N) ∗ Pipeline.unscopedRest spec1 c (U2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ cfgs (1 : Fin 2) winFacts₀1.arr_unscoped c (fun b => W3 m c b)]
      refine BIClass.sep_mono (hjoin1 (U2 m) c (fun b => W3 m c b) (W3_out m c) (fun b hb => W3_keep m c b hb)) ?_
      rw [unscopedRest1_eq]
      refine BIBase.Entails.trans ?_ (Entails.of_eq (unscopedRest1_eq c (fun b => W3 m c b)).symm)
      rw [W3_keep m c main_arg1 (by decide), W3_keep m c main_arg2 (by decide), W3_keep m c main_arg3 (by decide), W3_keep m c main_arg4 (by decide), W3_keep m c main_arg5 (by decide), W3_keep m c main_v0 (by decide), W3_keep m c main_v1 (by decide), W3_keep m c main_v4 (by decide)]
      try exact .rfl
    iintro ⟨Ha, HO, HY, Hrest⟩
    imodintro
    isplitl [Ha Hrest HY]
    · isplitl [Ha Hrest]
      · iapply hj
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) :=
  main_segs adm (pdats m) () 𝒱₀ L lv (hseg0 m) (reg0 m) (reg1 m) rfl c

set_option backward.isDefEq.respectTransparency.types false in
/-- THE RUN. From any memory with zero counters every weakly fair execution of the program terminates, nothing
    faulting; the result array ends at what the second region's write-backs leave and the arguments as launched. -/
theorem run_main (ρ : Dev nD → PrngReg) :
    θ_run defs (onTc (τ := τ) (main (F := F))) ⟨m, fun _ => 0, ρ⟩ (fun r => ∀ c : Dev nD,
      r.2.mem ((c.tc : Thread nD τ).loc main_v7) = (dat1 (U2 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      have mem_uc : ∀ b : Ref sig .tc, ¬ (Proc.devRef .tc b : DevRef τ sig).isScoped → Proc.devRef .tc b ∈ Pipeline.ucRefs τ sig :=
        fun b hb => Finset.mem_filter.mpr ⟨StableHlo.devRef_mem_tcRefs b, hb⟩
      ⟨(h c _ (mem_uc main_v7 (by decide))).trans (W3_out m c),
        (h c _ (mem_uc main_arg0 (by decide))).trans (W3_arg m c main_arg0 (by decide) (by decide) (by decide)),
        (h c _ (mem_uc main_arg1 (by decide))).trans (W3_arg m c main_arg1 (by decide) (by decide) (by decide)),
        (h c _ (mem_uc main_arg2 (by decide))).trans (W3_arg m c main_arg2 (by decide) (by decide) (by decide)),
        (h c _ (mem_uc main_arg3 (by decide))).trans (W3_arg m c main_arg3 (by decide) (by decide) (by decide)),
        (h c _ (mem_uc main_arg4 (by decide))).trans (W3_arg m c main_arg4 (by decide) (by decide) (by decide)),
        (h c _ (mem_uc main_arg5 (by decide))).trans (W3_arg m c main_arg5 (by decide) (by decide) (by decide))⟩)

end Cert.KernelIdeal.Sage

end
-- ==== Proof.SageSpec.lean ====
/-
  A graph-convolution layer of the SAGE kind, entry by entry, over the extended reals.

  For a node r the neighbour aggregate is  agg r j = ∑ l, adj r l · x l j  (l over all 16384 nodes). The layer joins
  it with the node's own features and applies one affine map: with the weight W of 2d rows,
      layer r q = ∑ j < 2d, (agg r ++ x r) j · W j q  +  b q .
  The same number is reached by splitting the joined axis in its two halves, the upper d rows of W against the
  aggregate and the lower d rows against the node's own features (`conv`), and by adding the aggregate in eight
  blocks of 2048 neighbours, in increasing order from zero (`aggBlocks`). Both are regroupings of finite sums: the
  extended reals are a commutative monoid under addition, so no finiteness is needed.
-/
import Idealize.ShloMosaic.Lib.ValueIdx
import Idealize.ShloMosaic.PureOps.Ideal
import Mathlib.Algebra.BigOperators.Fin

noncomputable section

namespace Cert.Sage

open Idealize.ShloMosaic Idealize.ShloMosaic.ValueIdx

/-- A rank-2 array read as a matrix. -/
abbrev mat {a b : ℕ} (x : (⟨2, ![a, b]⟩ : Shape).Idx → EReal) : Fin a → Fin b → EReal := fun p q => x (ix2 p q)
/-- A rank-1 array read as a vector. -/
abbrev vec {a : ℕ} (x : (⟨1, ![a]⟩ : Shape).Idx → EReal) : Fin a → EReal := fun p => x (ix1 p)

/-- Neighbour l of block k: node 2048·k + l. -/
def blk (k : Fin 8) (l : Fin 2048) : Fin 16384 := ⟨2048 * k.val + l.val, by omega⟩

/-- The neighbour aggregate, one sum over all nodes. -/
def agg {d : ℕ} (adj : Fin 16384 → Fin 16384 → EReal) (x : Fin 16384 → Fin d → EReal) (r : Fin 16384) (j : Fin d) : EReal :=
  ∑ l : Fin 16384, adj r l * x l j

/-- One block's share of the aggregate. -/
def aggBlock {d : ℕ} (adj : Fin 16384 → Fin 16384 → EReal) (x : Fin 16384 → Fin d → EReal) (r : Fin 16384) (j : Fin d)
    (k : Fin 8) : EReal :=
  ∑ l : Fin 2048, adj r (blk k l) * x (blk k l) j

/-- The aggregate after the first n blocks, added one block at a time from zero. -/
def aggBlocks {d : ℕ} (adj : Fin 16384 → Fin 16384 → EReal) (x : Fin 16384 → Fin d → EReal) (r : Fin 16384) (j : Fin d) :
    ℕ → EReal
  | 0 => 0
  | n + 1 => aggBlocks adj x r j n + (if h : n < 8 then aggBlock adj x r j ⟨n, h⟩ else 0)

/-- Eight blocks make the whole aggregate. -/
theorem aggBlocks_eight {d : ℕ} (adj : Fin 16384 → Fin 16384 → EReal) (x : Fin 16384 → Fin d → EReal) (r : Fin 16384)
    (j : Fin d) : aggBlocks adj x r j 8 = agg adj x r j := by
  -- Adding the blocks one at a time from zero is the sum of the eight blocks.
  have h8 : aggBlocks adj x r j 8 = ∑ k : Fin 8, aggBlock adj x r j k := by
    simp [aggBlocks, Fin.sum_univ_eight]
  rw [h8]
  unfold agg aggBlock
  -- The double sum over (block, place in the block) is one sum over the pairs …
  rw [← Fintype.sum_prod_type']
  -- … and (k, l) ↦ 2048·k + l is a bijection of the pairs onto the 16384 nodes.
  refine Fintype.sum_equiv (finProdFinEquiv (m := 8) (n := 2048))
    (fun p => adj r (blk p.1 p.2) * x (blk p.1 p.2) j) (fun l => adj r l * x l j) ?_
  intro p
  have hb : blk p.1 p.2 = finProdFinEquiv (m := 8) (n := 2048) p := by
    apply Fin.ext
    simp only [blk, finProdFinEquiv_apply_val]
    omega
  rw [hb]

/-- The layer with the weight given as its two halves. -/
def conv {d o : ℕ} (adj : Fin 16384 → Fin 16384 → EReal) (x : Fin 16384 → Fin d → EReal) (wa wb : Fin d → Fin o → EReal)
    (b : Fin o → EReal) (r : Fin 16384) (q : Fin o) : EReal :=
  ((∑ j : Fin d, agg adj x r j * wa j q) + (∑ j : Fin d, x r j * wb j q)) + b q

/-- The layer over the joined axis: the aggregate followed by the node's own features against all 2d rows of W. -/
def convJoined {d o : ℕ} (adj : Fin 16384 → Fin 16384 → EReal) (x : Fin 16384 → Fin d → EReal) (W : Fin (d + d) → Fin o → EReal)
    (b : Fin o → EReal) (r : Fin 16384) (q : Fin o) : EReal :=
  (∑ j : Fin (d + d), Fin.append (agg adj x r) (x r) j * W j q) + b q

/-- Splitting the joined axis: the upper half of W meets the aggregate, the lower half the node's own features. -/
theorem convJoined_eq_conv {d o : ℕ} (adj : Fin 16384 → Fin 16384 → EReal) (x : Fin 16384 → Fin d → EReal)
    (W : Fin (d + d) → Fin o → EReal) (b : Fin o → EReal) (r : Fin 16384) (q : Fin o) :
    convJoined adj x W b r q = conv adj x (fun j => W (Fin.castAdd d j)) (fun j => W (Fin.natAdd d j)) b r q := by
  unfold convJoined conv
  rw [Fin.sum_univ_add]
  simp only [Fin.append_left, Fin.append_right]

/-- The rectifier both programs apply: the larger of the value and the zero word's value. -/
def relu (v : EReal) : EReal := max v (Ideal.ofBits .f32 0x00000000#32)

/-- The hidden layer. -/
def hidden (adj : Fin 16384 → Fin 16384 → EReal) (x : Fin 16384 → Fin 512 → EReal) (W1 : Fin 1024 → Fin 256 → EReal)
    (b1 : Fin 256 → EReal) : Fin 16384 → Fin 256 → EReal :=
  fun r q => relu (convJoined (d := 512) adj x W1 b1 r q)

/-- The classifier's output: a second layer over the hidden one, no rectifier. -/
def out (adj : Fin 16384 → Fin 16384 → EReal) (x : Fin 16384 → Fin 512 → EReal) (W1 : Fin 1024 → Fin 256 → EReal)
    (b1 : Fin 256 → EReal) (W2 : Fin 512 → Fin 40 → EReal) (b2 : Fin 40 → EReal) : Fin 16384 → Fin 40 → EReal :=
  fun r q => convJoined (d := 256) adj (hidden adj x W1 b1) W2 b2 r q

end Cert.Sage

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.KernelTile0.lean ====
/-
  One result tile of the first layer at the exact values.

  At the point (i, k) the accumulator's entry (p, j) is the products of the neighbour blocks 0 … k of row 1024·i + p
  added in order onto zero; at k = 7 that is the row's whole neighbour aggregate, and the tile stored there is the
  rectified layer at the rows 1024·i … 1024·i + 1023.
-/
import proofs.«175430_j17154099380260_1_alg».proof.Proof.KernelIdealFrame.R0Dat
import proofs.«175430_j17154099380260_1_alg».proof.Proof.SageSpec
import proofs.«175430_j17154099380260_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SageValue

open Cert.KernelIdeal Cert.KernelIdeal.Gen Cert.KernelIdeal.Sage Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The layer of the arrays the first region found, entry by entry. -/
def layer0 (c : Dev nD) (r : Fin 16384) (q : Fin 256) : EReal :=
  relu (conv (d := 512) (mat (V c main_arg0 : FVec Ideal S16384x16384 .f32)) (mat (V c main_arg1 : FVec Ideal S16384x512 .f32))
    (mat (V c main_v0 : FVec Ideal S512x256 .f32)) (mat (V c main_v1 : FVec Ideal S512x256 .f32))
    (fun q' => (V c main_v4 : FVec Ideal S1x256 .f32) (ix2 0 q')) r q)

/-! ## The body's arithmetic at an entry -/

/-- The cleared accumulator is zero at every entry. -/
theorem pay1_apply (p : Fin 1024) (j : Fin 512) : (k0_pay1 (F := Ideal) : FVec Ideal S1024x512 .f32) (ix2 p j) = 0 := by
  unfold k0_pay1
  rw [shapeCast_self]
  exact Ideal.ofBits_zero_f32

/-- Both matrix products of the body are plain: rows from the left, columns from the right, one contracted axis. -/
theorem plain1 : Cert.PlainDot.Plain dot_S1024x2048_S2048x512_S1024x512_1_0_0_1_n_n := ⟨rfl, rfl, rfl, rfl, rfl, rfl⟩
theorem plain2 : Cert.PlainDot.Plain dot_S1024x512_S512x256_S1024x256_1_0_0_1_n_n := ⟨rfl, rfl, rfl, rfl, rfl, rfl⟩

/-- One accumulation step: the accumulator's entry plus the exact product of the adjacency block's row with the
    feature block's column (the narrowing of the operands is the identity on exact values). -/
theorem pay2_apply (a : Vec Ideal S1024x2048 .f32) (x : Vec Ideal S2048x512 .f32) (sc : Vec Ideal S1024x512 .f32)
    (p : Fin 1024) (j : Fin 512) :
    (k0_pay2 a x sc : FVec Ideal S1024x512 .f32) (ix2 p j) = sc (ix2 p j) + ∑ l : Fin 2048, a (ix2 p l) * x (ix2 l j) := by
  unfold k0_pay2
  rw [shapeCast_self]
  refine (addf_apply _ _ _).trans ?_
  refine congrArg (fun z => sc (ix2 p j) + z) ?_
  exact Cert.PlainDot.matmul_zero_apply plain1 rfl rfl none _ _ p j

/-- The result tile's entry: the aggregate against the upper weight plus the node's own features against the lower
    weight plus the bias row, rectified. -/
theorem pay3_apply (acc xs : Vec Ideal S1024x512 .f32) (wa wb : Vec Ideal S512x256 .f32) (b : Vec Ideal S1x256 .f32)
    (p : Fin 1024) (q : Fin 256) :
    (k0_pay3 acc xs wa wb b : FVec Ideal S1024x256 .f32) (ix2 p q)
      = max (((∑ j : Fin 512, acc (ix2 p j) * wa (ix2 j q)) + (∑ j : Fin 512, xs (ix2 p j) * wb (ix2 j q))) + b (ix2 0 q))
          (Ideal.ofBits .f32 0x00000000#32) := by
  unfold k0_pay3
  rw [shapeCast_self, shapeCast_self, shapeCast_self]
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · exact Cert.PlainDot.matmul_zero_apply plain2 rfl rfl none _ _ p q
    · exact Cert.PlainDot.matmul_zero_apply plain2 rfl rfl none _ _ p q
  · refine broadcastTo_apply b broadcasts_S1x256_S1024x256 (ix2 p q) (ix2 0 q) (fun a => ?_)
    match a with
    | ⟨0, _⟩ => rfl
    | ⟨1, _⟩ => rfl

/-! ## The windows' blocks as entries of the arrays -/

/-- The index maps over the grid: point t is row tile t / 8, neighbour block t % 8. -/
theorem idx0_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx0_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx0_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The adjacency block at point t: rows 1024·(t/8) …, neighbours 2048·(t%8) …. -/
theorem blk0_apply (c : Dev nD) (t : Fin cfg0.N) (p : Fin 1024) (l : Fin 2048) (r s : Fin 16384)
    (hr : r.val = 1024 * (t.val / 8) + p.val) (hs : s.val = 2048 * (t.val % 8) + l.val) :
    (iblk0 V c 0 t : Vec Ideal S1024x2048 .f32) (ix2 p l) = (V c main_arg0 : FVec Ideal S16384x16384 .f32) (ix2 r s) := by
  unfold iblk0
  rw [View.read_apply]
  show V c main_arg0 _ = V c main_arg0 _
  congr 1
  funext a
  apply Fin.ext
  match a with
  | ⟨0, _⟩ => show win0_0.index t 0 * 1024 + 1 * p.val = r.val; rw [(idx0_0 t).1, hr]; omega
  | ⟨1, _⟩ => show win0_0.index t 1 * 2048 + 1 * l.val = s.val; rw [(idx0_0 t).2, hs]; omega

/-- The feature block of the neighbours at point t: nodes 2048·(t%8) …, all features. -/
theorem blk1_apply (c : Dev nD) (t : Fin cfg0.N) (l : Fin 2048) (j : Fin 512) (s : Fin 16384)
    (hs : s.val = 2048 * (t.val % 8) + l.val) :
    (iblk0 V c 1 t : Vec Ideal S2048x512 .f32) (ix2 l j) = (V c main_arg1 : FVec Ideal S16384x512 .f32) (ix2 s j) := by
  unfold iblk0
  rw [View.read_apply]
  show V c main_arg1 _ = V c main_arg1 _
  congr 1
  funext a
  apply Fin.ext
  match a with
  | ⟨0, _⟩ => show win0_1.index t 0 * 2048 + 1 * l.val = s.val; rw [(idx0_1 t).1, hs]; omega
  | ⟨1, _⟩ => show win0_1.index t 1 * 512 + 1 * j.val = j.val; rw [(idx0_1 t).2]; omega

/-- The feature block of the row tile's own nodes at point t: nodes 1024·(t/8) …, all features. -/
theorem blk2_apply (c : Dev nD) (t : Fin cfg0.N) (p : Fin 1024) (j : Fin 512) (r : Fin 16384)
    (hr : r.val = 1024 * (t.val / 8) + p.val) :
    (iblk0 V c 2 t : Vec Ideal S1024x512 .f32) (ix2 p j) = (V c main_arg1 : FVec Ideal S16384x512 .f32) (ix2 r j) := by
  unfold iblk0
  rw [View.read_apply]
  show V c main_arg1 _ = V c main_arg1 _
  congr 1
  funext a
  apply Fin.ext
  match a with
  | ⟨0, _⟩ => show win0_2.index t 0 * 1024 + 1 * p.val = r.val; rw [(idx0_2 t).1, hr]; omega
  | ⟨1, _⟩ => show win0_2.index t 1 * 512 + 1 * j.val = j.val; rw [(idx0_2 t).2]; omega

/-- The two weight halves and the bias row are read whole at every point. -/
theorem blk3_apply (c : Dev nD) (t : Fin cfg0.N) (j : Fin 512) (q : Fin 256) :
    (iblk0 V c 3 t : Vec Ideal S512x256 .f32) (ix2 j q) = (V c main_v0 : FVec Ideal S512x256 .f32) (ix2 j q) := by
  unfold iblk0
  rw [View.read_apply]
  show V c main_v0 _ = V c main_v0 _
  congr 1
  funext a
  apply Fin.ext
  match a with
  | ⟨0, _⟩ => show win0_3.index t 0 * 512 + 1 * j.val = j.val; rw [(idx0_3 t).1]; omega
  | ⟨1, _⟩ => show win0_3.index t 1 * 256 + 1 * q.val = q.val; rw [(idx0_3 t).2]; omega

theorem blk4_apply (c : Dev nD) (t : Fin cfg0.N) (j : Fin 512) (q : Fin 256) :
    (iblk0 V c 4 t : Vec Ideal S512x256 .f32) (ix2 j q) = (V c main_v1 : FVec Ideal S512x256 .f32) (ix2 j q) := by
  unfold iblk0
  rw [View.read_apply]
  show V c main_v1 _ = V c main_v1 _
  congr 1
  funext a
  apply Fin.ext
  match a with
  | ⟨0, _⟩ => show win0_4.index t 0 * 512 + 1 * j.val = j.val; rw [(idx0_4 t).1]; omega
  | ⟨1, _⟩ => show win0_4.index t 1 * 256 + 1 * q.val = q.val; rw [(idx0_4 t).2]; omega

theorem blk5_apply (c : Dev nD) (t : Fin cfg0.N) (q : Fin 256) :
    (iblk0 V c 5 t : Vec Ideal S1x256 .f32) (ix2 0 q) = (V c main_v4 : FVec Ideal S1x256 .f32) (ix2 0 q) := by
  unfold iblk0
  rw [View.read_apply]
  show V c main_v4 _ = V c main_v4 _
  congr 1
  funext a
  apply Fin.ext
  match a with
  | ⟨0, _⟩ => show win0_5.index t 0 * 1 + 1 * 0 = 0; rw [(idx0_5 t).1]
  | ⟨1, _⟩ => show win0_5.index t 1 * 256 + 1 * q.val = q.val; rw [(idx0_5 t).2]; omega

/-! ## The accumulator along a row tile -/

/-- The adjacency and the node features as the region finds them, read as matrices. -/
abbrev adjM (c : Dev nD) : Fin 16384 → Fin 16384 → EReal := mat (V c main_arg0 : FVec Ideal S16384x16384 .f32)
abbrev featM (c : Dev nD) : Fin 16384 → Fin 512 → EReal := mat (V c main_arg1 : FVec Ideal S16384x512 .f32)

/-- Below eight blocks, one more block adds that block's share. -/
theorem aggBlocks_succ {d : ℕ} (adj : Fin 16384 → Fin 16384 → EReal) (x : Fin 16384 → Fin d → EReal) (r : Fin 16384) (j : Fin d)
    (n : ℕ) (h : n < 8) : aggBlocks adj x r j (n + 1) = aggBlocks adj x r j n + aggBlock adj x r j ⟨n, h⟩ := by
  rw [aggBlocks, dif_pos h]

/-- One step at point t adds to the accumulator's entry (p, j) the share of neighbour block t % 8 for node 1024·(t/8) + p:
    the block's row of the adjacency and column of the features are that node's and that block's entries of the arrays. -/
theorem pay2_blk (c : Dev nD) (t : Fin cfg0.N) (sc : Vec Ideal S1024x512 .f32) (p : Fin 1024) (j : Fin 512)
    (r : Fin 16384) (k : Fin 8) (hr : r.val = 1024 * (t.val / 8) + p.val) (hk : k.val = t.val % 8) :
    (k0_pay2 (iblk0 V c 0 t) (iblk0 V c 1 t) sc : FVec Ideal S1024x512 .f32) (ix2 p j)
      = sc (ix2 p j) + aggBlock (adjM V c) (featM V c) r j k := by
  refine (pay2_apply (iblk0 V c 0 t) (iblk0 V c 1 t) sc p j).trans ?_
  refine congrArg (fun z => sc (ix2 p j) + z) ?_
  unfold aggBlock
  refine Finset.sum_congr rfl fun l _ => ?_
  have hs : (blk k l).val = 2048 * (t.val % 8) + l.val := by show 2048 * k.val + l.val = _; rw [hk]
  exact congrArg₂ (· * ·) (blk0_apply V c t p l r (blk k l) hr hs) (blk1_apply V c t l j (blk k l) hs)

/-- After point n the accumulator's entry (p, j) is the first n % 8 + 1 neighbour blocks of node 1024·(n/8) + p, added in
    order from zero: by induction along the row tile, cleared where n % 8 = 0. -/
theorem scAt0_value (c : Dev nD) (n : ℕ) : ∀ (hn : n < cfg0.N) (p : Fin 1024) (j : Fin 512) (r : Fin 16384),
    r.val = 1024 * (n / 8) + p.val →
    (scAt0 (F := Ideal) V c n hn : FVec Ideal S1024x512 .f32) (ix2 p j)
      = aggBlocks (adjM V c) (featM V c) r j (n % 8 + 1) := by
  induction n using Nat.strong_induction_on with
  | _ n ih =>
    intro hn p j r hr
    have hN : cfg0.N = 128 := N_0
    by_cases h0 : n % 8 = 0
    · refine (congrFun (scAt0_reset V c ⟨n, hn⟩ h0) (ix2 p j)).trans ?_
      refine (pay2_blk V c ⟨n, hn⟩ (k0_pay1 (F := Ideal)) p j r ⟨0, by omega⟩ hr h0.symm).trans ?_
      rw [pay1_apply, h0, aggBlocks_succ _ _ _ _ 0 (by omega)]
      rfl
    · refine (congrFun (scAt0_step V c ⟨n, hn⟩ h0) (ix2 p j)).trans ?_
      refine (pay2_blk V c ⟨n, hn⟩ _ p j r ⟨n % 8, by omega⟩ hr rfl).trans ?_
      rw [aggBlocks_succ _ _ _ _ (n % 8) (by omega)]
      refine congrArg (fun z => z + aggBlock (adjM V c) (featM V c) r j ⟨n % 8, by omega⟩) ?_
      refine (ih (n - 1) (by omega) (by omega) p j r (by omega)).trans ?_
      rw [show (n - 1) % 8 + 1 = n % 8 by omega]

/-- The result tile stored at a row tile's last neighbour block is the layer at that tile's rows. -/
theorem out0_value (c : Dev nD) (t : Fin cfg0.N) (h7 : t.val % 8 = 7) (p : Fin 1024) (q : Fin 256) :
    (out0 (F := Ideal) V c t : FVec Ideal S1024x256 .f32) (ix2 p q)
      = layer0 V c ⟨1024 * (t.val / 8) + p.val, by have := t.isLt; have : cfg0.N = 128 := N_0; omega⟩ q := by
  have hN : cfg0.N = 128 := N_0
  have hrow : 1024 * (t.val / 8) + p.val < 16384 := by have := t.isLt; omega
  unfold out0
  refine (pay3_apply (scAt0 V c t.val t.isLt) (iblk0 V c 2 t) (iblk0 V c 3 t) (iblk0 V c 4 t) (iblk0 V c 5 t) p q).trans ?_
  unfold layer0 relu conv
  refine congrArg₂ max ?_ rfl
  refine congrArg₂ (· + ·) (congrArg₂ (· + ·) ?_ ?_) ?_
  · -- the accumulator at the last block is the whole aggregate of the tile's rows
    refine Finset.sum_congr rfl fun j _ => ?_
    refine congrArg₂ (· * ·) ?_ (blk3_apply V c t j q)
    refine (scAt0_value V c t.val t.isLt p j ⟨1024 * (t.val / 8) + p.val, hrow⟩ rfl).trans ?_
    rw [h7]
    exact aggBlocks_eight _ _ _ _
  · -- the node's own features are the tile's rows of the feature array
    exact Finset.sum_congr rfl fun j _ =>
      congrArg₂ (· * ·) (blk2_apply V c t p j ⟨1024 * (t.val / 8) + p.val, hrow⟩ rfl) (blk4_apply V c t j q)
  · exact blk5_apply V c t q

end Cert.KernelIdeal.SageValue

end
-- ==== Proof.KernelValue0.lean ====
/-
  The first layer's kernel region at the exact values: the array it leaves is the layer's output, entry by entry.

  Row tile i's accumulator after its block k is the sum of the products of the blocks 0 … k (the blocks added in order
  onto zero), so after the eighth block it is the neighbour aggregate of the tile's rows; the result tile stored there is
  the aggregate against the upper weight half plus the rows' own features against the lower half plus the bias,
  rectified; and the result tiles, written back once per row tile, tile the output array.
-/
import proofs.«175430_j17154099380260_1_alg».proof.Proof.KernelTile0
import proofs.«175430_j17154099380260_1_alg».proof.Proof.SageSpec
import proofs.«175430_j17154099380260_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SageValue

open Cert.KernelIdeal Cert.KernelIdeal.Gen Cert.KernelIdeal.Sage Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The result tiles tile the array

The result window's block at the grid point t is the row tile t / 8 of the array, all 256 columns; it is written back
at the points t with t % 8 = 7, and there it holds the layer at the tile's rows. Row r lies in the row tile r / 1024, so the
point 8 · (r / 1024) + 7 writes its entries back, and the array ends holding the layer at every entry. -/

/-- The hidden layer as one array: entry (r, q) is the rectified layer at row r, column q. -/
def hidden0 (c : Dev nD) : FVec Ideal S16384x256 .f32 := fun idx => layer0 V c (idx 0) (idx 1)

/-- The result window's block index at a grid point: row tile t / 8, the one column tile. -/
theorem rowTile_index : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- Entry (p, q) of the block at point t sits in the array at row 1024 · (t / 8) + p, column q: on each axis the
    coordinate is the block index times the block's extent plus the coordinate inside the block. -/
theorem blk_emb (t : Fin cfg0.N) (p : Fin 1024) (q : Fin 256) (hb : 1024 * (t.val / 8) + p.val < 16384) :
    ((cfg0.win 6).blk t).view.emb (ix2 p q) = (ix2 ⟨1024 * (t.val / 8) + p.val, hb⟩ q : S16384x256.Idx) := by
  obtain ⟨e0, e1⟩ := rowTile_index t
  funext a; apply Fin.ext
  match a with
  | ⟨0, _⟩ => show win0_6.index t (0 : Fin 2) * 1024 + 1 * p.val = 1024 * (t.val / 8) + p.val; rw [e0]; omega
  | ⟨1, _⟩ => show win0_6.index t (1 : Fin 2) * 256 + 1 * q.val = q.val; rw [e1]; omega

/-- What a row tile's last point writes back is that tile of the hidden layer: the stored result tile is the layer at
    the tile's rows, and its entries sit in the array at exactly those rows. -/
theorem flushed0_eq (c : Dev nD) (t : Fin cfg0.N) (hf : (cfg0.win 6).flush t = true) :
    (dat0 (F := Ideal) V c).flushed 6 t = ((cfg0.win 6).blk t).view.read (Elt Ideal) (hidden0 V c) := by
  have h7 : t.val % 8 = 7 := (flush0_6 t).mp hf
  have hN : t.val < 128 := lt_of_lt_of_eq t.isLt (show cfg0.N = 128 from N_0)
  show (cfg0.win 6).cut (grid0.coords t) ((dat0 (F := Ideal) V c).after 6 t) = _
  rw [after0_6]
  funext y
  obtain ⟨p, q, rfl⟩ : ∃ (p : Fin 1024) (q : Fin 256), y = ix2 p q := ⟨y 0, y 1, eq_ix2 y⟩
  have hb : 1024 * (t.val / 8) + p.val < 16384 := by have := p.isLt; omega
  show (out0 (F := Ideal) V c t : FVec Ideal S1024x256 .f32) (ix2 p q) = hidden0 V c (((cfg0.win 6).blk t).view.emb (ix2 p q))
  rw [blk_emb t p q hb]
  exact out0_value V c t h7 p q

/-- An index of the array lies in the block of point t iff, on each axis, its coordinate lies in the block's range. -/
theorem mem_blk0 (t : Fin cfg0.N) (i : S16384x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v6).slice (win0_6.rect t)).set ↔ _
  rw [View.set_slice_whole, Rect.mem_set_unit]
  exact Iff.rfl

/-- Every entry of the array is written back: row r lies in the row tile r / 1024, whose last point 8 · (r / 1024) + 7
    writes the tile back. -/
theorem covered0 (i : S16384x256.Idx) :
    ∃ t : Fin cfg0.N, (cfg0.win 6).flush t = true ∧ i ∈ ((cfg0.win 6).blk t).view.set := by
  have hN : cfg0.N = 128 := N_0
  have hi0 : (i 0).val < 16384 := (i 0).isLt
  have hi1 : (i 1).val < 256 := (i 1).isLt
  obtain ⟨t, ht⟩ : ∃ t : Fin cfg0.N, t.val = 8 * ((i 0).val / 1024) + 7 := ⟨⟨8 * ((i 0).val / 1024) + 7, by omega⟩, rfl⟩
  obtain ⟨e0, e1⟩ := rowTile_index t
  refine ⟨t, (flush0_6 t).mpr (by omega), ?_⟩
  rw [mem_blk0]
  intro a
  match a with
  | ⟨0, _⟩ => show win0_6.index t (0 : Fin 2) * 1024 ≤ (i 0).val ∧ (i 0).val < win0_6.index t (0 : Fin 2) * 1024 + 1024; rw [e0]; omega
  | ⟨1, _⟩ => show win0_6.index t (1 : Fin 2) * 256 ≤ (i 1).val ∧ (i 1).val < win0_6.index t (1 : Fin 2) * 256 + 256; rw [e1]; omega

/-- So the array the region leaves is the hidden layer: every point that writes back writes its tile of it, and the
    tiles cover the array. -/
theorem final0_array (c : Dev nD) : (dat0 (F := Ideal) V c).arrAt 6 cfg0.N = hidden0 V c :=
  (dat0 (F := Ideal) V c).arrAt_eq_of_cover 6 (hidden0 V c) (flushed0_eq V c) covered0

/-- The hidden layer's array as the first region leaves it: at row r, column q the rectified layer of the arrays the
    region found. -/
theorem final0 (c : Dev nD) (r : Fin 16384) (q : Fin 256) :
    ((dat0 (F := Ideal) V c).arrAt 6 cfg0.N : FVec Ideal S16384x256 .f32) (ix2 r q)
      = layer0 V c r q :=
  congrFun (final0_array V c) (ix2 r q)

end Cert.KernelIdeal.SageValue

end
-- ==== Proof.KernelTile1.lean ====
/-
  One result tile of the second layer at the exact values.

  At the point (i, k) the accumulator's entry (p, j) is the products of the neighbour blocks 0 … k of row 1024·i + p
  against the hidden features, added in order onto zero; at k = 7 that is the row's whole neighbour aggregate, and the
  tile stored there is the second layer — no rectifier — at the rows 1024·i … 1024·i + 1023.
-/
import proofs.«175430_j17154099380260_1_alg».proof.Proof.KernelTile0
import proofs.«175430_j17154099380260_1_alg».proof.Proof.KernelIdealFrame.R1Dat

set_option maxRecDepth 16384

noncomputable section

namespace Cert.KernelIdeal.SageValue

open Cert.KernelIdeal Cert.KernelIdeal.Gen Cert.KernelIdeal.Sage Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The second layer of the arrays the second region found, entry by entry. -/
def layer1 (c : Dev nD) (r : Fin 16384) (q : Fin 40) : EReal :=
  conv (d := 256) (mat (V c main_arg0 : FVec Ideal S16384x16384 .f32)) (mat (V c main_v6 : FVec Ideal S16384x256 .f32))
    (mat (V c main_v2 : FVec Ideal S256x40 .f32)) (mat (V c main_v3 : FVec Ideal S256x40 .f32))
    (fun q' => (V c main_v5 : FVec Ideal S1x40 .f32) (ix2 0 q')) r q

/-! ## The body's arithmetic at an entry -/

/-- The cleared accumulator is zero at every entry. -/
theorem pay1_apply1 (p : Fin 1024) (j : Fin 256) : (k1_pay1 (F := Ideal) : FVec Ideal S1024x256 .f32) (ix2 p j) = 0 := by
  unfold k1_pay1
  rw [shapeCast_self]
  exact Ideal.ofBits_zero_f32

/-- Both matrix products of the body are plain: rows from the left, columns from the right, one contracted axis. -/
theorem plainAgg1 : Cert.PlainDot.Plain dot_S1024x2048_S2048x256_S1024x256_1_0_0_1_n_n := ⟨rfl, rfl, rfl, rfl, rfl, rfl⟩
theorem plainOut1 : Cert.PlainDot.Plain dot_S1024x256_S256x40_S1024x40_1_0_0_1_n_n := ⟨rfl, rfl, rfl, rfl, rfl, rfl⟩

/-- One accumulation step: the accumulator's entry plus the exact product of the adjacency block's row with the
    hidden-feature block's column (the narrowing of the operands is the identity on exact values). -/
theorem pay2_apply1 (a : Vec Ideal S1024x2048 .f32) (x : Vec Ideal S2048x256 .f32) (sc : Vec Ideal S1024x256 .f32)
    (p : Fin 1024) (j : Fin 256) :
    (k1_pay2 a x sc : FVec Ideal S1024x256 .f32) (ix2 p j) = sc (ix2 p j) + ∑ l : Fin 2048, a (ix2 p l) * x (ix2 l j) := by
  unfold k1_pay2
  rw [shapeCast_self, shapeCast_self]
  refine (addf_apply _ _ _).trans ?_
  refine congrArg (fun z => sc (ix2 p j) + z) ?_
  exact Cert.PlainDot.matmul_zero_apply plainAgg1 rfl rfl none _ _ p j

/-- The result tile's entry: the aggregate against the upper weight plus the node's own hidden features against the
    lower weight plus the bias row. -/
theorem pay3_apply1 (acc xs : Vec Ideal S1024x256 .f32) (wa wb : Vec Ideal S256x40 .f32) (b : Vec Ideal S1x40 .f32)
    (p : Fin 1024) (q : Fin 40) :
    (k1_pay3 acc xs wa wb b : FVec Ideal S1024x40 .f32) (ix2 p q)
      = ((∑ j : Fin 256, acc (ix2 p j) * wa (ix2 j q)) + (∑ j : Fin 256, xs (ix2 p j) * wb (ix2 j q))) + b (ix2 0 q) := by
  unfold k1_pay3
  rw [shapeCast_self, shapeCast_self, shapeCast_self, shapeCast_self]
  refine (addf_apply _ _ _).trans ?_
  refine congrArg₂ (· + ·) ?_ ?_
  · refine (addf_apply _ _ _).trans ?_
    refine congrArg₂ (· + ·) ?_ ?_
    · exact Cert.PlainDot.matmul_zero_apply plainOut1 rfl rfl none _ _ p q
    · exact Cert.PlainDot.matmul_zero_apply plainOut1 rfl rfl none _ _ p q
  · refine broadcastTo_apply b broadcasts_S1x40_S1024x40 (ix2 p q) (ix2 0 q) (fun a => ?_)
    match a with
    | ⟨0, _⟩ => rfl
    | ⟨1, _⟩ => rfl

/-! ## The windows' blocks as entries of the arrays -/

/-- The index maps over the grid: point t is row tile t / 8, neighbour block t % 8. -/
theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idx1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- The adjacency block at point t: rows 1024·(t/8) …, neighbours 2048·(t%8) …. -/
theorem blk0_apply1 (c : Dev nD) (t : Fin cfg1.N) (p : Fin 1024) (l : Fin 2048) (r s : Fin 16384)
    (hr : r.val = 1024 * (t.val / 8) + p.val) (hs : s.val = 2048 * (t.val % 8) + l.val) :
    (iblk1 V c 0 t : Vec Ideal S1024x2048 .f32) (ix2 p l) = (V c main_arg0 : FVec Ideal S16384x16384 .f32) (ix2 r s) := by
  unfold iblk1
  rw [View.read_apply]
  show V c main_arg0 _ = V c main_arg0 _
  congr 1
  funext a
  apply Fin.ext
  match a with
  | ⟨0, _⟩ => show win1_0.index t 0 * 1024 + 1 * p.val = r.val; rw [(idx1_0 t).1, hr]; omega
  | ⟨1, _⟩ => show win1_0.index t 1 * 2048 + 1 * l.val = s.val; rw [(idx1_0 t).2, hs]; omega

/-- The hidden-feature block of the neighbours at point t: nodes 2048·(t%8) …, all features. -/
theorem blk1_apply1 (c : Dev nD) (t : Fin cfg1.N) (l : Fin 2048) (j : Fin 256) (s : Fin 16384)
    (hs : s.val = 2048 * (t.val % 8) + l.val) :
    (iblk1 V c 1 t : Vec Ideal S2048x256 .f32) (ix2 l j) = (V c main_v6 : FVec Ideal S16384x256 .f32) (ix2 s j) := by
  unfold iblk1
  rw [View.read_apply]
  show V c main_v6 _ = V c main_v6 _
  congr 1
  funext a
  apply Fin.ext
  match a with
  | ⟨0, _⟩ => show win1_1.index t 0 * 2048 + 1 * l.val = s.val; rw [(idx1_1 t).1, hs]; omega
  | ⟨1, _⟩ => show win1_1.index t 1 * 256 + 1 * j.val = j.val; rw [(idx1_1 t).2]; omega

/-- The hidden-feature block of the row tile's own nodes at point t: nodes 1024·(t/8) …, all features. -/
theorem blk2_apply1 (c : Dev nD) (t : Fin cfg1.N) (p : Fin 1024) (j : Fin 256) (r : Fin 16384)
    (hr : r.val = 1024 * (t.val / 8) + p.val) :
    (iblk1 V c 2 t : Vec Ideal S1024x256 .f32) (ix2 p j) = (V c main_v6 : FVec Ideal S16384x256 .f32) (ix2 r j) := by
  unfold iblk1
  rw [View.read_apply]
  show V c main_v6 _ = V c main_v6 _
  congr 1
  funext a
  apply Fin.ext
  match a with
  | ⟨0, _⟩ => show win1_2.index t 0 * 1024 + 1 * p.val = r.val; rw [(idx1_2 t).1, hr]; omega
  | ⟨1, _⟩ => show win1_2.index t 1 * 256 + 1 * j.val = j.val; rw [(idx1_2 t).2]; omega

/-- The two weight halves and the bias row are read whole at every point. -/
theorem blk3_apply1 (c : Dev nD) (t : Fin cfg1.N) (j : Fin 256) (q : Fin 40) :
    (iblk1 V c 3 t : Vec Ideal S256x40 .f32) (ix2 j q) = (V c main_v2 : FVec Ideal S256x40 .f32) (ix2 j q) := by
  unfold iblk1
  rw [View.read_apply]
  show V c main_v2 _ = V c main_v2 _
  congr 1
  funext a
  apply Fin.ext
  match a with
  | ⟨0, _⟩ => show win1_3.index t 0 * 256 + 1 * j.val = j.val; rw [(idx1_3 t).1]; omega
  | ⟨1, _⟩ => show win1_3.index t 1 * 40 + 1 * q.val = q.val; rw [(idx1_3 t).2]; omega

theorem blk4_apply1 (c : Dev nD) (t : Fin cfg1.N) (j : Fin 256) (q : Fin 40) :
    (iblk1 V c 4 t : Vec Ideal S256x40 .f32) (ix2 j q) = (V c main_v3 : FVec Ideal S256x40 .f32) (ix2 j q) := by
  unfold iblk1
  rw [View.read_apply]
  show V c main_v3 _ = V c main_v3 _
  congr 1
  funext a
  apply Fin.ext
  match a with
  | ⟨0, _⟩ => show win1_4.index t 0 * 256 + 1 * j.val = j.val; rw [(idx1_4 t).1]; omega
  | ⟨1, _⟩ => show win1_4.index t 1 * 40 + 1 * q.val = q.val; rw [(idx1_4 t).2]; omega

theorem blk5_apply1 (c : Dev nD) (t : Fin cfg1.N) (q : Fin 40) :
    (iblk1 V c 5 t : Vec Ideal S1x40 .f32) (ix2 0 q) = (V c main_v5 : FVec Ideal S1x40 .f32) (ix2 0 q) := by
  unfold iblk1
  rw [View.read_apply]
  show V c main_v5 _ = V c main_v5 _
  congr 1
  funext a
  apply Fin.ext
  match a with
  | ⟨0, _⟩ => show win1_5.index t 0 * 1 + 1 * 0 = 0; rw [(idx1_5 t).1]
  | ⟨1, _⟩ => show win1_5.index t 1 * 40 + 1 * q.val = q.val; rw [(idx1_5 t).2]; omega

/-! ## The accumulator along a row tile -/

/-- The hidden features as the second region finds them, read as a matrix. -/
abbrev hidM (c : Dev nD) : Fin 16384 → Fin 256 → EReal := mat (V c main_v6 : FVec Ideal S16384x256 .f32)

/-- One step at point t adds to the accumulator's entry (p, j) the share of neighbour block t % 8 for node 1024·(t/8) + p:
    the block's row of the adjacency and column of the hidden features are that node's and that block's entries of the arrays. -/
theorem pay2_blk1 (c : Dev nD) (t : Fin cfg1.N) (sc : Vec Ideal S1024x256 .f32) (p : Fin 1024) (j : Fin 256)
    (r : Fin 16384) (k : Fin 8) (hr : r.val = 1024 * (t.val / 8) + p.val) (hk : k.val = t.val % 8) :
    (k1_pay2 (iblk1 V c 0 t) (iblk1 V c 1 t) sc : FVec Ideal S1024x256 .f32) (ix2 p j)
      = sc (ix2 p j) + aggBlock (adjM V c) (hidM V c) r j k := by
  refine (pay2_apply1 (iblk1 V c 0 t) (iblk1 V c 1 t) sc p j).trans ?_
  refine congrArg (fun z => sc (ix2 p j) + z) ?_
  unfold aggBlock
  refine Finset.sum_congr rfl fun l _ => ?_
  have hs : (blk k l).val = 2048 * (t.val % 8) + l.val := by show 2048 * k.val + l.val = _; rw [hk]
  exact congrArg₂ (· * ·) (blk0_apply1 V c t p l r (blk k l) hr hs) (blk1_apply1 V c t l j (blk k l) hs)

/-- After point n the accumulator's entry (p, j) is the first n % 8 + 1 neighbour blocks of node 1024·(n/8) + p, added in
    order from zero: by induction along the row tile, cleared where n % 8 = 0. -/
theorem scAt1_value (c : Dev nD) (n : ℕ) : ∀ (hn : n < cfg1.N) (p : Fin 1024) (j : Fin 256) (r : Fin 16384),
    r.val = 1024 * (n / 8) + p.val →
    (scAt1 (F := Ideal) V c n hn : FVec Ideal S1024x256 .f32) (ix2 p j)
      = aggBlocks (adjM V c) (hidM V c) r j (n % 8 + 1) := by
  induction n using Nat.strong_induction_on with
  | _ n ih =>
    intro hn p j r hr
    have hN : cfg1.N = 128 := N_1
    by_cases h0 : n % 8 = 0
    · refine (congrFun (scAt1_reset V c ⟨n, hn⟩ h0) (ix2 p j)).trans ?_
      refine (pay2_blk1 V c ⟨n, hn⟩ (k1_pay1 (F := Ideal)) p j r ⟨0, by omega⟩ hr h0.symm).trans ?_
      rw [pay1_apply1, h0, aggBlocks_succ _ _ _ _ 0 (by omega)]
      rfl
    · refine (congrFun (scAt1_step V c ⟨n, hn⟩ h0) (ix2 p j)).trans ?_
      refine (pay2_blk1 V c ⟨n, hn⟩ _ p j r ⟨n % 8, by omega⟩ hr rfl).trans ?_
      rw [aggBlocks_succ _ _ _ _ (n % 8) (by omega)]
      refine congrArg (fun z => z + aggBlock (adjM V c) (hidM V c) r j ⟨n % 8, by omega⟩) ?_
      refine (ih (n - 1) (by omega) (by omega) p j r (by omega)).trans ?_
      rw [show (n - 1) % 8 + 1 = n % 8 by omega]

/-- The result tile stored at a row tile's last neighbour block is the second layer at that tile's rows. -/
theorem out1_value (c : Dev nD) (t : Fin cfg1.N) (h7 : t.val % 8 = 7) (p : Fin 1024) (q : Fin 40) :
    (out1 (F := Ideal) V c t : FVec Ideal S1024x40 .f32) (ix2 p q)
      = layer1 V c ⟨1024 * (t.val / 8) + p.val, by have := t.isLt; have : cfg1.N = 128 := N_1; omega⟩ q := by
  have hN : cfg1.N = 128 := N_1
  have hrow : 1024 * (t.val / 8) + p.val < 16384 := by have := t.isLt; omega
  unfold out1
  refine (pay3_apply1 (scAt1 V c t.val t.isLt) (iblk1 V c 2 t) (iblk1 V c 3 t) (iblk1 V c 4 t) (iblk1 V c 5 t) p q).trans ?_
  unfold layer1 conv
  refine congrArg₂ (· + ·) (congrArg₂ (· + ·) ?_ ?_) ?_
  · -- the accumulator at the last block is the whole aggregate of the tile's rows
    refine Finset.sum_congr rfl fun j _ => ?_
    refine congrArg₂ (· * ·) ?_ (blk3_apply1 V c t j q)
    refine (scAt1_value V c t.val t.isLt p j ⟨1024 * (t.val / 8) + p.val, hrow⟩ rfl).trans ?_
    rw [h7]
    exact aggBlocks_eight _ _ _ _
  · -- the node's own hidden features are the tile's rows of the hidden array
    exact Finset.sum_congr rfl fun j _ =>
      congrArg₂ (· * ·) (blk2_apply1 V c t p j ⟨1024 * (t.val / 8) + p.val, hrow⟩ rfl) (blk4_apply1 V c t j q)
  · exact blk5_apply1 V c t q

end Cert.KernelIdeal.SageValue

end
-- ==== Proof.KernelValue1.lean ====
/-
  The second layer's kernel region at the exact values: the array it leaves is the layer's output, entry by entry.

  The result tile stored at a row tile's last neighbour block is the second layer at that tile's rows (the classifier's
  output: the layer ends with the bias, nothing is applied after it); and the result tiles, written back once per row
  tile, tile the output array.
-/
import proofs.«175430_j17154099380260_1_alg».proof.Proof.KernelTile1
import proofs.«175430_j17154099380260_1_alg».proof.Proof.SageSpec
import proofs.«175430_j17154099380260_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SageValue

open Cert.KernelIdeal Cert.KernelIdeal.Gen Cert.KernelIdeal.Sage Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The result tiles tile the array

The result window's block at the grid point t is the row tile t / 8 of the array, all 40 columns; it is written back
at the points t with t % 8 = 7, and there it holds the layer at the tile's rows. Row r lies in the row tile r / 1024, so the
point 8 · (r / 1024) + 7 writes its entries back, and the array ends holding the layer at every entry. -/

/-- The classifier's output as one array: entry (r, q) is the second layer at row r, column q. -/
def result1 (c : Dev nD) : FVec Ideal S16384x40 .f32 := fun idx => layer1 V c (idx 0) (idx 1)

/-- The result window's block index at a grid point: row tile t / 8, the one column tile. -/
theorem rowTile_index1 : ∀ t : Fin cfg1.N, win1_6.index t (0 : Fin 2) = t.val / 8 ∧ win1_6.index t (1 : Fin 2) = 0 :=
  (by decide +kernel : ∀ t : Fin grid1.N, win1_6.index t (0 : Fin 2) = t.val / 8 ∧ win1_6.index t (1 : Fin 2) = 0)

/-- Entry (p, q) of the block at point t sits in the array at row 1024 · (t / 8) + p, column q: on each axis the
    coordinate is the block index times the block's extent plus the coordinate inside the block. -/
theorem blk_emb1 (t : Fin cfg1.N) (p : Fin 1024) (q : Fin 40) (hb : 1024 * (t.val / 8) + p.val < 16384) :
    ((cfg1.win 6).blk t).view.emb (ix2 p q) = (ix2 ⟨1024 * (t.val / 8) + p.val, hb⟩ q : S16384x40.Idx) := by
  obtain ⟨e0, e1⟩ := rowTile_index1 t
  funext a; apply Fin.ext
  match a with
  | ⟨0, _⟩ => show win1_6.index t (0 : Fin 2) * 1024 + 1 * p.val = 1024 * (t.val / 8) + p.val; rw [e0]; omega
  | ⟨1, _⟩ => show win1_6.index t (1 : Fin 2) * 40 + 1 * q.val = q.val; rw [e1]; omega

/-- What a row tile's last point writes back is that tile of the output: the stored result tile is the layer at the
    tile's rows, and its entries sit in the array at exactly those rows. -/
theorem flushed1_eq (c : Dev nD) (t : Fin cfg1.N) (hf : (cfg1.win 6).flush t = true) :
    (dat1 (F := Ideal) V c).flushed 6 t = ((cfg1.win 6).blk t).view.read (Elt Ideal) (result1 V c) := by
  have h7 : t.val % 8 = 7 := (flush1_6 t).mp hf
  have hN : t.val < 128 := lt_of_lt_of_eq t.isLt (show cfg1.N = 128 from N_1)
  show (cfg1.win 6).cut (grid1.coords t) ((dat1 (F := Ideal) V c).after 6 t) = _
  rw [after1_6]
  funext y
  obtain ⟨p, q, rfl⟩ : ∃ (p : Fin 1024) (q : Fin 40), y = ix2 p q := ⟨y 0, y 1, eq_ix2 y⟩
  have hb : 1024 * (t.val / 8) + p.val < 16384 := by have := p.isLt; omega
  show (out1 (F := Ideal) V c t : FVec Ideal S1024x40 .f32) (ix2 p q) = result1 V c (((cfg1.win 6).blk t).view.emb (ix2 p q))
  rw [blk_emb1 t p q hb]
  exact out1_value V c t h7 p q

/-- An index of the array lies in the block of point t iff, on each axis, its coordinate lies in the block's range. -/
theorem mem_blk1 (t : Fin cfg1.N) (i : S16384x40.Idx) :
    i ∈ ((cfg1.win 6).blk t).view.set ↔ ∀ a : Fin 2, win1_6.index t a * S1024x40.size a ≤ (i a).val ∧ (i a).val < win1_6.index t a * S1024x40.size a + S1024x40.size a := by
  show i ∈ ((View.whole main_v7).slice (win1_6.rect t)).set ↔ _
  rw [View.set_slice_whole, Rect.mem_set_unit]
  exact Iff.rfl

/-- Every entry of the array is written back: row r lies in the row tile r / 1024, whose last point 8 · (r / 1024) + 7
    writes the tile back. -/
theorem covered1 (i : S16384x40.Idx) :
    ∃ t : Fin cfg1.N, (cfg1.win 6).flush t = true ∧ i ∈ ((cfg1.win 6).blk t).view.set := by
  have hN : cfg1.N = 128 := N_1
  have hi0 : (i 0).val < 16384 := (i 0).isLt
  have hi1 : (i 1).val < 40 := (i 1).isLt
  obtain ⟨t, ht⟩ : ∃ t : Fin cfg1.N, t.val = 8 * ((i 0).val / 1024) + 7 := ⟨⟨8 * ((i 0).val / 1024) + 7, by omega⟩, rfl⟩
  obtain ⟨e0, e1⟩ := rowTile_index1 t
  refine ⟨t, (flush1_6 t).mpr (by omega), ?_⟩
  rw [mem_blk1]
  intro a
  match a with
  | ⟨0, _⟩ => show win1_6.index t (0 : Fin 2) * 1024 ≤ (i 0).val ∧ (i 0).val < win1_6.index t (0 : Fin 2) * 1024 + 1024; rw [e0]; omega
  | ⟨1, _⟩ => show win1_6.index t (1 : Fin 2) * 40 ≤ (i 1).val ∧ (i 1).val < win1_6.index t (1 : Fin 2) * 40 + 40; rw [e1]; omega

/-- So the array the region leaves is the classifier's output: every point that writes back writes its tile of it, and
    the tiles cover the array. -/
theorem final1_array (c : Dev nD) : (dat1 (F := Ideal) V c).arrAt 6 cfg1.N = result1 V c :=
  (dat1 (F := Ideal) V c).arrAt_eq_of_cover 6 (result1 V c) (flushed1_eq V c) covered1

/-- The output array as the second region leaves it: at row r, column q the second layer of the arrays the region
    found. -/
theorem final1 (c : Dev nD) (r : Fin 16384) (q : Fin 40) :
    ((dat1 (F := Ideal) V c).arrAt 6 cfg1.N : FVec Ideal S16384x40 .f32) (ix2 r q)
      = layer1 V c r q :=
  congrFun (final1_array V c) (ix2 r q)

end Cert.KernelIdeal.SageValue

end
-- ==== Proof.HostGlue.lean ====
/-
  The kernel program's host operations, read back: the two weight matrices are cut in an upper and a lower half and the
  two biases are laid out as one-row matrices. Entry by entry the halves are the matrix's rows 0 … d-1 and d … 2d-1, and
  the row is the bias.
-/
import proofs.«175430_j17154099380260_1_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.SageValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The two halves of a matrix of k + k rows

A unit-stride slice at offset (o, 0) reads entry (o + j, q) of its operand at (j, q). With o = 0 the row j < k is
row j of the k + k rows (`Fin.castAdd`); with o = k it is row k + j (`Fin.natAdd`). -/

/-- Rows 0 … k-1 of a matrix of k + k rows: entry (j, q) of the upper half is entry (j, q) of the matrix. -/
theorem slice_upper_apply {k n : Nat} (x : (⟨2, ![k + k, n]⟩ : Shape).Idx → Ideal .f32)
    (h : (⟨2, ![k + k, n]⟩ : Shape).Slices ![0, 0] ⟨2, ![k, n]⟩) (j : Fin k) (q : Fin n) :
    extractStridedSlice ⟨2, ![k, n]⟩ ![0, 0] x h (ix2 j q) = x (ix2 (Fin.castAdd k j) q) :=
  extractStridedSlice_apply _ x h _ _ (fun a => match a with
    | ⟨0, _⟩ => by show j.val = 0 + j.val; omega
    | ⟨1, _⟩ => by show q.val = 0 + q.val; omega)

/-- Rows k … 2k-1 of a matrix of k + k rows: entry (j, q) of the lower half is entry (k + j, q) of the matrix. -/
theorem slice_lower_apply {k n : Nat} (x : (⟨2, ![k + k, n]⟩ : Shape).Idx → Ideal .f32)
    (h : (⟨2, ![k + k, n]⟩ : Shape).Slices ![k, 0] ⟨2, ![k, n]⟩) (j : Fin k) (q : Fin n) :
    extractStridedSlice ⟨2, ![k, n]⟩ ![k, 0] x h (ix2 j q) = x (ix2 (Fin.natAdd k j) q) :=
  extractStridedSlice_apply _ x h _ _ (fun a => match a with
    | ⟨0, _⟩ => by show k + j.val = k + j.val; rfl
    | ⟨1, _⟩ => by show q.val = 0 + q.val; omega)

/-! ## The six operations' results

Each result buffer is written by exactly one of the six operations and read by none of the others, so after the
stretch it holds that operation's function of the launch contents of its operand: a half of a weight matrix, or a bias
laid out as a row. Read at an index, a half is the matrix at the shifted row and the row is the bias. -/

/-- The upper half of the first weight matrix. -/
theorem glue_v0 (c : Dev nD) (j : Fin 512) (q : Fin 256) :
    (V1 m c main_v0 : FVec Ideal S512x256 .f32) (ix2 j q)
      = (m ((c : Thread nD τ).loc main_arg2) : FVec Ideal S1024x256 .f32) (ix2 (Fin.castAdd 512 j) q) := by
  have e : (V1 m c main_v0 : FVec Ideal S512x256 .f32)
      = extractStridedSlice S512x256 ![0, 0] (m ((c : Thread nD τ).loc main_arg2)) slices_S1024x256_S512x256_0_0 := by
    dsimp only [V1, V0, hostOps0]; after_results
  rw [e]
  exact slice_upper_apply (k := 512) (n := 256) _ _ j q

/-- The lower half of the first weight matrix. -/
theorem glue_v1 (c : Dev nD) (j : Fin 512) (q : Fin 256) :
    (V1 m c main_v1 : FVec Ideal S512x256 .f32) (ix2 j q)
      = (m ((c : Thread nD τ).loc main_arg2) : FVec Ideal S1024x256 .f32) (ix2 (Fin.natAdd 512 j) q) := by
  have e : (V1 m c main_v1 : FVec Ideal S512x256 .f32)
      = extractStridedSlice S512x256 ![512, 0] (m ((c : Thread nD τ).loc main_arg2)) slices_S1024x256_S512x256_512_0 := by
    dsimp only [V1, V0, hostOps0]; after_results
  rw [e]
  exact slice_lower_apply (k := 512) (n := 256) _ _ j q

/-- The upper half of the second weight matrix. -/
theorem glue_v2 (c : Dev nD) (j : Fin 256) (q : Fin 40) :
    (V1 m c main_v2 : FVec Ideal S256x40 .f32) (ix2 j q)
      = (m ((c : Thread nD τ).loc main_arg4) : FVec Ideal S512x40 .f32) (ix2 (Fin.castAdd 256 j) q) := by
  have e : (V1 m c main_v2 : FVec Ideal S256x40 .f32)
      = extractStridedSlice S256x40 ![0, 0] (m ((c : Thread nD τ).loc main_arg4)) slices_S512x40_S256x40_0_0 := by
    dsimp only [V1, V0, hostOps0]; after_results
  rw [e]
  exact slice_upper_apply (k := 256) (n := 40) _ _ j q

/-- The lower half of the second weight matrix. -/
theorem glue_v3 (c : Dev nD) (j : Fin 256) (q : Fin 40) :
    (V1 m c main_v3 : FVec Ideal S256x40 .f32) (ix2 j q)
      = (m ((c : Thread nD τ).loc main_arg4) : FVec Ideal S512x40 .f32) (ix2 (Fin.natAdd 256 j) q) := by
  have e : (V1 m c main_v3 : FVec Ideal S256x40 .f32)
      = extractStridedSlice S256x40 ![256, 0] (m ((c : Thread nD τ).loc main_arg4)) slices_S512x40_S256x40_256_0 := by
    dsimp only [V1, V0, hostOps0]; after_results
  rw [e]
  exact slice_lower_apply (k := 256) (n := 40) _ _ j q

/-- The first bias as a row. -/
theorem glue_v4 (c : Dev nD) (q : Fin 256) :
    (V1 m c main_v4 : FVec Ideal S1x256 .f32) (ix2 0 q) = (m ((c : Thread nD τ).loc main_arg3) : FVec Ideal S256 .f32) (ix1 q) := by
  have e : (V1 m c main_v4 : FVec Ideal S1x256 .f32)
      = shapeCast S1x256 (m ((c : Thread nD τ).loc main_arg3) : FVec Ideal S256 .f32) shapeCasts_S256_S1x256 := by
    dsimp only [V1, V0, hostOps0]; after_results; rfl
  rw [e]
  exact shapeCast_a_1a_apply _ _ 0 q

/-- The second bias as a row. -/
theorem glue_v5 (c : Dev nD) (q : Fin 40) :
    (V1 m c main_v5 : FVec Ideal S1x40 .f32) (ix2 0 q) = (m ((c : Thread nD τ).loc main_arg5) : FVec Ideal S40 .f32) (ix1 q) := by
  have e : (V1 m c main_v5 : FVec Ideal S1x40 .f32)
      = shapeCast S1x40 (m ((c : Thread nD τ).loc main_arg5) : FVec Ideal S40 .f32) shapeCasts_S40_S1x40 := by
    dsimp only [V1, V0, hostOps0]; after_results; rfl
  rw [e]
  exact shapeCast_a_1a_apply _ _ 0 q

end Cert.KernelIdeal.SageValue

end
-- ==== Proof.KernelOut.lean ====
/-
  The kernel program's result at the exact values: the array its second region leaves is the classifier's output of
  the six argument arrays, entry by entry.

  The second region finds the adjacency as launched, the hidden-layer array as the first region left it — the rectified
  first layer of the adjacency, the features, the two halves of the first weight matrix and the first bias as a row —,
  the two halves of the second weight matrix and the second bias as a row. A layer written with the weight in halves is
  the layer over the joined axis.
-/
import proofs.«175430_j17154099380260_1_alg».proof.Proof.KernelIdealFrame.Main
import proofs.«175430_j17154099380260_1_alg».proof.Proof.KernelValue0
import proofs.«175430_j17154099380260_1_alg».proof.Proof.KernelValue1
import proofs.«175430_j17154099380260_1_alg».proof.Proof.HostGlue
import proofs.«175430_j17154099380260_1_alg».proof.Proof.SageSpec

set_option maxRecDepth 16384

noncomputable section

namespace Cert.KernelIdeal.SageValue

open Cert.KernelIdeal Cert.KernelIdeal.Gen Cert.KernelIdeal.Sage Cert.Sage
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## A layer is a function of its five operands -/

/-- Equal operands give equal layers. -/
theorem conv_congr {d o : ℕ} {adj adj' : Fin 16384 → Fin 16384 → EReal} {x x' : Fin 16384 → Fin d → EReal}
    {wa wa' wb wb' : Fin d → Fin o → EReal} {b b' : Fin o → EReal}
    (hadj : adj = adj') (hx : x = x') (hwa : wa = wa') (hwb : wb = wb') (hb : b = b') :
    conv adj x wa wb b = conv adj' x' wa' wb' b' := by
  subst hadj hx hwa hwb hb
  rfl

/-! ## The arrays the two regions find

The host operations write only the two halves of each weight matrix and the two bias rows; the first region writes only
the hidden-layer array. So the adjacency and the features reach both regions as launched, the halves and the rows reach
them as the host operations left them, and the second region finds the hidden-layer array as the first region's
write-backs left it. -/

/-- A buffer the host operations do not write holds its launch contents when the first region starts. -/
theorem U1_launch (c : Dev nD) (b : Ref sig .tc) (h : b ∉ hostOps0_W) :
    U1 m c b = m ((c : Thread nD τ).loc b) :=
  V1_of m c b h

/-- The second region finds every buffer but the hidden-layer array as the first region found it. -/
theorem U2_U1 (c : Dev nD) (b : Ref sig .tc) (hb : b ≠ main_v6) : U2 m c b = U1 m c b :=
  W2_keep m c b hb

/-! ### The first region's operands -/

/-- The adjacency, as launched. -/
theorem adj0 (c : Dev nD) :
    mat (U1 m c main_arg0 : FVec Ideal S16384x16384 .f32)
      = mat (m ((c : Thread nD τ).loc main_arg0) : FVec Ideal S16384x16384 .f32) := by
  funext r s
  exact congrFun (U1_launch m c main_arg0 (by decide)) (ix2 r s)

/-- The node features, as launched. -/
theorem feat0 (c : Dev nD) :
    mat (U1 m c main_arg1 : FVec Ideal S16384x512 .f32)
      = mat (m ((c : Thread nD τ).loc main_arg1) : FVec Ideal S16384x512 .f32) := by
  funext r s
  exact congrFun (U1_launch m c main_arg1 (by decide)) (ix2 r s)

/-- The upper half of the first weight matrix: its rows 0 … 511. -/
theorem wUp0 (c : Dev nD) :
    mat (U1 m c main_v0 : FVec Ideal S512x256 .f32)
      = fun j => mat (m ((c : Thread nD τ).loc main_arg2) : FVec Ideal S1024x256 .f32) (Fin.castAdd 512 j) := by
  funext j q
  exact glue_v0 m c j q

/-- The lower half of the first weight matrix: its rows 512 … 1023. -/
theorem wLo0 (c : Dev nD) :
    mat (U1 m c main_v1 : FVec Ideal S512x256 .f32)
      = fun j => mat (m ((c : Thread nD τ).loc main_arg2) : FVec Ideal S1024x256 .f32) (Fin.natAdd 512 j) := by
  funext j q
  exact glue_v1 m c j q

/-- The first bias row is the first bias. -/
theorem bias0 (c : Dev nD) :
    (fun q' => (U1 m c main_v4 : FVec Ideal S1x256 .f32) (ix2 0 q'))
      = vec (m ((c : Thread nD τ).loc main_arg3) : FVec Ideal S256 .f32) := by
  funext q
  exact glue_v4 m c q

/-! ### The hidden layer -/

/-- The hidden-layer array the second region finds, at row r, column j: the rectified first layer of the arrays as
    launched. The first region's layer is written with the weight in halves; that is the layer over the joined axis. -/
theorem hidden_value (c : Dev nD) (r : Fin 16384) (j : Fin 256) :
    (U2 m c main_v6 : FVec Ideal S16384x256 .f32) (ix2 r j)
      = hidden (mat (m ((c : Thread nD τ).loc main_arg0) : FVec Ideal S16384x16384 .f32))
          (mat (m ((c : Thread nD τ).loc main_arg1) : FVec Ideal S16384x512 .f32))
          (mat (m ((c : Thread nD τ).loc main_arg2) : FVec Ideal S1024x256 .f32))
          (vec (m ((c : Thread nD τ).loc main_arg3) : FVec Ideal S256 .f32)) r j := by
  have e : (U2 m c main_v6 : FVec Ideal S16384x256 .f32) (ix2 r j)
      = ((dat0 (F := Ideal) (U1 m) c).arrAt 6 cfg0.N : FVec Ideal S16384x256 .f32) (ix2 r j) :=
    congrFun (W2_out m c) (ix2 r j)
  refine e.trans ((final0 (U1 m) c r j).trans ?_)
  unfold layer0 Cert.Sage.hidden
  rw [convJoined_eq_conv]
  exact congrArg relu
    (congrFun (congrFun (conv_congr (adj0 m c) (feat0 m c) (wUp0 m c) (wLo0 m c) (bias0 m c)) r) j)

/-! ### The second region's operands -/

/-- The adjacency, as launched. -/
theorem adj1 (c : Dev nD) :
    mat (U2 m c main_arg0 : FVec Ideal S16384x16384 .f32)
      = mat (m ((c : Thread nD τ).loc main_arg0) : FVec Ideal S16384x16384 .f32) := by
  funext r s
  exact (congrFun (U2_U1 m c main_arg0 (by decide)) (ix2 r s)).trans
    (congrFun (U1_launch m c main_arg0 (by decide)) (ix2 r s))

/-- The hidden-layer array read as a matrix is the hidden layer. -/
theorem hid1 (c : Dev nD) :
    mat (U2 m c main_v6 : FVec Ideal S16384x256 .f32)
      = hidden (mat (m ((c : Thread nD τ).loc main_arg0) : FVec Ideal S16384x16384 .f32))
          (mat (m ((c : Thread nD τ).loc main_arg1) : FVec Ideal S16384x512 .f32))
          (mat (m ((c : Thread nD τ).loc main_arg2) : FVec Ideal S1024x256 .f32))
          (vec (m ((c : Thread nD τ).loc main_arg3) : FVec Ideal S256 .f32)) := by
  funext r j
  exact hidden_value m c r j

/-- The upper half of the second weight matrix: its rows 0 … 255. -/
theorem wUp1 (c : Dev nD) :
    mat (U2 m c main_v2 : FVec Ideal S256x40 .f32)
      = fun j => mat (m ((c : Thread nD τ).loc main_arg4) : FVec Ideal S512x40 .f32) (Fin.castAdd 256 j) := by
  funext j q
  exact (congrFun (U2_U1 m c main_v2 (by decide)) (ix2 j q)).trans (glue_v2 m c j q)

/-- The lower half of the second weight matrix: its rows 256 … 511. -/
theorem wLo1 (c : Dev nD) :
    mat (U2 m c main_v3 : FVec Ideal S256x40 .f32)
      = fun j => mat (m ((c : Thread nD τ).loc main_arg4) : FVec Ideal S512x40 .f32) (Fin.natAdd 256 j) := by
  funext j q
  exact (congrFun (U2_U1 m c main_v3 (by decide)) (ix2 j q)).trans (glue_v3 m c j q)

/-- The second bias row is the second bias. -/
theorem bias1 (c : Dev nD) :
    (fun q' => (U2 m c main_v5 : FVec Ideal S1x40 .f32) (ix2 0 q'))
      = vec (m ((c : Thread nD τ).loc main_arg5) : FVec Ideal S40 .f32) := by
  funext q
  exact (congrFun (U2_U1 m c main_v5 (by decide)) (ix2 0 q)).trans (glue_v5 m c q)

/-! ## The result -/

/-- The result array after the run, at row r, column q: the classifier's output of the arrays as launched. -/
theorem kernel_value (c : Dev nD) (r : Fin 16384) (q : Fin 40) :
    ((dat1 (F := Ideal) (U2 m) c).arrAt 6 cfg1.N : FVec Ideal S16384x40 .f32) (ix2 r q)
      = out (mat (m ((c : Thread nD τ).loc main_arg0) : FVec Ideal S16384x16384 .f32)) (mat (m ((c : Thread nD τ).loc main_arg1) : FVec Ideal S16384x512 .f32))
          (mat (m ((c : Thread nD τ).loc main_arg2) : FVec Ideal S1024x256 .f32)) (vec (m ((c : Thread nD τ).loc main_arg3) : FVec Ideal S256 .f32))
          (mat (m ((c : Thread nD τ).loc main_arg4) : FVec Ideal S512x40 .f32)) (vec (m ((c : Thread nD τ).loc main_arg5) : FVec Ideal S40 .f32)) r q := by
  refine (final1 (U2 m) c r q).trans ?_
  unfold layer1 Cert.Sage.out
  rw [convJoined_eq_conv]
  exact congrFun (congrFun (conv_congr (adj1 m c) (hid1 m c) (wUp1 m c) (wLo1 m c) (bias1 m c)) r) q

end Cert.KernelIdeal.SageValue

end
-- ==== Proof.RefRead.lean ====
/-
  The reference program's run, read back one operation at a time: this module only gathers the generated run of
  the reference and its read-at-an-index lemmas, so that the modules about the reference's value import one name.
-/
import proofs.«175430_j17154099380260_1_alg».proof.Proof.Gen.ReferenceIdeal.Run
import proofs.«175430_j17154099380260_1_alg».proof.Proof.Gen.ReferenceIdeal.Read
-- ==== Proof.RefValue.lean ====
/-
  The reference program's result, entry by entry: its last stage read back through every operation is the two-layer
  classifier of SageSpec (`Cert.Sage.out`) of the six argument arrays.

  Each matrix product of the host is the plain sum over its contracted axis; each join of the aggregate with the
  node's own features along the feature axis is `Fin.append` of the two rows; the two broadcasts of a bias read
  the bias at the column; the rectifier is the larger of the value and the zero word's value.
-/
import proofs.«175430_j17154099380260_1_alg».proof.Proof.RefRead
import proofs.«175430_j17154099380260_1_alg».proof.Proof.SageSpec
import proofs.«175430_j17154099380260_1_alg».proof.Proof.LibPlainDot
import Idealize.ShloMosaic.Lib.Pipeline.Value
import Idealize.ShloMosaic.Lib.ValueIdx
import Idealize.ShloMosaic.PureOps.Ideal.Laws

noncomputable section

namespace Cert.Sage.Ref

open Idealize.ShloMosaic Idealize.ShloMosaic.ValueIdx Cert.ReferenceIdeal Cert.ReferenceIdeal.Gen Cert.Sage

/-! ## Joining two matrices along the column axis -/

/-- Two matrices with the same a rows, of m and of n columns, joined along the column axis: row p of the result is
    row p of the first followed by row p of the second. A column below m falls in the first piece at the same
    place; a column m + c falls in the second piece at column c. -/
theorem concat_cols {α : Type} {a m n : ℕ}
    (h : Shape.Concatenates [(⟨2, ![a, m]⟩ : Shape), ⟨2, ![a, n]⟩] ⟨2, ![a, m + n]⟩ 1)
    (x : (⟨2, ![a, m]⟩ : Shape).Idx → α) (y : (⟨2, ![a, n]⟩ : Shape).Idx → α) (p : Fin a) (j : Fin (m + n)) :
    concatenate ⟨2, ![a, m + n]⟩ 1 [⟨⟨2, ![a, m]⟩, x⟩, ⟨⟨2, ![a, n]⟩, y⟩] h (ix2 p j)
      = Fin.append (fun c => x (ix2 p c)) (fun c => y (ix2 p c)) j := by
  induction j using Fin.addCases with
  | left c =>
    rw [Fin.append_left]
    exact concatenate_pair_apply_left 1 x y h (ix2 p (Fin.castAdd n c)) rfl (ix2 p c)
      (fun b => match b with | ⟨0, _⟩ => rfl | ⟨1, _⟩ => rfl)
  | right c =>
    rw [Fin.append_right]
    exact concatenate_pair_apply_right 1 x y h (ix2 p (Fin.natAdd m c)) rfl rfl (ix2 p c)
      (fun b hb => match b with | ⟨0, _⟩ => rfl | ⟨1, _⟩ => absurd rfl hb)
      (by show c.val + m = m + c.val; omega)

/-! ## The first layer -/

section Stages

variable (x0 : FVec Ideal S16384x16384 .f32) (x1 : FVec Ideal S16384x512 .f32) (x2 : FVec Ideal S1024x256 .f32)
  (x3 : FVec Ideal S256 .f32) (x4 : FVec Ideal S512x40 .f32) (x5 : FVec Ideal S40 .f32)

/-- The first product is the neighbour aggregate of the input features. -/
theorem hv0 (p : Fin 16384) (j : Fin 512) :
    Read.val_main_v0 (F := Ideal) x0 x1 (ix2 p j) = agg (mat x0) (mat x1) p j := by
  unfold Read.val_main_v0
  have hP : Cert.PlainDot.Plain dot_S16384x16384_S16384x512_S16384x512_1_0_0_1_n_n := ⟨rfl, rfl, rfl, rfl, rfl, rfl⟩
  have h := Cert.PlainDot.dotGeneral_apply hP rfl rfl none x0 x1 p j
  rw [h]
  rfl

/-- The first join: the aggregate's row followed by the node's own row. -/
theorem hv1 (p : Fin 16384) (j : Fin 1024) :
    Read.val_main_v1 (F := Ideal) x0 x1 (ix2 p j) = Fin.append (agg (mat x0) (mat x1) p) (mat x1 p) j := by
  unfold Read.val_main_v1
  refine (concat_cols (m := 512) (n := 512) _ (Read.val_main_v0 (F := Ideal) x0 x1) x1 p j).trans ?_
  exact congrArg (fun f => Fin.append (m := 512) (n := 512) f (mat x1 p) j) (funext fun c => hv0 x0 x1 p c)

/-- The second product runs over the joined axis. -/
theorem hv2 (p : Fin 16384) (q : Fin 256) :
    Read.val_main_v2 (F := Ideal) x0 x1 x2 (ix2 p q)
      = ∑ j : Fin (512 + 512), Fin.append (agg (mat x0) (mat x1) p) (mat x1 p) j * mat x2 j q := by
  unfold Read.val_main_v2
  have hP : Cert.PlainDot.Plain dot_S16384x1024_S1024x256_S16384x256_1_0_0_1_n_n := ⟨rfl, rfl, rfl, rfl, rfl, rfl⟩
  rw [Cert.PlainDot.dotGeneral_apply hP rfl rfl none (Read.val_main_v1 (F := Ideal) x0 x1) x2 p q]
  refine Finset.sum_congr rfl fun κ _ => ?_
  rw [hv1]

/-- The bias of the first layer, broadcast over the rows, read at a column. -/
theorem hv4 (p : Fin 16384) (q : Fin 256) : Read.val_main_v4 (F := Ideal) x3 (ix2 p q) = vec x3 q := by
  rw [Read.val_main_v4_apply, Read.val_main_v3_apply]
  exact congrArg x3 (funext fun a => match a with | ⟨0, _⟩ => rfl)

/-- The first layer before the rectifier. -/
theorem hv5 (p : Fin 16384) (q : Fin 256) :
    Read.val_main_v5 (F := Ideal) x0 x1 x2 x3 (ix2 p q)
      = convJoined (d := 512) (mat x0) (mat x1) (mat x2) (vec x3) p q := by
  unfold Read.val_main_v5
  rw [addf_apply, hv2, hv4]
  rfl

/-- The rectifier's zero, broadcast over the whole array, read anywhere. -/
theorem hzero (i : S16384x256.Idx) : Read.val_main_call0_v0 (F := Ideal) i = Ideal.ofBits .f32 0x00000000#32 := by
  rw [Read.val_main_call0_v0_apply, Read.val_main_call0_cst_apply]
  rfl

/-- The hidden layer. -/
theorem hv6 (p : Fin 16384) (q : Fin 256) :
    Read.val_main_v6 (F := Ideal) x0 x1 x2 x3 (ix2 p q) = hidden (mat x0) (mat x1) (mat x2) (vec x3) p q := by
  unfold Read.val_main_v6
  rw [maximumf_apply, hv5, hzero]
  rfl

/-! ## The second layer -/

/-- The third product is the neighbour aggregate of the hidden layer. -/
theorem hv7 (p : Fin 16384) (j : Fin 256) :
    Read.val_main_v7 (F := Ideal) x0 x1 x2 x3 (ix2 p j)
      = agg (mat x0) (hidden (mat x0) (mat x1) (mat x2) (vec x3)) p j := by
  unfold Read.val_main_v7
  have hP : Cert.PlainDot.Plain dot_S16384x16384_S16384x256_S16384x256_1_0_0_1_n_n := ⟨rfl, rfl, rfl, rfl, rfl, rfl⟩
  rw [Cert.PlainDot.dotGeneral_apply hP rfl rfl none x0 (Read.val_main_v6 (F := Ideal) x0 x1 x2 x3) p j]
  unfold agg
  refine Finset.sum_congr rfl fun κ _ => ?_
  rw [hv6]

/-- The second join: the hidden aggregate's row followed by the node's own hidden row. -/
theorem hv8 (p : Fin 16384) (j : Fin 512) :
    Read.val_main_v8 (F := Ideal) x0 x1 x2 x3 (ix2 p j)
      = Fin.append (agg (mat x0) (hidden (mat x0) (mat x1) (mat x2) (vec x3)) p)
          (hidden (mat x0) (mat x1) (mat x2) (vec x3) p) j := by
  unfold Read.val_main_v8
  refine (concat_cols (m := 256) (n := 256) _ (Read.val_main_v7 (F := Ideal) x0 x1 x2 x3)
    (Read.val_main_v6 (F := Ideal) x0 x1 x2 x3) p j).trans ?_
  rw [show (fun c => Read.val_main_v7 (F := Ideal) x0 x1 x2 x3 (ix2 p c))
        = agg (mat x0) (hidden (mat x0) (mat x1) (mat x2) (vec x3)) p from funext fun c => hv7 x0 x1 x2 x3 p c,
    show (fun c => Read.val_main_v6 (F := Ideal) x0 x1 x2 x3 (ix2 p c))
        = hidden (mat x0) (mat x1) (mat x2) (vec x3) p from funext fun c => hv6 x0 x1 x2 x3 p c]

/-- The fourth product runs over the joined hidden axis. -/
theorem hv9 (p : Fin 16384) (q : Fin 40) :
    Read.val_main_v9 (F := Ideal) x0 x1 x2 x3 x4 (ix2 p q)
      = ∑ j : Fin (256 + 256), Fin.append (agg (mat x0) (hidden (mat x0) (mat x1) (mat x2) (vec x3)) p)
          (hidden (mat x0) (mat x1) (mat x2) (vec x3) p) j * mat x4 j q := by
  unfold Read.val_main_v9
  have hP : Cert.PlainDot.Plain dot_S16384x512_S512x40_S16384x40_1_0_0_1_n_n := ⟨rfl, rfl, rfl, rfl, rfl, rfl⟩
  rw [Cert.PlainDot.dotGeneral_apply hP rfl rfl none (Read.val_main_v8 (F := Ideal) x0 x1 x2 x3) x4 p q]
  refine Finset.sum_congr rfl fun κ _ => ?_
  rw [hv8]

/-- The bias of the second layer, broadcast over the rows, read at a column. -/
theorem hv11 (p : Fin 16384) (q : Fin 40) : Read.val_main_v11 (F := Ideal) x5 (ix2 p q) = vec x5 q := by
  rw [Read.val_main_v11_apply, Read.val_main_v10_apply]
  exact congrArg x5 (funext fun a => match a with | ⟨0, _⟩ => rfl)

end Stages

/-- The reference's result at row r, column q is the classifier's output there. -/
theorem ref_value (x0 : FVec Ideal S16384x16384 .f32) (x1 : FVec Ideal S16384x512 .f32) (x2 : FVec Ideal S1024x256 .f32)
    (x3 : FVec Ideal S256 .f32) (x4 : FVec Ideal S512x40 .f32) (x5 : FVec Ideal S40 .f32) (r : Fin 16384) (q : Fin 40) :
    Cert.ReferenceIdeal.Read.val_main_v12 (F := Ideal) x0 x1 x2 x3 x4 x5 (ix2 r q)
      = Cert.Sage.out (mat x0) (mat x1) (mat x2) (vec x3) (mat x4) (vec x5) r q := by
  unfold Read.val_main_v12
  rw [addf_apply, hv9, hv11]
  rfl

end Cert.Sage.Ref

end
-- ==== Proof.lean ====
/-
  A two-layer graph-convolution classifier of the SAGE kind: the Pallas program against the plain reference.

  One layer takes the adjacency adj [N, N], node features x [N, d], a weight W [2d, o] and a bias b [o], and returns
      (adj · x ++ x) · W + b ,
  the neighbour aggregate adj · x joined with the node's own features along the feature axis; the classifier is the
  rectified layer (W1, b1) followed by the layer (W2, b2) over its result. The reference computes exactly that. The Pallas
  program cuts each weight in its upper and lower d rows on the host and runs one kernel region per layer over a grid of
  16 row tiles by 8 neighbour blocks: a row tile's aggregate is accumulated block by block in a scratch buffer, cleared
  at the tile's first block, and at its last block the tile of the layer is produced as
      aggregate · W_upper + own features · W_lower + b
  (rectified in the first layer) and written back.

  At the exact values the two agree entry by entry: the eight block sums, added in order onto zero, are the sum over all
  neighbours, and the product over the joined axis is the sum of the two half products — regroupings of finite sums in
  the extended reals' commutative monoid, so the inputs' finiteness is never used. Both kernel programs (the word-level
  one and its reading at the exact values, which are one text) run to the end from any memory and leave their arguments
  as launched: each region's body is run in its three cases (first, middle, last neighbour block), the accumulator's
  contents are carried by the region's invariant, and the array two windows read is held in halves by them.
-/
import proofs.«175430_j17154099380260_1_alg».proof.Defs
import proofs.«175430_j17154099380260_1_alg».proof.Proof.Gen.Kernel
import proofs.«175430_j17154099380260_1_alg».proof.Proof.Gen.KernelIdeal
import proofs.«175430_j17154099380260_1_alg».proof.Proof.Gen.ReferenceIdeal
import proofs.«175430_j17154099380260_1_alg».proof.Proof.Gen.Pre_finite_inputs
import proofs.«175430_j17154099380260_1_alg».proof.Proof.KernelFrame.Main
import proofs.«175430_j17154099380260_1_alg».proof.Proof.KernelIdealFrame.Main
import proofs.«175430_j17154099380260_1_alg».proof.Proof.KernelOut
import proofs.«175430_j17154099380260_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Sage

/-- The word-level kernel program runs and keeps its arguments: its run with the result dropped. -/
theorem frame_k : Cert.frame_Kernel := fun m ρ _ =>
  (θ_run Cert.Kernel.defs _ _).mono (fun _ h c => (h c).2) (Cert.Kernel.Sage.run_main (F := Bits) m ρ)

/-- The same program read at the exact values. -/
theorem frame_ki : Cert.frame_KernelIdeal := fun m ρ _ =>
  (θ_run Cert.KernelIdeal.defs _ _).mono (fun _ h c => (h c).2) (Cert.KernelIdeal.Sage.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The exact-value reading rewrote no operation. -/
theorem preserves : Cert.preserves_Kernel_KernelIdeal := trivial

/-- The classifier's output of the six arrays a memory holds for the kernel program, as one array. -/
def result (m : (ℓ : Loc Cert.KernelIdeal.nD Cert.KernelIdeal.τ Cert.KernelIdeal.sig) → Buf (Elt Ideal) ℓ)
    (c : Dev Cert.KernelIdeal.nD) : FVec Ideal Cert.KernelIdeal.S16384x40 .f32 :=
  fun idx => out
    (mat (m ((c.tc : Thread Cert.KernelIdeal.nD Cert.KernelIdeal.τ).loc Cert.KernelIdeal.main_arg0) : FVec Ideal Cert.KernelIdeal.S16384x16384 .f32))
    (mat (m ((c.tc : Thread Cert.KernelIdeal.nD Cert.KernelIdeal.τ).loc Cert.KernelIdeal.main_arg1) : FVec Ideal Cert.KernelIdeal.S16384x512 .f32))
    (mat (m ((c.tc : Thread Cert.KernelIdeal.nD Cert.KernelIdeal.τ).loc Cert.KernelIdeal.main_arg2) : FVec Ideal Cert.KernelIdeal.S1024x256 .f32))
    (vec (m ((c.tc : Thread Cert.KernelIdeal.nD Cert.KernelIdeal.τ).loc Cert.KernelIdeal.main_arg3) : FVec Ideal Cert.KernelIdeal.S256 .f32))
    (mat (m ((c.tc : Thread Cert.KernelIdeal.nD Cert.KernelIdeal.τ).loc Cert.KernelIdeal.main_arg4) : FVec Ideal Cert.KernelIdeal.S512x40 .f32))
    (vec (m ((c.tc : Thread Cert.KernelIdeal.nD Cert.KernelIdeal.τ).loc Cert.KernelIdeal.main_arg5) : FVec Ideal Cert.KernelIdeal.S40 .f32)) (idx 0) (idx 1)

/-- At the exact values both programs end with the classifier's output of the arguments: the kernel program's result
    array holds it by the two regions' values and the host's cuts, the reference's by its operations read back. -/
theorem algebraic : Cert.algebraic_KernelIdeal_ReferenceIdeal := by
  intro m ρ m' ρ' _ hagree
  refine ⟨fun c => result m c, ?_, ?_⟩
  · refine (θ_run Cert.KernelIdeal.defs _ _).mono (fun _ h c => ⟨(h c).1.trans ?_, (h c).2⟩)
      (Cert.KernelIdeal.Sage.run_main (F := Ideal) m ρ)
    funext idx
    obtain ⟨r, q, rfl⟩ : ∃ (r : Fin 16384) (q : Fin 40), idx = ix2 r q := ⟨idx 0, idx 1, eq_ix2 idx⟩
    exact Cert.KernelIdeal.SageValue.kernel_value m c r q
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq]
    funext idx
    obtain ⟨r, q, rfl⟩ : ∃ (r : Fin 16384) (q : Fin 40), idx = ix2 r q := ⟨idx 0, idx 1, eq_ix2 idx⟩
    rw [Cert.Sage.Ref.ref_value]
    rw [(hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
